-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S16x2049x2049 : Shape := ⟨3, ![16, 2049, 2049]⟩
abbrev S_ : Shape := ⟨0, ![]⟩

class Facts : Prop where
  bcast_S_S16x2049x2049 : S_.BroadcastsInDim S16x2049x2049 (![] : Fin 0 → Fin S16x2049x2049.rank)
  reducesTo_S16x2049x2049_S_d0_1_2 : S16x2049x2049.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg1 : IVec S16x2048 32) (main_v15 : IVec S_ 1) : IVec S_ 1 :=
  let main_c_6 : IVec S_ 32 := constantI S_ 32 2048#32
  let main_v16 : IVec S16x2048 32 := broadcastInDim S16x2048 ![] bcast_S_S16x2048 main_c_6
  let main_v17 : IVec S16x2048 1 := cmpi .sle main_arg1 main_v16
  let main_c_7 : IVec S_ 1 := constantI S_ 1 1#1
  let main_v18 : IVec S_ 1 := (fun x v => Host.reduce IntOp.andi x v reducesTo_S16x2048_S_d0_1 h_S_) main_v17 main_c_7
  let main_v19 : IVec S_ 1 := andi main_v15 main_v18
  main_v19

def fn {F : FTy → Type} [FloatOps F] (main_arg0 : IVec S16x2048 32) (main_arg1 : IVec S16x2048 32) (main_arg2 : FVec F S16x2049x2049 .f32) : IVec S_ 1 :=
  let main_v0 : FVec F S16x2049x2049 .f32 := Host.absf main_arg2
  let main_cst : FVec F S_ .f32 := constant S_ .f32 0x7F800000#32
  let main_v1 : FVec F S16x2049x2049 .f32 := broadcastInDim S16x2049x2049 ![] bcast_S_S16x2049x2049 main_cst
  let main_v2 : IVec S16x2049x2049 1 := cmpf .olt main_v0 main_v1
  let main_c : IVec S_ 1 := constantI S_ 1 1#1
  let main_v3 : IVec S_ 1 := (fun x v => Host.reduce IntOp.andi x v reducesTo_S16x2049x2049_S_d0_1_2 h_S_) main_v2 main_c
  let main_c_0 : IVec S_ 32 := constantI S_ 32 4294967295#32
  let main_v4 : IVec S16x2048 32 := broadcastInDim S16x2048 ![] bcast_S_S16x2048 main_c_0
  let main_v5 : IVec S16x2048 1 := cmpi .sge main_arg0 main_v4
  let main_c_1 : IVec S_ 1 := constantI S_ 1 1#1
  let main_v6 : IVec S_ 1 := (fun x v => Host.reduce IntOp.andi x v reducesTo_S16x2048_S_d0_1 h_S_) main_v5 main_c_1
  let main_v7 : IVec S_ 1 := andi main_v3 main_v6
  let main_c_2 : IVec S_ 32 := constantI S_ 32 2048#32
  let main_v8 : IVec S16x2048 32 := broadcastInDim S16x2048 ![] bcast_S_S16x2048 main_c_2
  let main_v9 : IVec S16x2048 1 := cmpi .sle main_arg0 main_v8
  let main_c_3 : IVec S_ 1 := constantI S_ 1 1#1
  let main_v10 : IVec S_ 1 := (fun x v => Host.reduce IntOp.andi x v reducesTo_S16x2048_S_d0_1 h_S_) main_v9 main_c_3
  let main_v11 : IVec S_ 1 := andi main_v7 main_v10
  let main_c_4 : IVec S_ 32 := constantI S_ 32 4294967295#32
  let main_v12 : IVec S16x2048 32 := broadcastInDim S16x2048 ![] bcast_S_S16x2048 main_c_4
  let main_v13 : IVec S16x2048 1 := cmpi .sge main_arg1 main_v12
  let main_c_5 : IVec S_ 1 := constantI S_ 1 1#1
  let main_v14 : IVec S_ 1 := (fun x v => Host.reduce IntOp.andi x v reducesTo_S16x2048_S_d0_1 h_S_) main_v13 main_c_5
  let main_v15 : IVec S_ 1 := andi main_v11 main_v14
  fn_part1 (F := F) main_arg1 main_v15
-- ==== Kernel.lean ====
abbrev S16x2048 : Shape := ⟨2, ![16, 2048]⟩
abbrev S16x2049x2049 : Shape := ⟨3, ![16, 2049, 2049]⟩
abbrev S_ : Shape := ⟨0, ![]⟩
abbrev S16x1 : Shape := ⟨2, ![16, 1]⟩
abbrev S16x2049 : Shape := ⟨2, ![16, 2049]⟩
abbrev S16x2049x1 : Shape := ⟨3, ![16, 2049, 1]⟩
abbrev S16x2049x1x1 : Shape := ⟨4, ![16, 2049, 1, 1]⟩
abbrev S1 : Shape := ⟨1, ![1]⟩
abbrev S1x1x1x1 : Shape := ⟨4, ![1, 1, 1, 1]⟩
abbrev S16x2048x1 : Shape := ⟨3, ![16, 2048, 1]⟩
abbrev S16x1x2049 : Shape := ⟨3, ![16, 1, 2049]⟩
abbrev S16x1x2049x1 : Shape := ⟨4, ![16, 1, 2049, 1]⟩
abbrev S2049 : Shape := ⟨1, ![2049]⟩
abbrev S1x1x2049 : Shape := ⟨3, ![1, 1, 2049]⟩
abbrev S16x1x1 : Shape := ⟨3, ![16, 1, 1]⟩
abbrev S1x2048x2049 : Shape := ⟨3, ![1, 2048, 2049]⟩
abbrev S1x2048x1 : Shape := ⟨3, ![1, 2048, 1]⟩
abbrev S1x1x1 : Shape := ⟨3, ![1, 1, 1]⟩
abbrev S2048x2049 : Shape := ⟨2, ![2048, 2049]⟩
abbrev S2048x1 : Shape := ⟨2, ![2048, 1]⟩
abbrev S2048 : Shape := ⟨1, ![2048]⟩
abbrev S1x1 : Shape := ⟨2, ![1, 1]⟩
abbrev S1x2049 : Shape := ⟨2, ![1, 2049]⟩
abbrev S16 : Shape := ⟨1, ![16]⟩
abbrev S16x1x2048 : Shape := ⟨3, ![16, 1, 2048]⟩

abbrev nBuf : Space → Nat
  | .hbm => 138
  | .vmem => 10
  | .smem => 0
  | _ => 0

abbrev hbmTy0_0 (i : Nat) : BufTy := match i % 128 with
  | 0 => ⟨S16x2048, .i32⟩
  | 1 => ⟨S16x2048, .i32⟩
  | 2 => ⟨S16x2049x2049, .f32⟩
  | 3 => ⟨S_, .i32⟩
  | 4 => ⟨S16x2048, .i32⟩
  | 5 => ⟨S16x2048, .i1⟩
  | 6 => ⟨S_, .i32⟩
  | 7 => ⟨S_, .i32⟩
  | 8 => ⟨S16x2048, .i32⟩
  | 9 => ⟨S16x2048, .i32⟩
  | 10 => ⟨S_, .i32⟩
  | 11 => ⟨S16x2048, .i32⟩
  | 12 => ⟨S16x2048, .i1⟩
  | 13 => ⟨S_, .i32⟩
  | 14 => ⟨S_, .i32⟩
  | 15 => ⟨S16x2048, .i32⟩
  | 16 => ⟨S16x2048, .i32⟩
  | 17 => ⟨S_, .i32⟩
  | 18 => ⟨S_, .i32⟩
  | 19 => ⟨S_, .i32⟩
  | 20 => ⟨S16x2048, .i32⟩
  | 21 => ⟨S16x2048, .i32⟩
  | 22 => ⟨S_, .i32⟩
  | 23 => ⟨S16x2048, .i32⟩
  | 24 => ⟨S16x2048, .i32⟩
  | 25 => ⟨S_, .i32⟩
  | 26 => ⟨S_, .i32⟩
  | 27 => ⟨S_, .i32⟩
  | 28 => ⟨S16x2048, .i32⟩
  | 29 => ⟨S16x2048, .i32⟩
  | 30 => ⟨S_, .i32⟩
  | 31 => ⟨S16x2048, .i32⟩
  | 32 => ⟨S16x2048, .i32⟩
  | 33 => ⟨S_, .i32⟩
  | 34 => ⟨S16x1, .i32⟩
  | 35 => ⟨S16x2049, .i32⟩
  | 36 => ⟨S16x2049x1, .i32⟩
  | 37 => ⟨S_, .i32⟩
  | 38 => ⟨S16x2049x1, .i32⟩
  | 39 => ⟨S16x2049x1, .i1⟩
  | 40 => ⟨S_, .i32⟩
  | 41 => ⟨S16x2049x1, .i32⟩
  | 42 => ⟨S16x2049x1, .i32⟩
  | 43 => ⟨S16x2049x1, .i32⟩
  | 44 => ⟨S16x2049x1x1, .i32⟩
  | 45 => ⟨S1, .i32⟩
  | 46 => ⟨S_, .i32⟩
  | 47 => ⟨S16x2049x1x1, .i32⟩
  | 48 => ⟨S16x2049x1x1, .i1⟩
  | 49 => ⟨S1x1x1x1, .i32⟩
  | 50 => ⟨S16x2049x1x1, .i32⟩
  | 51 => ⟨S16x2049x1x1, .i1⟩
  | 52 => ⟨S16x2049x1x1, .i1⟩
  | 53 => ⟨S_, .i1⟩
  | 54 => ⟨S16x2049x1, .i1⟩
  | 55 => ⟨S16x2049x1, .f32⟩
  | 56 => ⟨S_, .f32⟩
  | 57 => ⟨S16x2049x1, .f32⟩
  | 58 => ⟨S16x2049x1, .f32⟩
  | 59 => ⟨S16x2048x1, .f32⟩
  | 60 => ⟨S_, .f32⟩
  | 61 => ⟨S16x2048x1, .f32⟩
  | 62 => ⟨S16x2048x1, .f32⟩
  | 63 => ⟨S_, .i32⟩
  | 64 => ⟨S16x1, .i32⟩
  | 65 => ⟨S16x2049, .i32⟩
  | 66 => ⟨S16x1x2049, .i32⟩
  | 67 => ⟨S_, .i32⟩
  | 68 => ⟨S16x1x2049, .i32⟩
  | 69 => ⟨S16x1x2049, .i1⟩
  | 70 => ⟨S_, .i32⟩
  | 71 => ⟨S16x1x2049, .i32⟩
  | 72 => ⟨S16x1x2049, .i32⟩
  | 73 => ⟨S16x1x2049, .i32⟩
  | 74 => ⟨S16x1x2049x1, .i32⟩
  | 75 => ⟨S1, .i32⟩
  | 76 => ⟨S_, .i32⟩
  | 77 => ⟨S16x1x2049x1, .i32⟩
  | 78 => ⟨S16x1x2049x1, .i1⟩
  | 79 => ⟨S1x1x1x1, .i32⟩
  | 80 => ⟨S16x1x2049x1, .i32⟩
  | 81 => ⟨S16x1x2049x1, .i1⟩
  | 82 => ⟨S16x1x2049x1, .i1⟩
  | 83 => ⟨S_, .i1⟩
  | 84 => ⟨S16x1x2049, .i1⟩
  | 85 => ⟨S16x1x2049, .f32⟩
  | 86 => ⟨S_, .f32⟩
  | 87 => ⟨S16x1x2049, .f32⟩
  | 88 => ⟨S16x1x2049, .f32⟩
  | 89 => ⟨S2049, .i32⟩
  | 90 => ⟨S1x1x2049, .i32⟩
  | 91 => ⟨S_, .i32⟩
  | 92 => ⟨S1x1x2049, .i32⟩
  | 93 => ⟨S1x1x2049, .i1⟩
  | 94 => ⟨S_, .f32⟩
  | 95 => ⟨S16x1x2049, .f32⟩
  | 96 => ⟨S16x1x2049, .f32⟩
  | 97 => ⟨S_, .f32⟩
  | 98 => ⟨S_, .f32⟩
  | 99 => ⟨S16x1x2049, .i1⟩
  | 100 => ⟨S16x1x2049, .f32⟩
  | 101 => ⟨S16x1x2049, .f32⟩
  | 102 => ⟨S16x1x1, .f32⟩
  | 103 => ⟨S16x1x2049, .f32⟩
  | 104 => ⟨S16, .f32⟩
  | 105 => ⟨S16x1x2048, .f32⟩
  | 106 => ⟨S16x2048, .f32⟩
  | 107 => ⟨S16x1x2048, .f32⟩
  | 108 => ⟨S16x2048, .f32⟩
  | 109 => ⟨S16x1x2048, .f32⟩
  | 110 => ⟨S16x2048, .f32⟩
  | 111 => ⟨S16x2048, .f32⟩
  | 112 => ⟨S_, .f32⟩
  | 113 => ⟨S16x2048, .f32⟩
  | 114 => ⟨S16x2048, .f32⟩
  | 115 => ⟨S_, .f32⟩
  | 116 => ⟨S16x2048, .f32⟩
  | 117 => ⟨S16x2048, .f32⟩
  | 118 => ⟨S16x2048, .f32⟩
  | 119 => ⟨S_, .f32⟩
  | 120 => ⟨S16x2048, .f32⟩
  | 121 => ⟨S16x2048, .f32⟩
  | 122 => ⟨S_, .f32⟩
  | 123 => ⟨S16x2048, .f32⟩
  | 124 => ⟨S16x2048, .f32⟩
  | 125 => ⟨S16x2048, .f32⟩
  | 126 => ⟨S_, .f32⟩
  | 127 => ⟨S16x2048, .f32⟩
  | _ => ⟨S16x2048, .i32⟩

abbrev hbmTy0_1 (i : Nat) : BufTy := match i % 128 with
  | 0 => ⟨S16x2048, .f32⟩
  | 1 => ⟨S_, .f32⟩
  | 2 => ⟨S16, .f32⟩
  | 3 => ⟨S_, .f32⟩
  | 4 => ⟨S16, .f32⟩
  | 5 => ⟨S16, .f32⟩
  | 6 => ⟨S16, .f32⟩
  | 7 => ⟨S_, .f32⟩
  | 8 => ⟨S16, .f32⟩
  | 9 => ⟨S16, .f32⟩
  | _ => ⟨S16x2048, .i32⟩

abbrev hbmTy (i : Nat) : BufTy := match i / 128 with
  | 0 => hbmTy0_0 i
  | 1 => hbmTy0_1 i
  | _ => ⟨S16x2048, .i32⟩

abbrev bufTy : (tb : Table) → Fin (tcTables nBuf tb) → BufTy
  | .hbm, ⟨i, _⟩ => hbmTy i
  | .local _ .vmem, ⟨0, _⟩ => ⟨S1x2048x2049, .f32⟩
  | .local _ .vmem, ⟨1, _⟩ => ⟨S1x2048x2049, .f32⟩
  | .local _ .vmem, ⟨2, _⟩ => ⟨S1x2048x1, .f32⟩
  | .local _ .vmem, ⟨3, _⟩ => ⟨S1x2048x1, .f32⟩
  | .local _ .vmem, ⟨4, _⟩ => ⟨S1x1x2049, .f32⟩
  | .local _ .vmem, ⟨5, _⟩ => ⟨S1x1x2049, .f32⟩
  | .local _ .vmem, ⟨6, _⟩ => ⟨S1x1x1, .f32⟩
  | .local _ .vmem, ⟨7, _⟩ => ⟨S1x1x1, .f32⟩
  | .local _ .vmem, ⟨8, _⟩ => ⟨S1x1x2049, .f32⟩
  | .local _ .vmem, ⟨9, _⟩ => ⟨S1x1x2049, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_c_3 : Ref sig .tc := ⟨.hbm, 17, rfl⟩
abbrev main_c_4 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v6 : Ref sig .tc := ⟨.hbm, 24, rfl⟩
abbrev main_c_5 : Ref sig .tc := ⟨.hbm, 25, rfl⟩
abbrev main_c_6 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v7 : Ref sig .tc := ⟨.hbm, 32, rfl⟩
abbrev main_c_7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_call4_c : Ref sig .tc := ⟨.hbm, 37, rfl⟩
abbrev main_call4_v0 : Ref sig .tc := ⟨.hbm, 38, rfl⟩
abbrev main_call4_v1 : Ref sig .tc := ⟨.hbm, 39, rfl⟩
abbrev main_call4_c_0 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_c_1 : Ref sig .tc := ⟨.hbm, 45, rfl⟩
abbrev main_call4_c_2 : Ref sig .tc := ⟨.hbm, 46, rfl⟩
abbrev main_call4_v6 : Ref sig .tc := ⟨.hbm, 47, rfl⟩
abbrev main_call4_v7 : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_v11 : Ref sig .tc := ⟨.hbm, 52, rfl⟩
abbrev main_call4_c_3 : Ref sig .tc := ⟨.hbm, 53, rfl⟩
abbrev main_call4_v12 : Ref sig .tc := ⟨.hbm, 54, rfl⟩
abbrev main_call4_v13 : Ref sig .tc := ⟨.hbm, 55, rfl⟩
abbrev main_call4_cst : Ref sig .tc := ⟨.hbm, 56, rfl⟩
abbrev main_call4_v14 : Ref sig .tc := ⟨.hbm, 57, rfl⟩
abbrev main_v11 : Ref sig .tc := ⟨.hbm, 58, rfl⟩
abbrev main_v12 : Ref sig .tc := ⟨.hbm, 59, rfl⟩
abbrev main_cst : Ref sig .tc := ⟨.hbm, 60, rfl⟩
abbrev main_v13 : Ref sig .tc := ⟨.hbm, 61, rfl⟩
abbrev main_v14 : Ref sig .tc := ⟨.hbm, 62, rfl⟩
abbrev main_c_8 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_call5_c : Ref sig .tc := ⟨.hbm, 67, rfl⟩
abbrev main_call5_v0 : Ref sig .tc := ⟨.hbm, 68, rfl⟩
abbrev main_call5_v1 : Ref sig .tc := ⟨.hbm, 69, rfl⟩
abbrev main_call5_c_0 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_call5_v5 : Ref sig .tc := ⟨.hbm, 74, rfl⟩
abbrev main_call5_c_1 : Ref sig .tc := ⟨.hbm, 75, rfl⟩
abbrev main_call5_c_2 : Ref sig .tc := ⟨.hbm, 76, rfl⟩
abbrev main_call5_v6 : Ref sig .tc := ⟨.hbm, 77, rfl⟩
abbrev main_call5_v7 : Ref sig .tc := ⟨.hbm, 78, rfl⟩
abbrev main_call5_v8 : Ref sig .tc := ⟨.hbm, 79, rfl⟩
abbrev main_call5_v9 : Ref sig .tc := ⟨.hbm, 80, rfl⟩
abbrev main_call5_v10 : Ref sig .tc := ⟨.hbm, 81, rfl⟩
abbrev main_call5_v11 : Ref sig .tc := ⟨.hbm, 82, rfl⟩
abbrev main_call5_c_3 : Ref sig .tc := ⟨.hbm, 83, rfl⟩
abbrev main_call5_v12 : Ref sig .tc := ⟨.hbm, 84, rfl⟩
abbrev main_call5_v13 : Ref sig .tc := ⟨.hbm, 85, rfl⟩
abbrev main_call5_cst : Ref sig .tc := ⟨.hbm, 86, rfl⟩
abbrev main_call5_v14 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_c_9 : Ref sig .tc := ⟨.hbm, 91, rfl⟩
abbrev main_v21 : Ref sig .tc := ⟨.hbm, 92, rfl⟩
abbrev main_v22 : Ref sig .tc := ⟨.hbm, 93, rfl⟩
abbrev main_cst_10 : Ref sig .tc := ⟨.hbm, 94, rfl⟩
abbrev main_v23 : Ref sig .tc := ⟨.hbm, 95, rfl⟩
abbrev main_v24 : Ref sig .tc := ⟨.hbm, 96, rfl⟩
abbrev main_cst_11 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_v25 : Ref sig .tc := ⟨.hbm, 101, rfl⟩
abbrev main_v26_0 : Ref sig .tc := ⟨.hbm, 102, rfl⟩
abbrev main_v26_1 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_cst_12 : Ref sig .tc := ⟨.hbm, 112, rfl⟩
abbrev main_v35 : Ref sig .tc := ⟨.hbm, 113, rfl⟩
abbrev main_v36 : Ref sig .tc := ⟨.hbm, 114, rfl⟩
abbrev main_cst_13 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_14 : Ref sig .tc := ⟨.hbm, 119, rfl⟩
abbrev main_v40 : Ref sig .tc := ⟨.hbm, 120, rfl⟩
abbrev main_v41 : Ref sig .tc := ⟨.hbm, 121, rfl⟩
abbrev main_cst_15 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_cst_16 : Ref sig .tc := ⟨.hbm, 126, rfl⟩
abbrev main_v45 : Ref sig .tc := ⟨.hbm, 127, rfl⟩
abbrev main_v46 : Ref sig .tc := ⟨.hbm, 128, rfl⟩
abbrev main_cst_17 : Ref sig .tc := ⟨.hbm, 129, rfl⟩
abbrev main_v47 : Ref sig .tc := ⟨.hbm, 130, rfl⟩
abbrev main_cst_18 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_cst_19 : Ref sig .tc := ⟨.hbm, 135, rfl⟩
abbrev main_v51 : Ref sig .tc := ⟨.hbm, 136, rfl⟩
abbrev main_v52 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2049 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2049 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2049 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16x2048 : S_.BroadcastsInDim S16x2048 (![] : Fin 0 → Fin S16x2048.rank)
  bcast_S_S16x1 : S_.BroadcastsInDim S16x1 (![] : Fin 0 → Fin S16x1.rank)
  concatenates_S16x2048_S16x1_S16x2049_d1 : Shape.Concatenates [S16x2048, S16x1] S16x2049 1
  bcast_S16x2049_S16x2049x1_0_1 : S16x2049.BroadcastsInDim S16x2049x1 (![0, 1] : Fin 2 → Fin S16x2049x1.rank)
  bcast_S_S16x2049x1 : S_.BroadcastsInDim S16x2049x1 (![] : Fin 0 → Fin S16x2049x1.rank)
  shapeCasts_S16x2049x1_S16x2049x1x1 : S16x2049x1.ShapeCasts S16x2049x1x1
  bcast_S_S16x2049x1x1 : S_.BroadcastsInDim S16x2049x1x1 (![] : Fin 0 → Fin S16x2049x1x1.rank)
  bcast_S1_S1x1x1x1_3 : S1.BroadcastsInDim S1x1x1x1 (![3] : Fin 1 → Fin S1x1x1x1.rank)
  bcast_S1x1x1x1_S16x2049x1x1_0_1_2_3 : S1x1x1x1.BroadcastsInDim S16x2049x1x1 (![0, 1, 2, 3] : Fin 4 → Fin S16x2049x1x1.rank)
  reducesTo_S16x2049x1x1_S16x2049x1_d3 : S16x2049x1x1.ReducesTo [3] S16x2049x1
  h_S_ : 0 < S_.numel
  slices_S16x2049x1_S16x2048x1_0_0_0 : S16x2049x1.Slices ![0, 0, 0] S16x2048x1
  bcast_S_S16x2048x1 : S_.BroadcastsInDim S16x2048x1 (![] : Fin 0 → Fin S16x2048x1.rank)
  bcast_S16x2049_S16x1x2049_0_2 : S16x2049.BroadcastsInDim S16x1x2049 (![0, 2] : Fin 2 → Fin S16x1x2049.rank)
  bcast_S_S16x1x2049 : S_.BroadcastsInDim S16x1x2049 (![] : Fin 0 → Fin S16x1x2049.rank)
  shapeCasts_S16x1x2049_S16x1x2049x1 : S16x1x2049.ShapeCasts S16x1x2049x1
  bcast_S_S16x1x2049x1 : S_.BroadcastsInDim S16x1x2049x1 (![] : Fin 0 → Fin S16x1x2049x1.rank)
  bcast_S1x1x1x1_S16x1x2049x1_0_1_2_3 : S1x1x1x1.BroadcastsInDim S16x1x2049x1 (![0, 1, 2, 3] : Fin 4 → Fin S16x1x2049x1.rank)
  reducesTo_S16x1x2049x1_S16x1x2049_d3 : S16x1x2049x1.ReducesTo [3] S16x1x2049
  bcast_S2049_S1x1x2049_2 : S2049.BroadcastsInDim S1x1x2049 (![2] : Fin 1 → Fin S1x1x2049.rank)
  bcast_S_S1x1x2049 : S_.BroadcastsInDim S1x1x2049 (![] : Fin 0 → Fin S1x1x2049.rank)
  bcast_S1x1x2049_S16x1x2049_0_1_2 : S1x1x2049.BroadcastsInDim S16x1x2049 (![0, 1, 2] : Fin 3 → Fin S16x1x2049.rank)
  inb_S1x2048x2049_S1x2048x2049_0_0_0 : ∀ a, (![0, 0, 0] : Fin 3 → Nat) a + S1x2048x2049.size a ≤ S1x2048x2049.size a
  h_S1x2048x2049 : 0 < S1x2048x2049.numel
  shapeCasts_S1x2048x2049_S2048x2049 : S1x2048x2049.ShapeCasts S2048x2049
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x2049 : S2048x1.Broadcasts S2048x2049
  reduces_S2048x2049_S2048 : S2048x2049.Reduces [1] S2048
  shapeCasts_S2048_S2048x1 : S2048.ShapeCasts S2048x1
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x2049_S1x1x2049_0_0_0 : ∀ a, (![0, 0, 0] : Fin 3 → Nat) a + S1x1x2049.size a ≤ S1x1x2049.size a
  h_S1x1x2049 : 0 < S1x1x2049.numel
  shapeCasts_S1x1x2049_S1x2049 : S1x1x2049.ShapeCasts S1x2049
  broadcasts_S1x2049_S2048x2049 : S1x2049.Broadcasts S2048x2049
  reduces_S2048x2049_S2049 : S2048x2049.Reduces [0] S2049
  shapeCasts_S2049_S1x2049 : S2049.ShapeCasts S1x2049
  shapeCasts_S1x2049_S1x1x2049 : S1x2049.ShapeCasts S1x1x2049
  shapeCasts_S16x1x1_S16 : S16x1x1.ShapeCasts S16
  slices_S16x1x2049_S16x1x2048_0_0_0 : S16x1x2049.Slices ![0, 0, 0] S16x1x2048
  shapeCasts_S16x1x2048_S16x2048 : S16x1x2048.ShapeCasts S16x2048
  slices_S16x2049x2049_S16x1x2048_0_2048_0 : S16x2049x2049.Slices ![0, 2048, 0] S16x1x2048
  reducesTo_S16x2048_S16_d1 : S16x2048.ReducesTo [1] S16
  bcast_S_S16 : S_.BroadcastsInDim S16 (![] : Fin 0 → Fin S16.rank)
  gather_S16x2049x2049_S16x2049x1x1_S16x2049x1_n_2_01_01_2_3_111_wf : GatherDims.WF S16x2049x2049 S16x2049x1x1 S16x2049x1 [] [2] [0, 1] [2] [0, 1] 3 ![1, 1, 1]
  gather_S16x2049x2049_S16x1x2049x1_S16x1x2049_n_1_02_02_1_3_111_wf : GatherDims.WF S16x2049x2049 S16x1x2049x1 S16x1x2049 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x2048x2049.size a < S16x2049x2049.size a
  hwx0_0 : ∀ i : grid0.Coords, EltTy.bits .f32 = 32 ∨ (Rect.unit (s := S16x2049x2049) (fun a => cc0_transform_0 i a * S1x2048x2049.size a) (fun a => (Pipeline.Clip.of (cc0_transform_0 i a) (S1x2048x2049.size a) (S16x2049x2049.size a)).extent (S1x2048x2049.size a)) fun a => Pipeline.Clip.inb (Pipeline.Clip.ok_of (hstart0_0 i a))).WholeWords (EltTy.packing .f32)
  hwxs0_0 : ∀ i : grid0.Coords, EltTy.bits .f32 = 32 ∨ (Rect.unit (s := S1x2048x2049) (fun _ => 0) (fun a => (Pipeline.Clip.of (cc0_transform_0 i a) (S1x2048x2049.size a) (S16x2049x2049.size a)).extent (S1x2048x2049.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S16x2048x1.size a
  hwx0_1 : ∀ i : grid0.Coords, EltTy.bits .f32 = 32 ∨ (Rect.block (s := S16x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2049.size a ≤ S16x1x2049.size a
  hwx0_2 : ∀ i : grid0.Coords, EltTy.bits .f32 = 32 ∨ (Rect.block (s := S16x1x2049) S1x1x2049.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2049.size a ≤ S16x1x2049.size a
  hwx0_4 : ∀ i : grid0.Coords, EltTy.bits .f32 = 32 ∨ (Rect.block (s := S16x1x2049) S1x1x2049.size (cc0_transform_4 i) (hinb0_4 i)).WholeWords (EltTy.packing .f32)

variable [Facts₀]

def gather_S16x2049x2049_S16x2049x1x1_S16x2049x1_n_2_01_01_2_3_111 : GatherDims S16x2049x2049 S16x2049x1x1 S16x2049x1 where
  offsetDims := []
  collapsedSliceDims := [2]
  operandBatchingDims := [0, 1]
  startIndicesBatchingDims := [0, 1]
  startIndexMap := [2]
  indexVectorDim := 3
  sliceSizes := ![1, 1, 1]
  wf := gather_S16x2049x2049_S16x2049x1x1_S16x2049x1_n_2_01_01_2_3_111_wf
def gather_S16x2049x2049_S16x1x2049x1_S16x1x2049_n_1_02_02_1_3_111 : GatherDims S16x2049x2049 S16x1x2049x1 S16x1x2049 where
  offsetDims := []
  collapsedSliceDims := [1]
  operandBatchingDims := [0, 2]
  startIndicesBatchingDims := [0, 2]
  startIndexMap := [1]
  indexVectorDim := 3
  sliceSizes := ![1, 1, 1]
  wf := gather_S16x2049x2049_S16x1x2049x1_S16x1x2049_n_1_02_02_1_3_111_wf

abbrev win0_0 : Pipeline.Window sig grid0 :=
  Pipeline.Window.ofSpecClip (Memref.whole main_arg2) S1x2048x2049.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v14) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1x2049.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_1) S1x1x2049.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048 : Shape := ⟨2, ![16, 2048]⟩
abbrev S16x2049x2049 : Shape := ⟨3, ![16, 2049, 2049]⟩
abbrev S_ : Shape := ⟨0, ![]⟩
abbrev S16x2048x2049 : Shape := ⟨3, ![16, 2048, 2049]⟩
abbrev S16x2048x1 : Shape := ⟨3, ![16, 2048, 1]⟩
abbrev S16x2048x1x1 : Shape := ⟨4, ![16, 2048, 1, 1]⟩
abbrev S1 : Shape := ⟨1, ![1]⟩
abbrev S1x1x1x1 : Shape := ⟨4, ![1, 1, 1, 1]⟩
abbrev S16 : Shape := ⟨1, ![16]⟩
abbrev S16x2049x2048 : Shape := ⟨3, ![16, 2049, 2048]⟩
abbrev S16x1x2048 : Shape := ⟨3, ![16, 1, 2048]⟩
abbrev S16x1x2048x1 : Shape := ⟨4, ![16, 1, 2048, 1]⟩

abbrev nBuf : Space → Nat
  | .hbm => 120
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16x2048, .i32⟩
  | .hbm, ⟨2, _⟩ => ⟨S16x2049x2049, .f32⟩
  | .hbm, ⟨3, _⟩ => ⟨S_, .i32⟩
  | .hbm, ⟨4, _⟩ => ⟨S16x2048, .i32⟩
  | .hbm, ⟨5, _⟩ => ⟨S16x2048, .i1⟩
  | .hbm, ⟨6, _⟩ => ⟨S_, .i32⟩
  | .hbm, ⟨7, _⟩ => ⟨S_, .i32⟩
  | .hbm, ⟨8, _⟩ => ⟨S16x2048, .i32⟩
  | .hbm, ⟨9, _⟩ => ⟨S16x2048, .i32⟩
  | .hbm, ⟨10, _⟩ => ⟨S_, .i32⟩
  | .hbm, ⟨11, _⟩ => ⟨S16x2048, .i32⟩
  | .hbm, ⟨12, _⟩ => ⟨S16x2048, .i1⟩
  | .hbm, ⟨13, _⟩ => ⟨S_, .i32⟩
  | .hbm, ⟨14, _⟩ => ⟨S_, .i32⟩
  | .hbm, ⟨15, _⟩ => ⟨S16x2048, .i32⟩
  | .hbm, ⟨16, _⟩ => ⟨S16x2048, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16x2048x2049, .f32⟩
  | .hbm, ⟨21, _⟩ => ⟨S16x2048x1, .i32⟩
  | .hbm, ⟨22, _⟩ => ⟨S_, .i32⟩
  | .hbm, ⟨23, _⟩ => ⟨S16x2048x1, .i32⟩
  | .hbm, ⟨24, _⟩ => ⟨S16x2048x1, .i1⟩
  | .hbm, ⟨25, _⟩ => ⟨S_, .i32⟩
  | .hbm, ⟨26, _⟩ => ⟨S16x2048x1, .i32⟩
  | .hbm, ⟨27, _⟩ => ⟨S16x2048x1, .i32⟩
  | .hbm, ⟨28, _⟩ => ⟨S16x2048x1, .i32⟩
  | .hbm, ⟨29, _⟩ => ⟨S16x2048x1x1, .i32⟩
  | .hbm, ⟨30, _⟩ => ⟨S1, .i32⟩
  | .hbm, ⟨31, _⟩ => ⟨S_, .i32⟩
  | .hbm, ⟨32, _⟩ => ⟨S16x2048x1x1, .i32⟩
  | .hbm, ⟨33, _⟩ => ⟨S16x2048x1x1, .i1⟩
  | .hbm, ⟨34, _⟩ => ⟨S1x1x1x1, .i32⟩
  | .hbm, ⟨35, _⟩ => ⟨S16x2048x1x1, .i32⟩
  | .hbm, ⟨36, _⟩ => ⟨S16x2048x1x1, .i1⟩
  | .hbm, ⟨37, _⟩ => ⟨S16x2048x1x1, .i1⟩
  | .hbm, ⟨38, _⟩ => ⟨S_, .i1⟩
  | .hbm, ⟨39, _⟩ => ⟨S16x2048x1, .i1⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x2049, .f32⟩
  | .hbm, ⟨45, _⟩ => ⟨S16x2048x2049, .f32⟩
  | .hbm, ⟨46, _⟩ => ⟨S_, .f32⟩
  | .hbm, ⟨47, _⟩ => ⟨S16x2048x2049, .f32⟩
  | .hbm, ⟨48, _⟩ => ⟨S16x2048x2049, .f32⟩
  | .hbm, ⟨49, _⟩ => ⟨S_, .f32⟩
  | .hbm, ⟨50, _⟩ => ⟨S16x2048x2049, .f32⟩
  | .hbm, ⟨51, _⟩ => ⟨S16x2048x2049, .f32⟩
  | .hbm, ⟨52, _⟩ => ⟨S_, .f32⟩
  | .hbm, ⟨53, _⟩ => ⟨S16x2048, .f32⟩
  | .hbm, ⟨54, _⟩ => ⟨S16x2048, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S_, .f32⟩
  | .hbm, ⟨61, _⟩ => ⟨S16x2048, .f32⟩
  | .hbm, ⟨62, _⟩ => ⟨S16x2048, .f32⟩
  | .hbm, ⟨63, _⟩ => ⟨S_, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16x2049x2048, .f32⟩
  | .hbm, ⟨69, _⟩ => ⟨S16x1x2048, .i32⟩
  | .hbm, ⟨70, _⟩ => ⟨S_, .i32⟩
  | .hbm, ⟨71, _⟩ => ⟨S16x1x2048, .i32⟩
  | .hbm, ⟨72, _⟩ => ⟨S16x1x2048, .i1⟩
  | .hbm, ⟨73, _⟩ => ⟨S_, .i32⟩
  | .hbm, ⟨74, _⟩ => ⟨S16x1x2048, .i32⟩
  | .hbm, ⟨75, _⟩ => ⟨S16x1x2048, .i32⟩
  | .hbm, ⟨76, _⟩ => ⟨S16x1x2048, .i32⟩
  | .hbm, ⟨77, _⟩ => ⟨S16x1x2048x1, .i32⟩
  | .hbm, ⟨78, _⟩ => ⟨S1, .i32⟩
  | .hbm, ⟨79, _⟩ => ⟨S_, .i32⟩
  | .hbm, ⟨80, _⟩ => ⟨S16x1x2048x1, .i32⟩
  | .hbm, ⟨81, _⟩ => ⟨S16x1x2048x1, .i1⟩
  | .hbm, ⟨82, _⟩ => ⟨S1x1x1x1, .i32⟩
  | .hbm, ⟨83, _⟩ => ⟨S16x1x2048x1, .i32⟩
  | .hbm, ⟨84, _⟩ => ⟨S16x1x2048x1, .i1⟩
  | .hbm, ⟨85, _⟩ => ⟨S16x1x2048x1, .i1⟩
  | .hbm, ⟨86, _⟩ => ⟨S_, .i1⟩
  | .hbm, ⟨87, _⟩ => ⟨S16x1x2048, .i1⟩
  | .hbm, ⟨88, _⟩ => ⟨S16x1x2048, .f32⟩
  | .hbm, ⟨89, _⟩ => ⟨S_, .f32⟩
  | .hbm, ⟨90, _⟩ => ⟨S16x1x2048, .f32⟩
  | .hbm, ⟨91, _⟩ => ⟨S16x1x2048, .f32⟩
  | .hbm, ⟨92, _⟩ => ⟨S16x2049x2048, .f32⟩
  | .hbm, ⟨93, _⟩ => ⟨S16x2049x2048, .f32⟩
  | .hbm, ⟨94, _⟩ => ⟨S_, .f32⟩
  | .hbm, ⟨95, _⟩ => ⟨S16x2049x2048, .f32⟩
  | .hbm, ⟨96, _⟩ => ⟨S16x2049x2048, .f32⟩
  | .hbm, ⟨97, _⟩ => ⟨S_, .f32⟩
  | .hbm, ⟨98, _⟩ => ⟨S16x2049x2048, .f32⟩
  | .hbm, ⟨99, _⟩ => ⟨S16x2049x2048, .f32⟩
  | .hbm, ⟨100, _⟩ => ⟨S_, .f32⟩
  | .hbm, ⟨101, _⟩ => ⟨S16x2048, .f32⟩
  | .hbm, ⟨102, _⟩ => ⟨S16x2048, .f32⟩
  | .hbm, ⟨103, _⟩ => ⟨S16x2048, .f32⟩
  | .hbm, ⟨104, _⟩ => ⟨S_, .f32⟩
  | .hbm, ⟨105, _⟩ => ⟨S16x2048, .f32⟩
  | .hbm, ⟨106, _⟩ => ⟨S16x2048, .f32⟩
  | .hbm, ⟨107, _⟩ => ⟨S16x2048, .f32⟩
  | .hbm, ⟨108, _⟩ => ⟨S_, .f32⟩
  | .hbm, ⟨109, _⟩ => ⟨S16x2048, .f32⟩
  | .hbm, ⟨110, _⟩ => ⟨S16x2048, .f32⟩
  | .hbm, ⟨111, _⟩ => ⟨S_, .f32⟩
  | .hbm, ⟨112, _⟩ => ⟨S16, .f32⟩
  | .hbm, ⟨113, _⟩ => ⟨S_, .f32⟩
  | .hbm, ⟨114, _⟩ => ⟨S16, .f32⟩
  | .hbm, ⟨115, _⟩ => ⟨S16, .f32⟩
  | .hbm, ⟨116, _⟩ => ⟨S16, .f32⟩
  | .hbm, ⟨117, _⟩ => ⟨S_, .f32⟩
  | .hbm, ⟨118, _⟩ => ⟨S16, .f32⟩
  | .hbm, ⟨119, _⟩ => ⟨S16, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_cst : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_cst : Ref sig .tc := ⟨.hbm, 41, rfl⟩
abbrev main_call2_v14 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_4 : Ref sig .tc := ⟨.hbm, 46, rfl⟩
abbrev main_v12 : Ref sig .tc := ⟨.hbm, 47, rfl⟩
abbrev main_v13 : Ref sig .tc := ⟨.hbm, 48, rfl⟩
abbrev main_cst_5 : Ref sig .tc := ⟨.hbm, 49, rfl⟩
abbrev main_v14 : Ref sig .tc := ⟨.hbm, 50, rfl⟩
abbrev main_v15 : Ref sig .tc := ⟨.hbm, 51, rfl⟩
abbrev main_cst_6 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_7 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_8 : Ref sig .tc := ⟨.hbm, 60, rfl⟩
abbrev main_v22 : Ref sig .tc := ⟨.hbm, 61, rfl⟩
abbrev main_v23 : Ref sig .tc := ⟨.hbm, 62, rfl⟩
abbrev main_cst_9 : Ref sig .tc := ⟨.hbm, 63, rfl⟩
abbrev main_v24 : Ref sig .tc := ⟨.hbm, 64, rfl⟩
abbrev main_cst_10 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_cst : Ref sig .tc := ⟨.hbm, 89, rfl⟩
abbrev main_call3_v14 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst_11 : Ref sig .tc := ⟨.hbm, 94, rfl⟩
abbrev main_v32 : Ref sig .tc := ⟨.hbm, 95, rfl⟩
abbrev main_v33 : Ref sig .tc := ⟨.hbm, 96, rfl⟩
abbrev main_cst_12 : Ref sig .tc := ⟨.hbm, 97, rfl⟩
abbrev main_v34 : Ref sig .tc := ⟨.hbm, 98, rfl⟩
abbrev main_v35 : Ref sig .tc := ⟨.hbm, 99, rfl⟩
abbrev main_cst_13 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_14 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_cst_15 : Ref sig .tc := ⟨.hbm, 108, rfl⟩
abbrev main_v42 : Ref sig .tc := ⟨.hbm, 109, rfl⟩
abbrev main_v43 : Ref sig .tc := ⟨.hbm, 110, rfl⟩
abbrev main_cst_16 : Ref sig .tc := ⟨.hbm, 111, rfl⟩
abbrev main_v44 : Ref sig .tc := ⟨.hbm, 112, rfl⟩
abbrev main_cst_17 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_18 : Ref sig .tc := ⟨.hbm, 117, rfl⟩
abbrev main_v48 : Ref sig .tc := ⟨.hbm, 118, rfl⟩
abbrev main_v49 : Ref sig .tc := ⟨.hbm, 119, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  slices_S16x2049x2049_S16x2048x2049_0_0_0 : S16x2049x2049.Slices ![0, 0, 0] S16x2048x2049
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  shapeCasts_S16x2048x1_S16x2048x1x1 : S16x2048x1.ShapeCasts S16x2048x1x1
  bcast_S_S16x2048x1x1 : S_.BroadcastsInDim S16x2048x1x1 (![] : Fin 0 → Fin S16x2048x1x1.rank)
  bcast_S1_S1x1x1x1_3 : S1.BroadcastsInDim S1x1x1x1 (![3] : Fin 1 → Fin S1x1x1x1.rank)
  bcast_S1x1x1x1_S16x2048x1x1_0_1_2_3 : S1x1x1x1.BroadcastsInDim S16x2048x1x1 (![0, 1, 2, 3] : Fin 4 → Fin S16x2048x1x1.rank)
  reducesTo_S16x2048x1x1_S16x2048x1_d3 : S16x2048x1x1.ReducesTo [3] S16x2048x1
  h_S_ : 0 < S_.numel
  bcast_S16x2048x1_S16x2048x2049_0_1_2 : S16x2048x1.BroadcastsInDim S16x2048x2049 (![0, 1, 2] : Fin 3 → Fin S16x2048x2049.rank)
  bcast_S_S16x2048x2049 : S_.BroadcastsInDim S16x2048x2049 (![] : Fin 0 → Fin S16x2048x2049.rank)
  reducesTo_S16x2048x2049_S16x2048_d2 : S16x2048x2049.ReducesTo [2] S16x2048
  reducesTo_S16x2048_S16_d1 : S16x2048.ReducesTo [1] S16
  bcast_S_S16 : S_.BroadcastsInDim S16 (![] : Fin 0 → Fin S16.rank)
  slices_S16x2049x2049_S16x2049x2048_0_0_0 : S16x2049x2049.Slices ![0, 0, 0] S16x2049x2048
  bcast_S16x2048_S16x1x2048_0_2 : S16x2048.BroadcastsInDim S16x1x2048 (![0, 2] : Fin 2 → Fin S16x1x2048.rank)
  bcast_S_S16x1x2048 : S_.BroadcastsInDim S16x1x2048 (![] : Fin 0 → Fin S16x1x2048.rank)
  shapeCasts_S16x1x2048_S16x1x2048x1 : S16x1x2048.ShapeCasts S16x1x2048x1
  bcast_S_S16x1x2048x1 : S_.BroadcastsInDim S16x1x2048x1 (![] : Fin 0 → Fin S16x1x2048x1.rank)
  bcast_S1x1x1x1_S16x1x2048x1_0_1_2_3 : S1x1x1x1.BroadcastsInDim S16x1x2048x1 (![0, 1, 2, 3] : Fin 4 → Fin S16x1x2048x1.rank)
  reducesTo_S16x1x2048x1_S16x1x2048_d3 : S16x1x2048x1.ReducesTo [3] S16x1x2048
  bcast_S16x1x2048_S16x2049x2048_0_1_2 : S16x1x2048.BroadcastsInDim S16x2049x2048 (![0, 1, 2] : Fin 3 → Fin S16x2049x2048.rank)
  bcast_S_S16x2049x2048 : S_.BroadcastsInDim S16x2049x2048 (![] : Fin 0 → Fin S16x2049x2048.rank)
  reducesTo_S16x2049x2048_S16x2048_d1 : S16x2049x2048.ReducesTo [1] S16x2048
  gather_S16x2048x2049_S16x2048x1x1_S16x2048x1_n_2_01_01_2_3_111_wf : GatherDims.WF S16x2048x2049 S16x2048x1x1 S16x2048x1 [] [2] [0, 1] [2] [0, 1] 3 ![1, 1, 1]
  gather_S16x2049x2048_S16x1x2048x1_S16x1x2048_n_1_02_02_1_3_111_wf : GatherDims.WF S16x2049x2048 S16x1x2048x1 S16x1x2048 [] [1] [0, 2] [1] [0, 2] 3 ![1, 1, 1]

variable [Facts₀]

def gather_S16x2048x2049_S16x2048x1x1_S16x2048x1_n_2_01_01_2_3_111 : GatherDims S16x2048x2049 S16x2048x1x1 S16x2048x1 where
  offsetDims := []
  collapsedSliceDims := [2]
  operandBatchingDims := [0, 1]
  startIndicesBatchingDims := [0, 1]
  startIndexMap := [2]
  indexVectorDim := 3
  sliceSizes := ![1, 1, 1]
  wf := gather_S16x2048x2049_S16x2048x1x1_S16x2048x1_n_2_01_01_2_3_111_wf
def gather_S16x2049x2048_S16x1x2048x1_S16x1x2048_n_1_02_02_1_3_111 : GatherDims S16x2049x2048 S16x1x2048x1 S16x1x2048 where
  offsetDims := []
  collapsedSliceDims := [1]
  operandBatchingDims := [0, 2]
  startIndicesBatchingDims := [0, 2]
  startIndexMap := [1]
  indexVectorDim := 3
  sliceSizes := ![1, 1, 1]
  wf := gather_S16x2049x2048_S16x1x2048x1_S16x1x2048_n_1_02_02_1_3_111_wf

class Facts : Prop extends Facts₀ where

variable [Facts]
-- ==== Proof.Kernel.Data.lean ====
/-
  The proof data of the loss kernel's one pipeline (program `Kernel`), generic in the float instance.

  At grid point `t` (one batch entry) the body loads the whole score slab (window 0: rows 0‥2047 of batch `t`,
  all 2049 columns), the per-row matched value (window 1) and the per-column matched value (window 2), and stores
  the batch's mean row loss (window 3, one word) and the per-column partial sums over the 2048 rows (window 4).
  Window 0's blocks are 2048 of the array's 2049 rows, always at block index 0 on that axis, so no block overhangs
  the array and each fetch fills the whole staging buffer: its contents are the block, whatever was there before.
-/
import proofs.«424079_j3393024163970_3_alg».proof.Proof.Gen.Kernel.Frame
import proofs.«424079_j3393024163970_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is the whole of its buffer -/

abbrev r0 : Rect S1x2048x2049 := Rect.unit (s := S1x2048x2049) ![0, 0, 0] S1x2048x2049.size inb_S1x2048x2049_S1x2048x2049_0_0_0
abbrev r1 : Rect S1x2048x1 := Rect.unit (s := S1x2048x1) ![0, 0, 0] S1x2048x1.size inb_S1x2048x1_S1x2048x1_0_0_0
abbrev r2 : Rect S1x1x2049 := Rect.unit (s := S1x1x2049) ![0, 0, 0] S1x1x2049.size inb_S1x1x2049_S1x1x2049_0_0_0
abbrev r3 : Rect S1x1x1 := Rect.unit (s := S1x1x1) ![0, 0, 0] S1x1x1.size inb_S1x1x1_S1x1x1_0_0_0

/-! ## What the body leaves in the two output buffers -/

/-- The mean-row-loss word, from the score slab and the per-row matched values. -/
def out3 (x0 : Vec F S1x2048x2049 .f32) (x1 : Vec F S1x2048x1 .f32) : Vec F S1x1x1 .f32 :=
  View.canon [⟨r3, k0_pay3 (View.ld x0 r0) (View.ld x1 r1)⟩]

/-- The per-column partial sums, from the score slab and the per-column matched values. -/
def out4 (x0 : Vec F S1x2048x2049 .f32) (x2 : Vec F S1x1x2049 .f32) : Vec F S1x1x2049 .f32 :=
  View.canon [⟨r2, k0_pay1 (k0_pay4 (View.ld x0 r0) (View.ld x2 r2))⟩]

theorem cover3 (p0 : Vec F S1x1x1 .f32) (y : S1x1x1.Idx) :
    ∃ pc ∈ ([⟨r3, p0⟩] : List (View.Piece (Elt F) S1x1x1 .f32)), y ∈ pc.1.set :=
  View.cover_of_tiled [⟨r3, p0⟩] S1x1x1.size (by rfl) y

theorem cover4 (p0 : Vec F S1x1x2049 .f32) (y : S1x1x2049.Idx) :
    ∃ pc ∈ ([⟨r2, p0⟩] : List (View.Piece (Elt F) S1x1x2049 .f32)), y ∈ pc.1.set :=
  View.cover_of_tiled [⟨r2, p0⟩] S1x1x2049.size (by rfl) y

/-! ## The score slab in its staging buffer -/

/-- No block of window 0 is cut: on every axis, at every point, the block ends inside the array. -/
theorem clip0_none : ∀ (t : Fin cfg0.N) (a : Fin 3), (cfg0.win 0).clip (cfg0.grid.coords t) a = none :=
  (by decide +kernel : ∀ (t : Fin grid0.N) (a : Fin 3), win0_0.clip (grid0.coords t) a = none)

/-- The staging buffer of window 0 after the fetch at point `t`: the block filling all of it (the filler word is
    never read: no index of the buffer lies outside the block). -/
def blk0 (c : Dev nD) (t : Fin cfg0.N) : Vec F S1x2048x2049 .f32 :=
  win0_0.fill (grid0.coords t) (fun _ => Scalar.ofBits .f32 0#32) (iblk m c 0 t)

/-! ## The proof data -/

/-- The arrays as the region finds them; after the body each input's buffer at its block, the two outputs' at
    `out3` / `out4` of the blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => out3 (blk0 m c t) (iblk m c 1 t)
    | ⟨4, _⟩ => out4 (blk0 m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (blk0 m c t) (iblk m c 1 t) := by dsimp only [dats]
theorem after4 (c : Dev nD) (t : Fin cfg0.N) : (dats m 0 c).after 4 t = out4 (blk0 m c t) (iblk m c 2 t) := by dsimp only [dats]

end Cert.Kernel.Hand

end
-- ==== Proof.Kernel.Body.lean ====
/-
  The loss kernel's body at every grid point, and the frame run (program `Kernel`), generic in the float instance.

  The body loads the three input buffers whole, stores one word into window 3's buffer and 2049 words into
  window 4's (both stores cover their buffers), and reads the output buffers only by dead loads. So after the body
  the inputs' buffers hold what they held and the outputs' hold `out3` / `out4` of the inputs' contents.
  Window 0 is fetched at every point and never cut, so its buffer holds the score slab `blk0` whatever it held
  before the fetch; windows 1 and 2 hold their blocks; the launch theorem then runs @main around the region.
-/
import proofs.«424079_j3393024163970_3_alg».proof.Proof.Kernel.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- On whole staging memrefs, the inputs' at contents `x0`, `x1`, `x2` and the outputs' at anything, the body runs
    to the continuation holding the inputs' as they were and the outputs' at `out3 x0 x1` and `out4 x0 x2`. -/
theorem sound_kernel (c : Dev nD) (E : Set ℕ) (i : grid0.Coords)
    (arg1 : Memref sig .tc .vmem S1x2048x2049 .f32) (harg1 : arg1.IsWhole)
    (arg2 : Memref sig .tc .vmem S1x2048x1 .f32) (harg2 : arg2.IsWhole)
    (arg3 : Memref sig .tc .vmem S1x1x2049 .f32) (harg3 : arg3.IsWhole)
    (arg4 : Memref sig .tc .vmem S1x1x1 .f32) (harg4 : arg4.IsWhole)
    (arg5 : Memref sig .tc .vmem S1x1x2049 .f32) (harg5 : arg5.IsWhole)
    (x0 : Vec F S1x2048x2049 .f32) (x1 : Vec F S1x2048x1 .f32) (x2 : Vec F S1x1x2049 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
              ∗ owns (c : Thread nD τ) arg3 fullShare x2
              ∗ owns (c : Thread nD τ) arg4 fullShare (out3 x0 x1) ∗ owns (c : Thread nD τ) arg5 fullShare (out4 x0 x2)) -∗ K ⟨⟩))
      ⊢ wp frame (wpE (defs₀ (F := F)) Variants.none c none) E
          (cc0__loss_kernel i arg1 harg1 arg2 harg2 arg3 harg3 arg4 harg4 arg5 harg5) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover3 _)
  iexists _; isplitr
  swap; · iexact H4
  ipureintro
  try dsimp only
  exact View.read_writes_eq_canon _ _ _ (cover4 _)

/-! ## What the body finds in the inputs' buffers -/

/-- Window 0's buffer at point `t`: just fetched, and the fetch is not cut, so the score slab, whatever was there. -/
theorem before0 (c : Dev nD) (t : Fin cfg0.N) (d) : (dats m 0 c).before 0 t d = blk0 m c t := by
  unfold Dat.before; rw [if_pos (fetch0_0 t)]
  unfold Dat.fetched
  rw [Pipeline.fill_of_clip_none (cfg := cfg0) 0 (cfg0.grid.coords t) (clip0_none t) d (fun _ => Scalar.ofBits .f32 0#32)]
  unfold Dat.blockOf blk0 iblk; rw [A_eq]

theorem before1 (c : Dev nD) (t : Fin cfg0.N) (d) : (dats m 0 c).before 1 t d = iblk m c 1 t :=
  before0_1_of m (dats m 0 c) (A_eq m c 1) (after1 m c) t d

theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns: window 0's buffer is stated on the part its transfers move (here all of it). -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blk0 m c t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · iexists (blk0 m c t)
    rw [win0_0.fill_cut]
    iexact H0
  isplitl [H1]; · iexact H1
  isplitl [H2]; · iexact H2
  isplitl [H3]; · iexact H3
  iexact H4

theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the proof data computes
    and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdeal.Data.lean ====
/-
  The proof data of the loss kernel's one pipeline (program `KernelIdeal`), generic in the float instance.

  At grid point `t` (one batch entry) the body loads the whole score slab (window 0: rows 0‥2047 of batch `t`,
  all 2049 columns), the per-row matched value (window 1) and the per-column matched value (window 2), and stores
  the batch's mean row loss (window 3, one word) and the per-column partial sums over the 2048 rows (window 4).
  Window 0's blocks are 2048 of the array's 2049 rows, always at block index 0 on that axis, so no block overhangs
  the array and each fetch fills the whole staging buffer: its contents are the block, whatever was there before.
-/
import proofs.«424079_j3393024163970_3_alg».proof.Proof.Gen.KernelIdeal.Frame
import proofs.«424079_j3393024163970_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is the whole of its buffer -/

abbrev r0 : Rect S1x2048x2049 := Rect.unit (s := S1x2048x2049) ![0, 0, 0] S1x2048x2049.size inb_S1x2048x2049_S1x2048x2049_0_0_0
abbrev r1 : Rect S1x2048x1 := Rect.unit (s := S1x2048x1) ![0, 0, 0] S1x2048x1.size inb_S1x2048x1_S1x2048x1_0_0_0
abbrev r2 : Rect S1x1x2049 := Rect.unit (s := S1x1x2049) ![0, 0, 0] S1x1x2049.size inb_S1x1x2049_S1x1x2049_0_0_0
abbrev r3 : Rect S1x1x1 := Rect.unit (s := S1x1x1) ![0, 0, 0] S1x1x1.size inb_S1x1x1_S1x1x1_0_0_0

/-! ## What the body leaves in the two output buffers -/

/-- The mean-row-loss word, from the score slab and the per-row matched values. -/
def out3 (x0 : Vec F S1x2048x2049 .f32) (x1 : Vec F S1x2048x1 .f32) : Vec F S1x1x1 .f32 :=
  View.canon [⟨r3, k0_pay3 (View.ld x0 r0) (View.ld x1 r1)⟩]

/-- The per-column partial sums, from the score slab and the per-column matched values. -/
def out4 (x0 : Vec F S1x2048x2049 .f32) (x2 : Vec F S1x1x2049 .f32) : Vec F S1x1x2049 .f32 :=
  View.canon [⟨r2, k0_pay1 (k0_pay4 (View.ld x0 r0) (View.ld x2 r2))⟩]

theorem cover3 (p0 : Vec F S1x1x1 .f32) (y : S1x1x1.Idx) :
    ∃ pc ∈ ([⟨r3, p0⟩] : List (View.Piece (Elt F) S1x1x1 .f32)), y ∈ pc.1.set :=
  View.cover_of_tiled [⟨r3, p0⟩] S1x1x1.size (by rfl) y

theorem cover4 (p0 : Vec F S1x1x2049 .f32) (y : S1x1x2049.Idx) :
    ∃ pc ∈ ([⟨r2, p0⟩] : List (View.Piece (Elt F) S1x1x2049 .f32)), y ∈ pc.1.set :=
  View.cover_of_tiled [⟨r2, p0⟩] S1x1x2049.size (by rfl) y

/-! ## The score slab in its staging buffer -/

/-- No block of window 0 is cut: on every axis, at every point, the block ends inside the array. -/
theorem clip0_none : ∀ (t : Fin cfg0.N) (a : Fin 3), (cfg0.win 0).clip (cfg0.grid.coords t) a = none :=
  (by decide +kernel : ∀ (t : Fin grid0.N) (a : Fin 3), win0_0.clip (grid0.coords t) a = none)

/-- The staging buffer of window 0 after the fetch at point `t`: the block filling all of it (the filler word is
    never read: no index of the buffer lies outside the block). -/
def blk0 (c : Dev nD) (t : Fin cfg0.N) : Vec F S1x2048x2049 .f32 :=
  win0_0.fill (grid0.coords t) (fun _ => Scalar.ofBits .f32 0#32) (iblk m c 0 t)

/-! ## The proof data -/

/-- The arrays as the region finds them; after the body each input's buffer at its block, the two outputs' at
    `out3` / `out4` of the blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => out3 (blk0 m c t) (iblk m c 1 t)
    | ⟨4, _⟩ => out4 (blk0 m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (blk0 m c t) (iblk m c 1 t) := by dsimp only [dats]
theorem after4 (c : Dev nD) (t : Fin cfg0.N) : (dats m 0 c).after 4 t = out4 (blk0 m c t) (iblk m c 2 t) := by dsimp only [dats]

end Cert.KernelIdeal.Hand

end
-- ==== Proof.KernelIdeal.Body.lean ====
/-
  The loss kernel's body at every grid point, and the frame run (program `KernelIdeal`), generic in the float instance.

  The body loads the three input buffers whole, stores one word into window 3's buffer and 2049 words into
  window 4's (both stores cover their buffers), and reads the output buffers only by dead loads. So after the body
  the inputs' buffers hold what they held and the outputs' hold `out3` / `out4` of the inputs' contents.
  Window 0 is fetched at every point and never cut, so its buffer holds the score slab `blk0` whatever it held
  before the fetch; windows 1 and 2 hold their blocks; the launch theorem then runs @main around the region.
-/
import proofs.«424079_j3393024163970_3_alg».proof.Proof.KernelIdeal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- On whole staging memrefs, the inputs' at contents `x0`, `x1`, `x2` and the outputs' at anything, the body runs
    to the continuation holding the inputs' as they were and the outputs' at `out3 x0 x1` and `out4 x0 x2`. -/
theorem sound_kernel (c : Dev nD) (E : Set ℕ) (i : grid0.Coords)
    (arg1 : Memref sig .tc .vmem S1x2048x2049 .f32) (harg1 : arg1.IsWhole)
    (arg2 : Memref sig .tc .vmem S1x2048x1 .f32) (harg2 : arg2.IsWhole)
    (arg3 : Memref sig .tc .vmem S1x1x2049 .f32) (harg3 : arg3.IsWhole)
    (arg4 : Memref sig .tc .vmem S1x1x1 .f32) (harg4 : arg4.IsWhole)
    (arg5 : Memref sig .tc .vmem S1x1x2049 .f32) (harg5 : arg5.IsWhole)
    (x0 : Vec F S1x2048x2049 .f32) (x1 : Vec F S1x2048x1 .f32) (x2 : Vec F S1x1x2049 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
              ∗ owns (c : Thread nD τ) arg3 fullShare x2
              ∗ owns (c : Thread nD τ) arg4 fullShare (out3 x0 x1) ∗ owns (c : Thread nD τ) arg5 fullShare (out4 x0 x2)) -∗ K ⟨⟩))
      ⊢ wp frame (wpE (defs₀ (F := F)) Variants.none c none) E
          (cc0__loss_kernel i arg1 harg1 arg2 harg2 arg3 harg3 arg4 harg4 arg5 harg5) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover3 _)
  iexists _; isplitr
  swap; · iexact H4
  ipureintro
  try dsimp only
  exact View.read_writes_eq_canon _ _ _ (cover4 _)

/-! ## What the body finds in the inputs' buffers -/

/-- Window 0's buffer at point `t`: just fetched, and the fetch is not cut, so the score slab, whatever was there. -/
theorem before0 (c : Dev nD) (t : Fin cfg0.N) (d) : (dats m 0 c).before 0 t d = blk0 m c t := by
  unfold Dat.before; rw [if_pos (fetch0_0 t)]
  unfold Dat.fetched
  rw [Pipeline.fill_of_clip_none (cfg := cfg0) 0 (cfg0.grid.coords t) (clip0_none t) d (fun _ => Scalar.ofBits .f32 0#32)]
  unfold Dat.blockOf blk0 iblk; rw [A_eq]

theorem before1 (c : Dev nD) (t : Fin cfg0.N) (d) : (dats m 0 c).before 1 t d = iblk m c 1 t :=
  before0_1_of m (dats m 0 c) (A_eq m c 1) (after1 m c) t d

theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns: window 0's buffer is stated on the part its transfers move (here all of it). -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blk0 m c t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · iexists (blk0 m c t)
    rw [win0_0.fill_cut]
    iexact H0
  isplitl [H1]; · iexact H1
  isplitl [H2]; · iexact H2
  isplitl [H3]; · iexact H3
  iexact H4

theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the proof data computes
    and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelIdeal.Final.lean ====
/-
  The two result arrays of the pipeline after the run, as whole-array functions of the blocks, and the blocks as
  reads of the arrays the region finds.

  Every window's block index at point `t` is (t, 0, 0): a block's element sits in its array at block index × block
  size + its own coordinate, so window 3's block at `t` is the one word (t, 0, 0), window 4's the row (t, 0, ·), and
  the input blocks are batch entry `t`'s slab, column and row. Both outputs are written back at every point and the
  point that covers batch entry `b` is `b` itself, so each array ends as one function of the batch entry.
-/
import proofs.«424079_j3393024163970_3_alg».proof.Proof.KernelIdeal.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The grid point of batch entry `b`. -/
def pt (b : Fin 16) : Fin cfg0.N := ⟨b.val, by rw [show cfg0.N = 16 from N_0]; exact b.isLt⟩

/-- The mean-row-loss array: entry `b` is the word the body leaves at point `b`. -/
def A3 (c : Dev nD) : FVec F S16x1x1 .f32 := fun y =>
  out3 (blk0 m c (pt (y 0))) (iblk m c 1 (pt (y 0))) (ix3 (0 : Fin 1) (0 : Fin 1) (0 : Fin 1))

/-- The column-partial-sum array: row `b` is the row the body leaves at point `b`. -/
def A4 (c : Dev nD) : FVec F S16x1x2049 .f32 := fun y =>
  out4 (blk0 m c (pt (y 0))) (iblk m c 2 (pt (y 0))) (ix3 (0 : Fin 1) (0 : Fin 1) (y 2))

/-! ## The index maps -/

/-- Each window's block index at point `t`: the batch entry on axis 0, zero on the two others. -/
private theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## The mean-row-loss array -/

/-- The mean-row-loss array at an index of batch entry `t` is the word the body leaves at point `t`. -/
private theorem A3_apply (c : Dev nD) (t : Fin cfg0.N) (i : S16x1x1.Idx) (h : (i 0).val = t.val) :
    A3 m c i = out3 (blk0 m c t) (iblk m c 1 t) (ix3 (0 : Fin 1) (0 : Fin 1) (0 : Fin 1)) := by
  have hp : pt (i 0) = t := Fin.ext h
  show out3 (blk0 m c (pt (i 0))) (iblk m c 1 (pt (i 0))) _ = _
  rw [hp]

/-- What point `t` writes back through window 3 is block `t` of the mean-row-loss array: the block is the one
    word at (t, 0, 0). -/
private theorem flushed3_eq (c : Dev nD) (t : Fin cfg0.N) :
    (dats m 0 c).flushed 3 t = ((cfg0.win 3).blk t).view.read (Elt F) (A3 m c) := by
  obtain ⟨-, -, -, ⟨e0, e1, e2⟩, -⟩ := index_facts t
  show (cfg0.win 3).cut (grid0.coords t) ((dats m 0 c).after 3 t) = _
  rw [after3]
  funext y
  rw [View.read_apply]
  have h0 : (y 0).val < 1 := (y 0).isLt
  have h1 : (y 1).val < 1 := (y 1).isLt
  have h2 : (y 2).val < 1 := (y 2).isLt
  rw [A3_apply m c t (((cfg0.win 3).blk t).view.emb y) (by
    show win0_3.index t (0 : Fin 3) * 1 + 1 * (y 0).val = t.val
    rw [e0]; omega)]
  generalize out3 (blk0 m c t) (iblk m c 1 t) = X
  show X _ = X _
  refine congrArg X ?_
  funext a
  apply Fin.ext
  match a with
  | ⟨0, _⟩ => show (y 0).val = 0; omega
  | ⟨1, _⟩ => show (y 1).val = 0; omega
  | ⟨2, _⟩ => show (y 2).val = 0; omega

/-- An index of the mean-row-loss array is in point `t`'s block iff each coordinate is in the block's range. -/
private theorem mem_blk3 (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v26_0).slice (win0_3.rect t)).set ↔ _
  rw [View.set_slice_whole, Rect.mem_set_unit]
  exact Iff.rfl

/-- The point that covers batch entry `b`'s word is `b` itself. -/
private theorem rows_covered3 (i : S16x1x1.Idx) :
    ∃ t : Fin cfg0.N, (cfg0.win 3).flush t = true ∧ i ∈ ((cfg0.win 3).blk t).view.set := by
  refine ⟨pt (i 0), flush0_3 _, ?_⟩
  rw [mem_blk3]
  obtain ⟨-, -, -, ⟨e0, e1, e2⟩, -⟩ := index_facts (pt (i 0))
  have h1 : (i 1).val < 1 := (i 1).isLt
  have h2 : (i 2).val < 1 := (i 2).isLt
  intro a
  match a with
  | ⟨0, _⟩ =>
    show win0_3.index (pt (i 0)) (0 : Fin 3) * 1 ≤ (i 0).val ∧ (i 0).val < win0_3.index (pt (i 0)) (0 : Fin 3) * 1 + 1
    rw [e0]; show (i 0).val * 1 ≤ (i 0).val ∧ (i 0).val < (i 0).val * 1 + 1; omega
  | ⟨1, _⟩ =>
    show win0_3.index (pt (i 0)) (1 : Fin 3) * 1 ≤ (i 1).val ∧ (i 1).val < win0_3.index (pt (i 0)) (1 : Fin 3) * 1 + 1
    rw [e1]; omega
  | ⟨2, _⟩ =>
    show win0_3.index (pt (i 0)) (2 : Fin 3) * 1 ≤ (i 2).val ∧ (i 2).val < win0_3.index (pt (i 0)) (2 : Fin 3) * 1 + 1
    rw [e2]; omega

theorem final3 (c : Dev nD) : (dats m 0 c).arrAt 3 cfg0.N = A3 m c :=
  (dats m 0 c).arrAt_eq_of_cover 3 (A3 m c) (fun t _ => flushed3_eq m c t) rows_covered3

/-! ## The column-partial-sum array -/

/-- The column-partial-sum array at an index of batch entry `t` is the row the body leaves at point `t`, at the
    index's column. -/
private theorem A4_apply (c : Dev nD) (t : Fin cfg0.N) (i : S16x1x2049.Idx) (h : (i 0).val = t.val) :
    A4 m c i = out4 (blk0 m c t) (iblk m c 2 t) (ix3 (0 : Fin 1) (0 : Fin 1) (i 2)) := by
  have hp : pt (i 0) = t := Fin.ext h
  show out4 (blk0 m c (pt (i 0))) (iblk m c 2 (pt (i 0))) _ = _
  rw [hp]

/-- What point `t` writes back through window 4 is block `t` of the column-partial-sum array: the block is
    row (t, 0, ·), column for column. -/
private theorem flushed4_eq (c : Dev nD) (t : Fin cfg0.N) :
    (dats m 0 c).flushed 4 t = ((cfg0.win 4).blk t).view.read (Elt F) (A4 m c) := by
  obtain ⟨-, -, -, -, ⟨e0, e1, e2⟩⟩ := index_facts t
  show (cfg0.win 4).cut (grid0.coords t) ((dats m 0 c).after 4 t) = _
  rw [after4]
  funext y
  rw [View.read_apply]
  have h0 : (y 0).val < 1 := (y 0).isLt
  have h1 : (y 1).val < 1 := (y 1).isLt
  have h2 : (y 2).val < 2049 := (y 2).isLt
  rw [A4_apply m c t (((cfg0.win 4).blk t).view.emb y) (by
    show win0_4.index t (0 : Fin 3) * 1 + 1 * (y 0).val = t.val
    rw [e0]; omega)]
  generalize out4 (blk0 m c t) (iblk m c 2 t) = X
  show X _ = X _
  refine congrArg X ?_
  funext a
  apply Fin.ext
  match a with
  | ⟨0, _⟩ => show (y 0).val = 0; omega
  | ⟨1, _⟩ => show (y 1).val = 0; omega
  | ⟨2, _⟩ => show (y 2).val = win0_4.index t (2 : Fin 3) * 2049 + 1 * (y 2).val; rw [e2]; omega

/-- An index of the column-partial-sum array is in point `t`'s block iff each coordinate is in the block's range. -/
private theorem mem_blk4 (t : Fin cfg0.N) (i : S16x1x2049.Idx) :
    i ∈ ((cfg0.win 4).blk t).view.set ↔ ∀ a : Fin 3, win0_4.index t a * S1x1x2049.size a ≤ (i a).val ∧ (i a).val < win0_4.index t a * S1x1x2049.size a + S1x1x2049.size a := by
  show i ∈ ((View.whole main_v26_1).slice (win0_4.rect t)).set ↔ _
  rw [View.set_slice_whole, Rect.mem_set_unit]
  exact Iff.rfl

/-- The point that covers batch entry `b`'s row is `b` itself. -/
private theorem rows_covered4 (i : S16x1x2049.Idx) :
    ∃ t : Fin cfg0.N, (cfg0.win 4).flush t = true ∧ i ∈ ((cfg0.win 4).blk t).view.set := by
  refine ⟨pt (i 0), flush0_4 _, ?_⟩
  rw [mem_blk4]
  obtain ⟨-, -, -, -, ⟨e0, e1, e2⟩⟩ := index_facts (pt (i 0))
  have h1 : (i 1).val < 1 := (i 1).isLt
  have h2 : (i 2).val < 2049 := (i 2).isLt
  intro a
  match a with
  | ⟨0, _⟩ =>
    show win0_4.index (pt (i 0)) (0 : Fin 3) * 1 ≤ (i 0).val ∧ (i 0).val < win0_4.index (pt (i 0)) (0 : Fin 3) * 1 + 1
    rw [e0]; show (i 0).val * 1 ≤ (i 0).val ∧ (i 0).val < (i 0).val * 1 + 1; omega
  | ⟨1, _⟩ =>
    show win0_4.index (pt (i 0)) (1 : Fin 3) * 1 ≤ (i 1).val ∧ (i 1).val < win0_4.index (pt (i 0)) (1 : Fin 3) * 1 + 1
    rw [e1]; omega
  | ⟨2, _⟩ =>
    show win0_4.index (pt (i 0)) (2 : Fin 3) * 2049 ≤ (i 2).val ∧ (i 2).val < win0_4.index (pt (i 0)) (2 : Fin 3) * 2049 + 2049
    rw [e2]; omega

theorem final4 (c : Dev nD) : (dats m 0 c).arrAt 4 cfg0.N = A4 m c :=
  (dats m 0 c).arrAt_eq_of_cover 4 (A4 m c) (fun t _ => flushed4_eq m c t) rows_covered4

/-! ## The blocks as reads of the arrays the region finds -/

/-- Every index of window 0's staging buffer is one the fetch at `t` moves: no block of the window is cut. -/
private theorem moved0 (t : Fin cfg0.N) (y : S1x2048x2049.Idx) : win0_0.moved (grid0.coords t) y = true :=
  (win0_0.moved_iff _ _).mpr fun a => by
    have h : win0_0.clip (grid0.coords t) a = none := clip0_none t a
    show (y a).val < (win0_0.clip (grid0.coords t) a).extent (win0_0.size a)
    rw [h]
    exact (y a).isLt

/-- The score slab of batch entry `b`, element by element. -/
theorem blk0_apply (c : Dev nD) (b : Fin 16) (i : Fin 2048) (j : Fin 2049) :
    blk0 m c (pt b) (ix3 (0 : Fin 1) i j) = (V m c main_arg2 : FVec F S16x2049x2049 .f32) (ix3 b i.castSucc j) := by
  obtain ⟨⟨e0, e1, e2⟩, -⟩ := index_facts (pt b)
  unfold blk0 Window.fill
  rw [dif_pos (moved0 (pt b) _)]
  unfold iblk
  rw [View.read_apply]
  show V m c main_arg2 _ = V m c main_arg2 _
  congr 1
  funext a
  apply Fin.ext
  match a with
  | ⟨0, _⟩ => show win0_0.index (pt b) (0 : Fin 3) * 1 + 1 * (0 : Nat) = b.val; rw [e0]; show b.val * 1 + 1 * 0 = b.val; omega
  | ⟨1, _⟩ => show win0_0.index (pt b) (1 : Fin 3) * 2048 + 1 * i.val = i.val; rw [e1]; omega
  | ⟨2, _⟩ => show win0_0.index (pt b) (2 : Fin 3) * 2049 + 1 * j.val = j.val; rw [e2]; omega

theorem iblk1_apply (c : Dev nD) (b : Fin 16) (i : Fin 2048) :
    (iblk m c 1 (pt b) : Vec F S1x2048x1 .f32) (ix3 (0 : Fin 1) i (0 : Fin 1))
      = (V m c main_v14 : FVec F S16x2048x1 .f32) (ix3 b i (0 : Fin 1)) := by
  obtain ⟨-, ⟨e0, e1, e2⟩, -⟩ := index_facts (pt b)
  unfold iblk
  rw [View.read_apply]
  show V m c main_v14 _ = V m c main_v14 _
  congr 1
  funext a
  apply Fin.ext
  match a with
  | ⟨0, _⟩ => show win0_1.index (pt b) (0 : Fin 3) * 1 + 1 * (0 : Nat) = b.val; rw [e0]; show b.val * 1 + 1 * 0 = b.val; omega
  | ⟨1, _⟩ => show win0_1.index (pt b) (1 : Fin 3) * 2048 + 1 * i.val = i.val; rw [e1]; omega
  | ⟨2, _⟩ => show win0_1.index (pt b) (2 : Fin 3) * 1 + 1 * (0 : Nat) = 0; rw [e2]

theorem iblk2_apply (c : Dev nD) (b : Fin 16) (j : Fin 2049) :
    (iblk m c 2 (pt b) : Vec F S1x1x2049 .f32) (ix3 (0 : Fin 1) (0 : Fin 1) j)
      = (V m c main_v25 : FVec F S16x1x2049 .f32) (ix3 b (0 : Fin 1) j) := by
  obtain ⟨-, -, ⟨e0, e1, e2⟩, -⟩ := index_facts (pt b)
  unfold iblk
  rw [View.read_apply]
  show V m c main_v25 _ = V m c main_v25 _
  congr 1
  funext a
  apply Fin.ext
  match a with
  | ⟨0, _⟩ => show win0_2.index (pt b) (0 : Fin 3) * 1 + 1 * (0 : Nat) = b.val; rw [e0]; show b.val * 1 + 1 * 0 = b.val; omega
  | ⟨1, _⟩ => show win0_2.index (pt b) (1 : Fin 3) * 1 + 1 * (0 : Nat) = 0; rw [e1]
  | ⟨2, _⟩ => show win0_2.index (pt b) (2 : Fin 3) * 2049 + 1 * j.val = j.val; rw [e2]; omega

end Cert.KernelIdeal.Hand

end
-- ==== Proof.Spec.lean ====
/-
  The loss both programs compute, as one function of the score array and the two match arrays, on the extended reals.

  For batch entry `b`, row `i < 2048` is matched to column `dec (g0 b i)` (a match index, or the word -1 for
  "unmatched", which reads as the dustbin column 2048), and column `j < 2048` to row `dec (g1 b j)`.
  The row loss is  2 · log (Σ_j max (s[b,i,j] − s[b,i,match] + ½, 0) − ½ + 1)  over all 2049 columns, the column loss
  the same over all 2049 rows; the result is the mean of the batch's mean row loss and mean column loss.
  The float literals stay the words the programs print (½, 1, 2, 2048, 0).
-/
import Idealize.ShloMosaic.PureOps.Ideal
import Idealize.ShloMosaic.Lib.ValueIdx

noncomputable section

namespace Cert.Spec

open Idealize.ShloMosaic Idealize.ShloMosaic.ValueIdx

/-- The score array's shape, the match arrays' and the result's. -/
abbrev SS : Shape := ⟨3, ![16, 2049, 2049]⟩
abbrev SG : Shape := ⟨2, ![16, 2048]⟩
abbrev SR : Shape := ⟨1, ![16]⟩

/-- A match word as an index into an axis of extent 2049: the word's unsigned value capped at 2048, so that the
    "unmatched" word -1 (all ones) reads as the dustbin index 2048 and a word in 0‥2048 as itself. -/
def dec (w : BitVec 32) : Fin 2049 := ⟨min w.toNat 2048, Nat.lt_succ_of_le (Nat.min_le_right _ _)⟩

/-- A match array is in range: each word is -1 or at most 2048. -/
def InRange (g : SG.Idx → BitVec 32) : Prop := ∀ i, g i = 4294967295#32 ∨ (g i).toNat ≤ 2048

/-- Every score is a real number. -/
def Finite (s : SS.Idx → EReal) : Prop := ∀ i, ∃ r : ℝ, s i = (r : EReal)

/-- The literals, as the extended reals their words denote. -/
abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32
abbrev n2048 : EReal := Ideal.ofBits .f32 0x45000000#32

/-- The matched score of row `i` of batch `b`. -/
def pos0 (s : SS.Idx → EReal) (g0 : SG.Idx → BitVec 32) (b : Fin 16) (i : Fin 2048) : EReal :=
  s (ix3 b i.castSucc (dec (g0 (ix2 b i))))

/-- The matched score of column `j` of batch `b`. -/
def pos1 (s : SS.Idx → EReal) (g1 : SG.Idx → BitVec 32) (b : Fin 16) (j : Fin 2048) : EReal :=
  s (ix3 b (dec (g1 (ix2 b j))) j.castSucc)

/-- The hinge sum of row `i` over all 2049 columns. -/
def rowSum (s : SS.Idx → EReal) (g0 : SG.Idx → BitVec 32) (b : Fin 16) (i : Fin 2048) : EReal :=
  ∑ j : Fin 2049, max (s (ix3 b i.castSucc j) - pos0 s g0 b i + half) zero

/-- The hinge sum of column `j` over all 2049 rows. -/
def colSum (s : SS.Idx → EReal) (g1 : SG.Idx → BitVec 32) (b : Fin 16) (j : Fin 2048) : EReal :=
  ∑ i : Fin 2049, max (s (ix3 b i j.castSucc) - pos1 s g1 b j + half) zero

/-- From a hinge sum to a loss term: the matched slot's own contribution ½ taken out, then 2 · log (· + 1). -/
def lossOf (x : EReal) : EReal := two * Ideal.log (x - half + one)

/-- The result: per batch entry, the mean of the mean row loss and the mean column loss. -/
def G (s : SS.Idx → EReal) (g0 g1 : SG.Idx → BitVec 32) : SR.Idx → EReal := fun y =>
  Ideal.div (Ideal.div (∑ i : Fin 2048, lossOf (rowSum s g0 (y 0) i)) n2048
    + Ideal.div (∑ j : Fin 2048, lossOf (colSum s g1 (y 0) j)) n2048) two

end Cert.Spec

end
-- ==== Proof.KernelIdeal.Payload.lean ====
/-
  What the body computes, read at an index on the extended reals.
-/
import proofs.«424079_j3393024163970_3_alg».proof.Proof.KernelIdeal.Data
import proofs.«424079_j3393024163970_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Column vectors: a trailing unit axis added, and one column spread over many -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Columns

/-! ## The body's values at an index -/

/-- The zero offsets of a whole-buffer access, however spelt. -/
theorem zeros3 : (![0, 0, 0] : Fin 3 → Nat) = fun _ => 0 := by
  funext a; match a with | ⟨0, _⟩ => rfl | ⟨1, _⟩ => rfl | ⟨2, _⟩ => rfl

/-- The score slab without its unit axis. -/
theorem slab_apply (x0 : Vec Ideal S1x2048x2049 .f32) (i : Fin 2048) (j : Fin 2049) :
    k0_pay2 (F := Ideal) x0 (ix2 i j) = x0 (ix3 (0 : Fin 1) i j) := by
  unfold k0_pay2
  exact shapeCast_1ab_ab_apply x0 _ i j

/-- The row hinge at row `i`, column `j`: the score less the row's matched value, cut off below at zero. -/
theorem rowHinge_apply (x0 : Vec Ideal S1x2048x2049 .f32) (x1 : Vec Ideal S1x2048x1 .f32) (i : Fin 2048) (j : Fin 2049) :
    maximumf (subf (k0_pay2 (F := Ideal) x0)
        (broadcastTo S2048x2049 (shapeCast S2048x1 x1 shapeCasts_S1x2048x1_S2048x1) broadcasts_S2048x1_S2048x2049))
        (broadcast S2048x2049 (FloatOps.ofBits (F := Ideal) .f32 0x00000000#32)) (ix2 i j)
      = max (x0 (ix3 (0 : Fin 1) i j) - x1 (ix3 (0 : Fin 1) i (0 : Fin 1))) Spec.zero := by
  show max (k0_pay2 (F := Ideal) x0 (ix2 i j)
      - broadcastTo S2048x2049 (shapeCast S2048x1 x1 shapeCasts_S1x2048x1_S2048x1) broadcasts_S2048x1_S2048x2049 (ix2 i j))
      (Ideal.ofBits .f32 0x00000000#32) = _
  rw [slab_apply, broadcastTo_a1_ab_apply, shapeCast_1ab_ab_apply]

/-- The column hinge at row `i`, column `j`: the score less the column's matched value, cut off below at zero. -/
theorem colHinge_apply (x0 : Vec Ideal S1x2048x2049 .f32) (x2 : Vec Ideal S1x1x2049 .f32) (i : Fin 2048) (j : Fin 2049) :
    maximumf (subf (k0_pay2 (F := Ideal) x0)
        (broadcastTo S2048x2049 (shapeCast S1x2049 x2 shapeCasts_S1x1x2049_S1x2049) broadcasts_S1x2049_S2048x2049))
        (broadcast S2048x2049 (FloatOps.ofBits (F := Ideal) .f32 0x00000000#32)) (ix2 i j)
      = max (x0 (ix3 (0 : Fin 1) i j) - x2 (ix3 (0 : Fin 1) (0 : Fin 1) j)) Spec.zero := by
  show max (k0_pay2 (F := Ideal) x0 (ix2 i j)
      - broadcastTo S2048x2049 (shapeCast S1x2049 x2 shapeCasts_S1x1x2049_S1x2049) broadcasts_S1x2049_S2048x2049 (ix2 i j))
      (Ideal.ofBits .f32 0x00000000#32) = _
  rw [slab_apply, broadcastTo_1b_ab_apply, shapeCast_1ab_ab_apply]

/-- The batch's mean row loss: over the 2048 rows, 2 · log of the row's hinge sum over all 2049 columns less ½ plus 1,
    summed and divided by 2048. -/
theorem out3_apply (x0 : Vec Ideal S1x2048x2049 .f32) (x1 : Vec Ideal S1x2048x1 .f32) :
    out3 (F := Ideal) x0 x1 (ix3 (0 : Fin 1) (0 : Fin 1) (0 : Fin 1))
      = Ideal.div (∑ i : Fin 2048, Spec.two * Ideal.log
          ((∑ j : Fin 2049, max (x0 (ix3 (0 : Fin 1) i j) - x1 (ix3 (0 : Fin 1) i (0 : Fin 1))) Spec.zero) - Spec.half + Spec.one))
          Spec.n2048 := by
  unfold out3
  rw [View.canon_unit_zero zeros3]
  simp only [View.ld_unit_zero (S := S1x2048x2049) zeros3, View.ld_unit_zero (S := S1x2048x1) zeros3]
  unfold k0_pay3
  -- the stored word is the quotient's one entry
  refine (shapeCast_ab_1ab_apply _ _ 0 0 0).trans ?_
  show Ideal.div (shapeCast S1x1 _ shapeCasts_S1_S1x1 (ix2 (0 : Fin 1) (0 : Fin 1))) (Ideal.ofBits .f32 0x45000000#32) = _
  refine congrArg (fun z => Ideal.div z Spec.n2048) ?_
  -- the sum over the rows
  refine (shapeCast_a_1a_apply _ _ 0 0).trans ?_
  refine (Ideal.multiReduction_add_single _ _ _ _ _ (ix1 (0 : Fin 1))).trans ?_
  refine Finset.sum_congr rfl fun (i : Fin 2048) _ => ?_
  have e : reduces_S2048x1_S1.lift (ix1 (0 : Fin 1)) i = ix2 i (0 : Fin 1) := by
    funext a; match a with | ⟨0, _⟩ => rfl | ⟨1, _⟩ => rfl
  rw [e]
  -- one row's loss term
  show Ideal.ofBits .f32 0x40000000#32 * Ideal.log
      (shapeCast S2048x1 _ shapeCasts_S2048_S2048x1 (ix2 i (0 : Fin 1)) - Ideal.ofBits .f32 0x3F000000#32
        + Ideal.ofBits .f32 0x3F800000#32) = _
  refine congrArg (fun z => Spec.two * Ideal.log (z - Spec.half + Spec.one)) ?_
  -- the row's hinge sum over the columns
  refine (shapeCast_a_a1_apply _ _ i 0).trans ?_
  refine (Ideal.multiReduction_add_single _ _ _ _ _ (ix1 i)).trans ?_
  refine Finset.sum_congr rfl fun (j : Fin 2049) _ => ?_
  have e2 : reduces_S2048x2049_S2048.lift (ix1 i) j = ix2 i j := by
    funext a; match a with | ⟨0, _⟩ => rfl | ⟨1, _⟩ => rfl
  rw [e2]
  exact rowHinge_apply x0 x1 i j

/-- The column's partial hinge sum over the 2048 rows. -/
theorem out4_apply (x0 : Vec Ideal S1x2048x2049 .f32) (x2 : Vec Ideal S1x1x2049 .f32) (j : Fin 2049) :
    out4 (F := Ideal) x0 x2 (ix3 (0 : Fin 1) (0 : Fin 1) j)
      = ∑ i : Fin 2048, max (x0 (ix3 (0 : Fin 1) i j) - x2 (ix3 (0 : Fin 1) (0 : Fin 1) j)) Spec.zero := by
  unfold out4
  rw [View.canon_unit_zero zeros3]
  simp only [View.ld_unit_zero (S := S1x2048x2049) zeros3, View.ld_unit_zero (S := S1x1x2049) zeros3]
  unfold k0_pay1 k0_pay4
  refine (shapeCast_ab_1ab_apply _ _ 0 0 j).trans ?_
  refine (shapeCast_a_1a_apply _ _ 0 j).trans ?_
  refine (Ideal.multiReduction_add_single _ _ _ _ _ (ix1 j)).trans ?_
  refine Finset.sum_congr rfl fun (i : Fin 2048) _ => ?_
  have e : reduces_S2048x2049_S2049.lift (ix1 j) i = ix2 i j := by
    funext a; match a with | ⟨0, _⟩ => rfl | ⟨1, _⟩ => rfl
  rw [e]
  exact colHinge_apply x0 x2 i j

end Cert.KernelIdeal.Hand

end
-- ==== Proof.KernelIdeal.Tail.lean ====
/-
  The host lines after the region as one function of the two result arrays, the score array and the gathered column
  matches, and that function read at a batch entry on the extended reals.
-/
import proofs.«424079_j3393024163970_3_alg».proof.Proof.KernelIdeal.Data
import proofs.«424079_j3393024163970_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- A float literal, given by its word, at every entry of a [16, 2048] array. -/
def tailLit (b : BitVec 32) : FVec F S16x2048 .f32 :=
  broadcastInDim S16x2048 ![] bcast_S_S16x2048 (constant (F := F) S_ .f32 b)

/-- A float literal, given by its word, at every entry of a [16] array. -/
def tailLit16 (b : BitVec 32) : FVec F S16 .f32 :=
  broadcastInDim S16 ![] bcast_S_S16 (constant (F := F) S_ .f32 b)

/-- The one row of a [16, 1, 2049] array cut to its first 2048 columns, as a [16, 2048] array. -/
def tailRow (a : FVec F S16x1x2049 .f32) : FVec F S16x2048 .f32 :=
  shapeCast S16x2048 (extractStridedSlice S16x1x2048 ![0, 0, 0] a slices_S16x1x2049_S16x1x2048_0_0_0)
    shapeCasts_S16x1x2048_S16x2048

/-- The dustbin row (row 2048) of the scores cut to its first 2048 columns, as a [16, 2048] array. -/
def tailDustbin (s : FVec F S16x2049x2049 .f32) : FVec F S16x2048 .f32 :=
  shapeCast S16x2048 (extractStridedSlice S16x1x2048 ![0, 2048, 0] s slices_S16x2049x2049_S16x1x2048_0_2048_0)
    shapeCasts_S16x1x2048_S16x2048

/-- The column loss terms: the partial column sum plus the dustbin row's hinge term, the matched slot's ½ taken out,
    then 2 · log (· + 1). -/
def tailTerm (a4 : FVec F S16x1x2049 .f32) (s : FVec F S16x2049x2049 .f32) (p : FVec F S16x1x2049 .f32) :
    FVec F S16x2048 .f32 :=
  mulf (tailLit 0x40000000#32)
    (Host.log (addf (subf (addf (tailRow a4)
      (maximumf (addf (subf (tailDustbin s) (tailRow p)) (tailLit 0x3F000000#32)) (tailLit 0x00000000#32)))
      (tailLit 0x3F000000#32)) (tailLit 0x3F800000#32)))

/-- The lines after the region: from the mean-row-loss array `a3`, the column-partial-sum array `a4`, the scores `s`
    and the gathered column matches `p`, the result. -/
def tailFn (a3 : FVec F S16x1x1 .f32) (a4 : FVec F S16x1x2049 .f32) (s : FVec F S16x2049x2049 .f32)
    (p : FVec F S16x1x2049 .f32) : FVec F S16 .f32 :=
  Host.divf (addf (shapeCast S16 a3 shapeCasts_S16x1x1_S16)
      (Host.divf (Host.reduceAdd (tailTerm a4 s p) (constant (F := F) S_ .f32 0x00000000#32) reducesTo_S16x2048_S16_d1 h_S_)
        (tailLit16 0x45000000#32)))
    (tailLit16 0x40000000#32)

/-- The lines after the region, run from any buffer contents `W`, leave in the result buffer `tailFn` of what `W` holds
    at the four buffers they read and did not write. -/
theorem tail_after (W : Valuation τ sig (Elt F)) :
    StableHlo.after hostOps1 W (Proc.devRef .tc main_v52)
      = tailFn (W (Proc.devRef .tc main_v26_0)) (W (Proc.devRef .tc main_v26_1)) (W (Proc.devRef .tc main_arg2))
          (W (Proc.devRef .tc main_v18)) := by
  after_results_simp
  rfl

/-- `tailFn` of equal arguments. -/
theorem tailFn_congr {a3 a3' : FVec F S16x1x1 .f32} {a4 a4' : FVec F S16x1x2049 .f32} {s s' : FVec F S16x2049x2049 .f32}
    {p p' : FVec F S16x1x2049 .f32} (h3 : a3 = a3') (h4 : a4 = a4') (hs : s = s') (hp : p = p') :
    tailFn a3 a4 s p = tailFn a3' a4' s' p' := by
  subst h3 h4 hs hp; rfl

variable (m : (ℓ : Loc nD τ sig) → Buf (Elt F) ℓ)

theorem tail_eq (c : Dev nD) :
    Pipeline.afterTail₀ cfgs (dats m) 0 (V0 m) [hostOps1] c main_v52
      = tailFn ((dats m 0 c).arrAt 3 cfg0.N) ((dats m 0 c).arrAt 4 cfg0.N) (V m c main_arg2) (V m c main_v18) := by
  unfold Pipeline.afterTail₀
  simp only [List.flatten_cons, List.flatten_nil, List.append_nil]
  refine (tail_after _).trans (tailFn_congr ?_ ?_ ?_ ?_)
  · exact Pipeline.withArrays_arr spec0 launch0.win.arr_inj c (V0 m c) (fun w => (dats m 0 c).arrAt w cfg0.N) 3
  · exact Pipeline.withArrays_arr spec0 launch0.win.arr_inj c (V0 m c) (fun w => (dats m 0 c).arrAt w cfg0.N) 4
  · exact (Pipeline.withArrays_arr spec0 launch0.win.arr_inj c (V0 m c) (fun w => (dats m 0 c).arrAt w cfg0.N) 0).trans
      (((dats m 0 c).arrAt_in 0 rfl _).trans (A_eq m c 0))
  · exact Pipeline.withArrays_of_ne spec0 c (V0 m c) (fun w => (dats m 0 c).arrAt w cfg0.N) main_v18
      (by decide : ∀ w, Pipeline.arrRef spec0 w ≠ main_v18)

/-! ## The lines read at an index, on the extended reals -/

/-- The [16] array of mean row losses: the [16, 1, 1] array's entries in order. -/
theorem tailMean_apply (a3 : FVec F S16x1x1 .f32) (y : S16.Idx) :
    shapeCast S16 a3 shapeCasts_S16x1x1_S16 y = a3 (ix3 (y 0) (0 : Fin 1) (0 : Fin 1)) := by
  refine shapeCast_apply a3 shapeCasts_S16x1x1_S16 y (ix3 (y 0) (0 : Fin 1) (0 : Fin 1)) ?_
  rw [Shape.rowMajor_val_three, Shape.rowMajor_val_one]
  show ((y 0).val * 1 + 0) * 1 + 0 = (y 0).val
  omega

/-- The row of a [16, 1, 2049] array at column `j < 2048`. -/
theorem tailRow_apply (a : FVec F S16x1x2049 .f32) (b : Fin 16) (j : Fin 2048) :
    tailRow a (ix2 b j) = a (ix3 b (0 : Fin 1) j.castSucc) := by
  unfold tailRow
  refine (shapeCast_apply _ shapeCasts_S16x1x2048_S16x2048 (ix2 b j) (ix3 b (0 : Fin 1) j) ?_).trans ?_
  · rw [Shape.rowMajor_val_three, Shape.rowMajor_val_two]
    show (b.val * 1 + 0) * 2048 + j.val = b.val * 2048 + j.val
    omega
  · exact extractStridedSlice_apply ![0, 0, 0] a slices_S16x1x2049_S16x1x2048_0_0_0 (ix3 b (0 : Fin 1) j)
      (ix3 b (0 : Fin 1) j.castSucc) (fun r => match r with
        | ⟨0, _⟩ => by show b.val = 0 + b.val; omega
        | ⟨1, _⟩ => by show 0 = 0 + 0; rfl
        | ⟨2, _⟩ => by show j.val = 0 + j.val; omega)

/-- The dustbin row of the scores at column `j < 2048`. -/
theorem tailDustbin_apply (s : FVec F S16x2049x2049 .f32) (b : Fin 16) (j : Fin 2048) :
    tailDustbin s (ix2 b j) = s (ix3 b (Fin.last 2048) j.castSucc) := by
  unfold tailDustbin
  refine (shapeCast_apply _ shapeCasts_S16x1x2048_S16x2048 (ix2 b j) (ix3 b (0 : Fin 1) j) ?_).trans ?_
  · rw [Shape.rowMajor_val_three, Shape.rowMajor_val_two]
    show (b.val * 1 + 0) * 2048 + j.val = b.val * 2048 + j.val
    omega
  · exact extractStridedSlice_apply ![0, 2048, 0] s slices_S16x2049x2049_S16x1x2048_0_2048_0 (ix3 b (0 : Fin 1) j)
      (ix3 b (Fin.last 2048) j.castSucc) (fun r => match r with
        | ⟨0, _⟩ => by show b.val = 0 + b.val; omega
        | ⟨1, _⟩ => by show 2048 = 2048 + 0; rfl
        | ⟨2, _⟩ => by show j.val = 0 + j.val; omega)

/-- A column's loss term on the extended reals. -/
theorem tailTerm_apply (a4 : FVec Ideal S16x1x2049 .f32) (s : FVec Ideal S16x2049x2049 .f32) (p : FVec Ideal S16x1x2049 .f32)
    (b : Fin 16) (j : Fin 2048) :
    tailTerm (F := Ideal) a4 s p (ix2 b j)
      = Spec.two * Ideal.log
          (a4 (ix3 b (0 : Fin 1) j.castSucc)
            + max (s (ix3 b (Fin.last 2048) j.castSucc) - p (ix3 b (0 : Fin 1) j.castSucc) + Spec.half) Spec.zero
            - Spec.half + Spec.one) := by
  show Spec.two * Ideal.log
      (tailRow a4 (ix2 b j) + max (tailDustbin s (ix2 b j) - tailRow p (ix2 b j) + Spec.half) Spec.zero
        - Spec.half + Spec.one) = _
  rw [tailRow_apply, tailRow_apply, tailDustbin_apply]

theorem tailFn_apply (a3 : FVec Ideal S16x1x1 .f32) (a4 : FVec Ideal S16x1x2049 .f32) (s : FVec Ideal S16x2049x2049 .f32)
    (p : FVec Ideal S16x1x2049 .f32) (y : S16.Idx) :
    tailFn (F := Ideal) a3 a4 s p y
      = Ideal.div (a3 (ix3 (y 0) (0 : Fin 1) (0 : Fin 1))
          + Ideal.div (Spec.zero + ∑ j : Fin 2048, Spec.two * Ideal.log
              (a4 (ix3 (y 0) (0 : Fin 1) j.castSucc)
                + max (s (ix3 (y 0) (Fin.last 2048) j.castSucc) - p (ix3 (y 0) (0 : Fin 1) j.castSucc) + Spec.half) Spec.zero
                - Spec.half + Spec.one)) Spec.n2048) Spec.two := by
  unfold tailFn
  show Ideal.div (shapeCast S16 a3 shapeCasts_S16x1x1_S16 y
      + Ideal.div (Ideal.hostReduceAdd reducesTo_S16x2048_S16_d1 (tailTerm a4 s p) Spec.zero y) Spec.n2048) Spec.two = _
  rw [tailMean_apply, Ideal.hostReduceAdd_single reducesTo_S16x2048_S16_d1 (by decide)]
  refine congrArg (fun t => Ideal.div (a3 (ix3 (y 0) (0 : Fin 1) (0 : Fin 1)) + Ideal.div (Spec.zero + t) Spec.n2048) Spec.two)
    (Finset.sum_congr rfl fun j _ => ?_)
  refine Eq.trans (congrArg (tailTerm a4 s p) ?_) (tailTerm_apply a4 s p (y 0) j)
  exact funext fun r => Fin.ext (by match r with | ⟨0, _⟩ => rfl | ⟨1, _⟩ => rfl)

end Cert.KernelIdeal.Hand

end
-- ==== Proof.LibTakeAlong.lean ====
/-
  General: `stablehlo.gather` as `jnp.take_along_axis` lowers it on a rank-3 operand, read at an index.

  With two batching axes shared by the operand and the start indices, the remaining operand axis collapsed and
  indexed by a one-component index vector, result element `(b, r, 0)` (resp. `(b, 0, c)`) is the operand at the
  same batch coordinates and, on the indexed axis, the start index read signed and clamped into the axis.

  Per operand axis the operand index is start + batch coordinate + offset coordinate: on a batching axis only the
  batch coordinate is non-zero and it is the result's coordinate on the paired axis; on the collapsed axis only the
  start is non-zero and it is the clamped start index, read at the result's batch coordinates with 0 on the index
  vector's axis.
-/
import Idealize.ShloMosaic.PureOps
import Idealize.ShloMosaic.Lib.ValueIdx

noncomputable section

namespace Cert.LibTakeAlong

open Idealize.ShloMosaic Idealize.ShloMosaic.ValueIdx

variable {α : Type}

/-- The dimension numbers of the gather along the LAST axis: operand `[B, R, C]`, start indices `[B, R, 1, 1]`,
    result `[B, R, 1]`; axes 0 and 1 batching on both sides, axis 2 collapsed and start-indexed, the index vector
    on start-indices axis 3, no offset axes. -/
abbrev alongDims2 (B R C : Nat)
    (wf : GatherDims.WF ⟨3, ![B, R, C]⟩ ⟨4, ![B, R, 1, 1]⟩ ⟨3, ![B, R, 1]⟩ [] [2] [0, 1] [2] [0, 1] 3 ![1, 1, 1]) :
    GatherDims ⟨3, ![B, R, C]⟩ ⟨4, ![B, R, 1, 1]⟩ ⟨3, ![B, R, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather with those dimension numbers, read at `(b, r, 0)`. -/
theorem gather_alongDims2_apply {B R C w : Nat} (hC : 0 < C)
    (wf : GatherDims.WF ⟨3, ![B, R, C]⟩ ⟨4, ![B, R, 1, 1]⟩ ⟨3, ![B, R, 1]⟩ [] [2] [0, 1] [2] [0, 1] 3 ![1, 1, 1])
    (x : (⟨3, ![B, R, C]⟩ : Shape).Idx → α) (idx : IVec ⟨4, ![B, R, 1, 1]⟩ w) (b : Fin B) (r : Fin R) :
    Host.gather (alongDims2 B R C wf) x idx (ix3 b r (0 : Fin 1))
      = x (ix3 b r ⟨min (idx (ix4 b r (0 : Fin 1) (0 : Fin 1))).toInt.toNat (C - 1), by omega⟩) := by
  unfold Host.gather
  congr 1
  funext a
  refine Fin.ext ?_
  have hb0 : (0 : Fin 3) ∈ (alongDims2 B R C wf).operandBatchingDims := List.mem_cons_self
  have hb1 : (1 : Fin 3) ∈ (alongDims2 B R C wf).operandBatchingDims := List.mem_cons_of_mem _ List.mem_cons_self
  have hb2 : (2 : Fin 3) ∉ (alongDims2 B R C wf).operandBatchingDims := by
    show (2 : Fin 3) ∉ ([0, 1] : List (Fin 3)); decide
  have hc2 : (2 : Fin 3) ∈ (alongDims2 B R C wf).collapsedSliceDims := List.mem_singleton.mpr rfl
  have hm2 : (2 : Fin 3) ∈ (alongDims2 B R C wf).startIndexMap := List.mem_singleton.mpr rfl
  match a with
  | ⟨0, _⟩ =>
    -- a batching axis: no start, no offset; the batch coordinate is the result's coordinate 0
    show (alongDims2 B R C wf).start _ idx 0 + (alongDims2 B R C wf).batchCoord _ 0 + (alongDims2 B R C wf).offCoord _ 0 = b.val
    rw [GatherDims.start_batching _ _ _ _ hb0,
      GatherDims.offCoord_eq_zero _ _ _ (fun h => ((GatherDims.mem_sKept _ _).mp h).2 hb0), Nat.zero_add, Nat.add_zero]
    rfl
  | ⟨1, _⟩ =>
    -- a batching axis: the batch coordinate is the result's coordinate 1
    show (alongDims2 B R C wf).start _ idx 1 + (alongDims2 B R C wf).batchCoord _ 1 + (alongDims2 B R C wf).offCoord _ 1 = r.val
    rw [GatherDims.start_batching _ _ _ _ hb1,
      GatherDims.offCoord_eq_zero _ _ _ (fun h => ((GatherDims.mem_sKept _ _).mp h).2 hb1), Nat.zero_add, Nat.add_zero]
    rfl
  | ⟨2, _⟩ =>
    -- the collapsed, start-indexed axis: the start index read signed and clamped into the axis
    show (alongDims2 B R C wf).start _ idx 2 + (alongDims2 B R C wf).batchCoord _ 2 + (alongDims2 B R C wf).offCoord _ 2
      = min (idx (ix4 b r 0 0)).toInt.toNat (C - 1)
    rw [GatherDims.batchCoord_eq_zero _ _ _ hb2,
      GatherDims.offCoord_eq_zero _ _ _ (fun h => ((GatherDims.mem_sKept _ _).mp h).1 hc2), Nat.add_zero]
    unfold GatherDims.start
    rw [dif_pos hm2]
    have hsi : (alongDims2 B R C wf).siIdx (ix3 b r (0 : Fin 1))
        ⟨List.idxOf (2 : Fin 3) (alongDims2 B R C wf).startIndexMap, List.idxOf_lt_length_iff.2 hm2⟩
        = ix4 b r (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    rfl

/-- Along the LAST axis: operand `[B, R, C]`, start indices `[B, R, 1, 1]`, result `[B, R, 1]`. -/
theorem gather_along_axis2 {B R C w : Nat} (hC : 0 < C)
    (d : GatherDims ⟨3, ![B, R, C]⟩ ⟨4, ![B, R, 1, 1]⟩ ⟨3, ![B, R, 1]⟩)
    (hoff : d.offsetDims = []) (hcol : d.collapsedSliceDims = [2]) (hob : d.operandBatchingDims = [0, 1])
    (hsb : d.startIndicesBatchingDims = [0, 1]) (hmap : d.startIndexMap = [2]) (hiv : d.indexVectorDim = 3)
    (hss : d.sliceSizes = ![1, 1, 1])
    (x : (⟨3, ![B, R, C]⟩ : Shape).Idx → α) (idx : IVec ⟨4, ![B, R, 1, 1]⟩ w) (b : Fin B) (r : Fin R) :
    Host.gather d x idx (ix3 b r (0 : Fin 1))
      = x (ix3 b r ⟨min (idx (ix4 b r (0 : Fin 1) (0 : Fin 1))).toInt.toNat (C - 1), by omega⟩) := by
  obtain ⟨od, cd, ob, sb, sm, iv, ss, wf⟩ := d
  dsimp only at hoff hcol hob hsb hmap hiv hss
  subst hoff hcol hob hsb hmap hiv hss
  exact gather_alongDims2_apply hC wf x idx b r

/-- The dimension numbers of the gather along the MIDDLE axis: operand `[B, R, C]`, start indices `[B, 1, C, 1]`,
    result `[B, 1, C]`; axes 0 and 2 batching on both sides, axis 1 collapsed and start-indexed, the index vector
    on start-indices axis 3, no offset axes. -/
abbrev alongDims1 (B R C : Nat)
    (wf : GatherDims.WF ⟨3, ![B, R, C]⟩ ⟨4, ![B, 1, C, 1]⟩ ⟨3, ![B, 1, C]⟩ [] [1] [0, 2] [1] [0, 2] 3 ![1, 1, 1]) :
    GatherDims ⟨3, ![B, R, C]⟩ ⟨4, ![B, 1, C, 1]⟩ ⟨3, ![B, 1, C]⟩ where
  offsetDims := []
  collapsedSliceDims := [1]
  operandBatchingDims := [0, 2]
  startIndicesBatchingDims := [0, 2]
  startIndexMap := [1]
  indexVectorDim := 3
  sliceSizes := ![1, 1, 1]
  wf := wf

/-- The gather with those dimension numbers, read at `(b, 0, c)`. -/
theorem gather_alongDims1_apply {B R C w : Nat} (hR : 0 < R)
    (wf : GatherDims.WF ⟨3, ![B, R, C]⟩ ⟨4, ![B, 1, C, 1]⟩ ⟨3, ![B, 1, C]⟩ [] [1] [0, 2] [1] [0, 2] 3 ![1, 1, 1])
    (x : (⟨3, ![B, R, C]⟩ : Shape).Idx → α) (idx : IVec ⟨4, ![B, 1, C, 1]⟩ w) (b : Fin B) (c : Fin C) :
    Host.gather (alongDims1 B R C wf) x idx (ix3 b (0 : Fin 1) c)
      = x (ix3 b ⟨min (idx (ix4 b (0 : Fin 1) c (0 : Fin 1))).toInt.toNat (R - 1), by omega⟩ c) := by
  unfold Host.gather
  congr 1
  funext a
  refine Fin.ext ?_
  have hb0 : (0 : Fin 3) ∈ (alongDims1 B R C wf).operandBatchingDims := List.mem_cons_self
  have hb2 : (2 : Fin 3) ∈ (alongDims1 B R C wf).operandBatchingDims := List.mem_cons_of_mem _ List.mem_cons_self
  have hb1 : (1 : Fin 3) ∉ (alongDims1 B R C wf).operandBatchingDims := by
    show (1 : Fin 3) ∉ ([0, 2] : List (Fin 3)); decide
  have hc1 : (1 : Fin 3) ∈ (alongDims1 B R C wf).collapsedSliceDims := List.mem_singleton.mpr rfl
  have hm1 : (1 : Fin 3) ∈ (alongDims1 B R C wf).startIndexMap := List.mem_singleton.mpr rfl
  match a with
  | ⟨0, _⟩ =>
    -- a batching axis: no start, no offset; the batch coordinate is the result's coordinate 0
    show (alongDims1 B R C wf).start _ idx 0 + (alongDims1 B R C wf).batchCoord _ 0 + (alongDims1 B R C wf).offCoord _ 0 = b.val
    rw [GatherDims.start_batching _ _ _ _ hb0,
      GatherDims.offCoord_eq_zero _ _ _ (fun h => ((GatherDims.mem_sKept _ _).mp h).2 hb0), Nat.zero_add, Nat.add_zero]
    rfl
  | ⟨1, _⟩ =>
    -- the collapsed, start-indexed axis: the start index read signed and clamped into the axis
    show (alongDims1 B R C wf).start _ idx 1 + (alongDims1 B R C wf).batchCoord _ 1 + (alongDims1 B R C wf).offCoord _ 1
      = min (idx (ix4 b 0 c 0)).toInt.toNat (R - 1)
    rw [GatherDims.batchCoord_eq_zero _ _ _ hb1,
      GatherDims.offCoord_eq_zero _ _ _ (fun h => ((GatherDims.mem_sKept _ _).mp h).1 hc1), Nat.add_zero]
    unfold GatherDims.start
    rw [dif_pos hm1]
    have hsi : (alongDims1 B R C wf).siIdx (ix3 b (0 : Fin 1) c)
        ⟨List.idxOf (1 : Fin 3) (alongDims1 B R C wf).startIndexMap, List.idxOf_lt_length_iff.2 hm1⟩
        = ix4 b (0 : Fin 1) c (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    -- a batching axis: the batch coordinate is the result's coordinate 2
    show (alongDims1 B R C wf).start _ idx 2 + (alongDims1 B R C wf).batchCoord _ 2 + (alongDims1 B R C wf).offCoord _ 2 = c.val
    rw [GatherDims.start_batching _ _ _ _ hb2,
      GatherDims.offCoord_eq_zero _ _ _ (fun h => ((GatherDims.mem_sKept _ _).mp h).2 hb2), Nat.zero_add, Nat.add_zero]
    rfl

/-- Along the MIDDLE axis: operand `[B, R, C]`, start indices `[B, 1, C, 1]`, result `[B, 1, C]`. -/
theorem gather_along_axis1 {B R C w : Nat} (hR : 0 < R)
    (d : GatherDims ⟨3, ![B, R, C]⟩ ⟨4, ![B, 1, C, 1]⟩ ⟨3, ![B, 1, C]⟩)
    (hoff : d.offsetDims = []) (hcol : d.collapsedSliceDims = [1]) (hob : d.operandBatchingDims = [0, 2])
    (hsb : d.startIndicesBatchingDims = [0, 2]) (hmap : d.startIndexMap = [1]) (hiv : d.indexVectorDim = 3)
    (hss : d.sliceSizes = ![1, 1, 1])
    (x : (⟨3, ![B, R, C]⟩ : Shape).Idx → α) (idx : IVec ⟨4, ![B, 1, C, 1]⟩ w) (b : Fin B) (c : Fin C) :
    Host.gather d x idx (ix3 b (0 : Fin 1) c)
      = x (ix3 b ⟨min (idx (ix4 b (0 : Fin 1) c (0 : Fin 1))).toInt.toNat (R - 1), by omega⟩ c) := by
  obtain ⟨od, cd, ob, sb, sm, iv, ss, wf⟩ := d
  dsimp only at hoff hcol hob hsb hmap hiv hss
  subst hoff hcol hob hsb hmap hiv hss
  exact gather_alongDims1_apply hR wf x idx b c

end Cert.LibTakeAlong

end
-- ==== Proof.KernelIdeal.PrefixRow.lean ====
/-
  The per-row matched score the region is handed (window 1's array): the score at the row's match, less the margin ½.
  Read off the host lines before the region, for match words in range.

  The host lines turn the match word `w` of row `i` into a column index (2048 for the word -1, else `w`; clamped
  into 0‥2048), append a zero entry for the dustbin row, and take the scores along the last axis at those indices:
  a negative index would be wrapped by the extent 2049, an index outside 0‥2048 masked to the fill value, and the
  gather clamps its start index into the axis — none of which touches an index already in 0‥2048. The first 2048 rows
  of the result, less ½, are window 1's array.
-/
import proofs.«424079_j3393024163970_3_alg».proof.Proof.KernelIdeal.Data
import proofs.«424079_j3393024163970_3_alg».proof.Proof.Spec
import proofs.«424079_j3393024163970_3_alg».proof.Proof.LibTakeAlong
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace PrefixRow

/-! ## The column indices, as stages of the match array -/

/-- The match words as column indices: the word -1 ("unmatched") replaced by the dustbin column 2048, the result
    clamped into 0‥2048. -/
def matchCol (g : IVec S16x2048 32) : IVec S16x2048 32 :=
  minsi (broadcastInDim S16x2048 ![] bcast_S_S16x2048 (id (constantI S_ 32 2048#32)))
    (maxsi (broadcastInDim S16x2048 ![] bcast_S_S16x2048 (id (constantI S_ 32 0#32)))
      (select (cmpi .eq g (broadcastInDim S16x2048 ![] bcast_S_S16x2048 (constantI S_ 32 4294967295#32)))
        (broadcastInDim S16x2048 ![] bcast_S_S16x2048 (id (constantI S_ 32 2048#32))) g))

/-- A zero entry appended to each batch's rows (for the dustbin row), as a rank-3 array. -/
def padCol (q : IVec S16x2048 32) : IVec S16x2049x1 32 :=
  broadcastInDim S16x2049x1 ![0, 1] bcast_S16x2049_S16x2049x1_0_1
    (concatenate S16x2049 1 [⟨S16x2048, q⟩, ⟨S16x1, broadcastInDim S16x1 ![] bcast_S_S16x1 (constantI S_ 32 0#32)⟩]
      concatenates_S16x2048_S16x1_S16x2049_d1)

/-! ## The gather along the last axis, as stages of the padded index array -/

/-- The start indices of the gather: a negative index wrapped by the axis extent 2049, as a rank-4 array. -/
def startIdx (p : IVec S16x2049x1 32) : IVec S16x2049x1x1 32 :=
  shapeCast _ (select (cmpi .slt p (broadcastInDim S16x2049x1 ![] bcast_S_S16x2049x1 (constantI S_ 32 0#32)))
    (addi p (broadcastInDim S16x2049x1 ![] bcast_S_S16x2049x1 (constantI S_ 32 2049#32))) p) shapeCasts_S16x2049x1_S16x2049x1x1

/-- The in-bounds mask of the gather: the start index lies in 0‥2048. -/
def inBounds (p : IVec S16x2049x1 32) : IVec S16x2049x1 1 :=
  Host.reduce IntOp.andi
    (andi (cmpi .sge (startIdx p) (broadcastInDim S16x2049x1x1 ![] bcast_S_S16x2049x1x1 (constantI S_ 32 0#32)))
      (cmpi .sle (startIdx p) (broadcastInDim S16x2049x1x1 ![0, 1, 2, 3] bcast_S1x1x1x1_S16x2049x1x1_0_1_2_3
        (broadcastInDim S1x1x1x1 ![3] bcast_S1_S1x1x1x1_3 (constantI S1 32 2048#32)))))
    (constantI S_ 1 1#1) reducesTo_S16x2049x1x1_S16x2049x1_d3 h_S_

section
variable {F : FTy → Type} [FloatOps F]

/-- The scores taken along the last axis at the start indices, the fill value where the mask is off. -/
def takenScore (p : IVec S16x2049x1 32) (s : FVec F S16x2049x2049 .f32) : FVec F S16x2049x1 .f32 :=
  select (inBounds p)
    (Host.gather gather_S16x2049x2049_S16x2049x1x1_S16x2049x1_n_2_01_01_2_3_111 s (startIdx p))
    (broadcastInDim S16x2049x1 ![] bcast_S_S16x2049x1 (constant S_ .f32 0x7FC00000#32))

/-- The first 2048 rows of a rank-3 column array, less the margin. -/
def lessMargin (x : FVec F S16x2049x1 .f32) : FVec F S16x2048x1 .f32 :=
  subf (extractStridedSlice S16x2048x1 ![0, 0, 0] x slices_S16x2049x1_S16x2048x1_0_0_0)
    (broadcastInDim S16x2048x1 ![] bcast_S_S16x2048x1 (constant S_ .f32 0x3F000000#32))

end

/-! ## One match word

A match word `w` is -1 or at most 2048. The host lines turn it into the column index `u`: 2048 for -1, else `w`;
`u` is at most 2048, so it reads the same signed and unsigned, the clamp to 0‥2048 and the wrap of negative indices
leave it alone, the bounds test passes, and the gather's own clamp into the axis leaves it alone. -/

/-- A word of value at most 2048 reads the same signed and unsigned. -/
theorem toInt_of_le_2048 {u : BitVec 32} (hu : u.toNat ≤ 2048) : u.toInt = (u.toNat : Int) :=
  StableHlo.Predicate.toInt_eq_toNat_of_lt (by omega)

/-- The word -1 replaced by 2048: the value is the match word's capped at 2048. -/
theorem unmatched_toNat (w : BitVec 32) (hr : w = 4294967295#32 ∨ w.toNat ≤ 2048) :
    (Scalar.select (IntOp.cmpi .eq w 4294967295#32) 2048#32 w).toNat = min w.toNat 2048 := by
  rcases hr with rfl | hr
  · decide
  · have hne : ¬ IntOp.cmpi .eq w 4294967295#32 = 1#1 := by
      rw [IntOp.cmpi_eq]; intro h; rw [h] at hr; exact absurd hr (by decide)
    rw [eq_zero_of_ne_one hne, select_zero]; omega

/-- The clamp to 0‥2048 of a word already there. -/
theorem clamp_of_le (u : BitVec 32) (hu : u.toNat ≤ 2048) : IntOp.minsi 2048#32 (IntOp.maxsi 0#32 u) = u := by
  have hti := toInt_of_le_2048 hu
  have h0 : (0#32 : BitVec 32).toInt = 0 := by decide
  have h2 : (2048#32 : BitVec 32).toInt = 2048 := by decide
  have hs : ¬ (u.slt 0#32 = true) := by
    simp only [BitVec.slt, hti, h0, decide_eq_true_eq]; omega
  have hmax : IntOp.maxsi 0#32 u = u := by unfold IntOp.maxsi; exact if_neg hs
  have hs2 : ¬ ((2048#32 : BitVec 32).slt u = true) := by
    simp only [BitVec.slt, hti, h2, decide_eq_true_eq]; omega
  rw [hmax]; unfold IntOp.minsi; exact if_neg hs2

/-- The wrap of a negative index by the axis extent leaves it alone. -/
theorem wrap_of_le (u : BitVec 32) (hu : u.toNat ≤ 2048) :
    Scalar.select (IntOp.cmpi .slt u 0#32) (IntOp.addi u 2049#32) u = u := by
  have h0 : (0#32 : BitVec 32).toInt = 0 := by decide
  have hne : ¬ IntOp.cmpi .slt u 0#32 = 1#1 := by
    rw [IntOp.cmpi_slt, toInt_of_le_2048 hu, h0]; omega
  rw [eq_zero_of_ne_one hne, select_zero]

/-- The bounds test 0 ≤ u ≤ 2048 passes. -/
theorem bounds_of_le (u : BitVec 32) (hu : u.toNat ≤ 2048) :
    IntOp.andi (IntOp.cmpi .sge u 0#32) (IntOp.cmpi .sle u 2048#32) = 1#1 := by
  have h0 : (0#32 : BitVec 32).toInt = 0 := by decide
  have h2 : (2048#32 : BitVec 32).toInt = 2048 := by decide
  rw [IntOp.andi_eq_one, IntOp.cmpi_sge, IntOp.cmpi_sle, toInt_of_le_2048 hu, h0, h2]
  omega

/-- The gather's clamp into an axis of extent 2049 leaves it alone. -/
theorem axisClamp_of_le (u : BitVec 32) (hu : u.toNat ≤ 2048) : min u.toInt.toNat (2049 - 1) = u.toNat := by
  rw [toInt_of_le_2048 hu, Int.toNat_natCast]; omega

/-- An AND-reduction from 1 over entries that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l (fun n hn => h n (List.mem_cons_of_mem _ hn))

/-- A `stablehlo.reduce` by AND from 1 is 1 at a result index all of whose operand entries are 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ (fun i hi => hx i ?_)
  have := (List.mem_filter.1 hi).2
  exact of_decide_eq_true this

/-! ## The host lines before the region, stretch by stretch, from any contents -/

section Stretches
variable (W : Valuation τ sig (Elt Ideal))

set_option maxHeartbeats 1000000 in
/-- The lines up to the clamp leave the column indices in `main_v6`. -/
theorem stretch1_v6 :
    (StableHlo.after (List.flatten [Gen.hostOps0 (F := Ideal), Gen.hostOps0_1, Gen.hostOps0_2, Gen.hostOps0_3, Gen.hostOps0_4, Gen.hostOps0_5, Gen.hostOps0_6, Gen.hostOps0_7]) W (Proc.devRef .tc main_v6) : IVec S16x2048 32)
      = matchCol (W (Proc.devRef .tc main_arg0)) := by
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  simp only [StableHlo.TRef.toBuf, StableHlo.TRef.ofBuf, cast_cast, cast_eq]
  rfl

set_option maxHeartbeats 1000000 in
/-- They leave the scores alone. -/
theorem stretch1_arg2 :
    StableHlo.after (List.flatten [Gen.hostOps0 (F := Ideal), Gen.hostOps0_1, Gen.hostOps0_2, Gen.hostOps0_3, Gen.hostOps0_4, Gen.hostOps0_5, Gen.hostOps0_6, Gen.hostOps0_7]) W (Proc.devRef .tc main_arg2)
      = W (Proc.devRef .tc main_arg2) := by
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp

/-- The padding lines leave the padded rank-3 indices in `main_v10`. -/
theorem stretch2_v10 :
    (StableHlo.after (Gen.hostOps0_8 (F := Ideal)) W (Proc.devRef .tc main_v10) : IVec S16x2049x1 32)
      = padCol (W (Proc.devRef .tc main_v6)) := by
  simp only [Gen.hostOps0_8]
  after_results_simp
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

/-- They leave the scores alone. -/
theorem stretch2_arg2 :
    StableHlo.after (Gen.hostOps0_8 (F := Ideal)) W (Proc.devRef .tc main_arg2) = W (Proc.devRef .tc main_arg2) := by
  simp only [Gen.hostOps0_8]
  after_results_simp

/-- The gather's lines leave the taken scores in `main_v11`. -/
theorem stretch3_v11 :
    (StableHlo.after (Gen.hostOps0_9 (F := Ideal)) W (Proc.devRef .tc main_v11) : FVec Ideal S16x2049x1 .f32)
      = takenScore (F := Ideal) (W (Proc.devRef .tc main_v10)) (W (Proc.devRef .tc main_arg2)) := by
  simp only [Gen.hostOps0_9]
  after_results_simp
  simp only [StableHlo.TRef.toBuf, StableHlo.TRef.ofBuf, cast_cast, cast_eq]
  rfl

set_option maxHeartbeats 1000000 in
/-- The remaining lines leave the first 2048 rows less the margin in `main_v14`. -/
theorem stretch4_v14 :
    (StableHlo.after (List.flatten [Gen.hostOps0_10 (F := Ideal), Gen.hostOps0_11, Gen.hostOps0_12, Gen.hostOps0_13]) W (Proc.devRef .tc main_v14) : FVec Ideal S16x2048x1 .f32)
      = lessMargin (F := Ideal) (W (Proc.devRef .tc main_v11)) := by
  simp only [Gen.hostOps0_10, Gen.hostOps0_11, Gen.hostOps0_12, Gen.hostOps0_13, List.flatten_cons, List.flatten_nil, List.append_nil, List.cons_append, List.nil_append]
  after_results_simp
  rfl

end Stretches

section
variable (m : (ℓ : Loc nD τ sig) → Buf (Elt Ideal) ℓ)

/-- Window 1's array as the region finds it: the composed stages of the match array and the scores. -/
theorem V_v14_eq (c : Dev nD) :
    (V m c main_v14 : FVec Ideal S16x2048x1 .f32)
      = lessMargin (F := Ideal) (takenScore (F := Ideal) (padCol (matchCol (m ((c : Thread nD τ).loc main_arg0))))
          (m ((c : Thread nD τ).loc main_arg2))) := by
  have hl : (List.flatten [Gen.hostOps0 (F := Ideal), Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13] : List (HloOp τ sig (Elt Ideal)))
      = List.flatten [Gen.hostOps0, Gen.hostOps0_1, Gen.hostOps0_2, Gen.hostOps0_3, Gen.hostOps0_4, Gen.hostOps0_5, Gen.hostOps0_6, Gen.hostOps0_7]
        ++ (Gen.hostOps0_8 ++ (Gen.hostOps0_9 ++ List.flatten [Gen.hostOps0_10, Gen.hostOps0_11, Gen.hostOps0_12, Gen.hostOps0_13])) := by
    simp only [List.flatten_cons, List.flatten_nil, List.append_nil, List.append_assoc]
  show StableHlo.after (List.flatten [Gen.hostOps0 (F := Ideal), Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13]) (fun b => m (c, b)) (Proc.devRef .tc main_v14) = _
  rw [hl, StableHlo.after_append, StableHlo.after_append, StableHlo.after_append, stretch4_v14, stretch3_v11, stretch2_v10, stretch2_arg2,
    stretch1_v6, stretch1_arg2]

end

/-! ## The stages read at an index -/

/-- The column index word of row `i` of batch `b`, from the match word there. -/
theorem matchCol_apply (g : IVec S16x2048 32) (b : Fin 16) (i : Fin 2048) :
    matchCol g (ix2 b i) = IntOp.minsi 2048#32 (IntOp.maxsi 0#32
      (Scalar.select (IntOp.cmpi .eq (g (ix2 b i)) 4294967295#32) 2048#32 (g (ix2 b i)))) := rfl

/-- A row below 2048 of the padded array is the row of the unpadded one. -/
theorem padCol_apply (q : IVec S16x2048 32) (b : Fin 16) (i : Fin 2048) :
    padCol q (ix3 b i.castSucc (0 : Fin 1)) = q (ix2 b i) := by
  unfold padCol
  refine (broadcastInDim_apply _ bcast_S16x2049_S16x2049x1_0_1 _ (ix3 b i.castSucc (0 : Fin 1)) (ix2 b i.castSucc) (fun a => match a with
    | ⟨0, _⟩ => by show b.val = if (16 : Nat) = 1 then 0 else b.val; rw [if_neg (by decide)]
    | ⟨1, _⟩ => by show i.val = if (2049 : Nat) = 1 then 0 else i.val; rw [if_neg (by decide)])).trans ?_
  exact concatenate_pair_apply_left (1 : Fin S16x2049.rank) q _ concatenates_S16x2048_S16x1_S16x2049_d1 (ix2 b i.castSucc) rfl (ix2 b i)
    (fun a => match a with | ⟨0, _⟩ => rfl | ⟨1, _⟩ => rfl)

/-- The start index at `(b, i, 0, 0)`: the padded index at `(b, i, 0)`, wrapped by 2049 if negative. -/
theorem startIdx_apply (p : IVec S16x2049x1 32) (b : Fin 16) (i : Fin 2049) :
    startIdx p (ix4 b i (0 : Fin 1) (0 : Fin 1))
      = Scalar.select (IntOp.cmpi .slt (p (ix3 b i (0 : Fin 1))) 0#32) (IntOp.addi (p (ix3 b i (0 : Fin 1))) 2049#32)
          (p (ix3 b i (0 : Fin 1))) := by
  unfold startIdx
  refine (shapeCast_apply _ shapeCasts_S16x2049x1_S16x2049x1x1 (ix4 b i (0 : Fin 1) (0 : Fin 1)) (ix3 b i (0 : Fin 1)) ?_).trans rfl
  rw [Shape.rowMajor_val_three, Shape.rowMajor_val_four]
  show (b.val * 2049 + i.val) * 1 + 0 = ((b.val * 2049 + i.val) * 1 + 0) * 1 + 0
  omega

/-- The mask at `(b, i, 0)` is on when the start index there lies in 0‥2048: the AND over the one entry of the
    size-one last axis. -/
theorem inBounds_apply (p : IVec S16x2049x1 32) (b : Fin 16) (i : Fin 2049)
    (hu : (startIdx p (ix4 b i (0 : Fin 1) (0 : Fin 1))).toNat ≤ 2048) :
    inBounds p (ix3 b i (0 : Fin 1)) = 1#1 := by
  unfold inBounds
  refine reduce_andi_one _ _ reducesTo_S16x2049x1x1_S16x2049x1_d3 h_S_ (ix3 b i (0 : Fin 1)) rfl (fun k hk => ?_)
  have e : k = ix4 b i (0 : Fin 1) (0 : Fin 1) := by
    have h0 := Shape.ReducesTo.drop_apply_val_of_eq reducesTo_S16x2049x1x1_S16x2049x1_d3 k (0 : Fin S16x2049x1.rank) (0 : Fin S16x2049x1x1.rank)
    have h1 := Shape.ReducesTo.drop_apply_val_of_eq reducesTo_S16x2049x1x1_S16x2049x1_d3 k (1 : Fin S16x2049x1.rank) (1 : Fin S16x2049x1x1.rank)
    rw [hk] at h0 h1
    funext a
    match a with
    | ⟨0, _⟩ => exact Fin.ext h0.symm
    | ⟨1, _⟩ => exact Fin.ext h1.symm
    | ⟨2, _⟩ => exact Fin.ext (by have h2 : (k 2).val < 1 := (k 2).isLt; show (k 2).val = 0; omega)
    | ⟨3, _⟩ => exact Fin.ext (by have h3 : (k 3).val < 1 := (k 3).isLt; show (k 3).val = 0; omega)
  rw [e]
  exact bounds_of_le _ hu

section
variable {F : FTy → Type} [FloatOps F]

/-- The taken score at `(b, i, 0)`, the start index there a column `col` of the axis: the score at that column of
    row `i`. -/
theorem takenScore_apply (p : IVec S16x2049x1 32) (s : FVec F S16x2049x2049 .f32) (b : Fin 16) (i : Fin 2049) (col : Fin 2049)
    (hcol : (startIdx p (ix4 b i (0 : Fin 1) (0 : Fin 1))).toNat = col.val) :
    takenScore p s (ix3 b i (0 : Fin 1)) = s (ix3 b i col) := by
  have hu : (startIdx p (ix4 b i (0 : Fin 1) (0 : Fin 1))).toNat ≤ 2048 := by have := col.isLt; omega
  unfold takenScore
  rw [select_apply, inBounds_apply p b i hu, select_one,
    Cert.LibTakeAlong.gather_along_axis2 (by decide) _ rfl rfl rfl rfl rfl rfl rfl s (startIdx p) b i]
  exact congrArg s (congrArg (ix3 b i) (Fin.ext ((axisClamp_of_le _ hu).trans hcol)))

end

/-- A row below 2048 of the array less the margin. -/
theorem lessMargin_apply (x : FVec Ideal S16x2049x1 .f32) (b : Fin 16) (i : Fin 2048) :
    lessMargin (F := Ideal) x (ix3 b i (0 : Fin 1)) = x (ix3 b i.castSucc (0 : Fin 1)) - Spec.half := by
  show extractStridedSlice S16x2048x1 ![0, 0, 0] x slices_S16x2049x1_S16x2048x1_0_0_0 (ix3 b i (0 : Fin 1)) - Spec.half = _
  rw [extractStridedSlice_apply ![0, 0, 0] x slices_S16x2049x1_S16x2048x1_0_0_0 (ix3 b i (0 : Fin 1)) (ix3 b i.castSucc (0 : Fin 1)) (fun a => match a with
    | ⟨0, _⟩ => by show b.val = 0 + b.val; omega
    | ⟨1, _⟩ => by show i.val = 0 + i.val; omega
    | ⟨2, _⟩ => by show 0 = 0 + 0; rfl)]

/-! ## The array at a row -/

/-- Row `i` of batch `b` of the composed stages, the match words in range: the score at the row's match, less ½. -/
theorem rowValue (g : IVec S16x2048 32) (s : FVec Ideal S16x2049x2049 .f32) (hr : Spec.InRange g) (b : Fin 16) (i : Fin 2048) :
    lessMargin (F := Ideal) (takenScore (F := Ideal) (padCol (matchCol g)) s) (ix3 b i (0 : Fin 1))
      = Spec.pos0 s g b i - Spec.half := by
  -- the match word of the row, and the column index the host lines make of it
  have hcap := unmatched_toNat (g (ix2 b i)) (hr (ix2 b i))
  have hle : (Scalar.select (IntOp.cmpi .eq (g (ix2 b i)) 4294967295#32) 2048#32 (g (ix2 b i))).toNat ≤ 2048 := by
    rw [hcap]; exact Nat.min_le_right _ _
  have hcol := (matchCol_apply g b i).trans (clamp_of_le _ hle)
  have hpad := (padCol_apply (matchCol g) b i).trans hcol
  have hstart : startIdx (padCol (matchCol g)) (ix4 b i.castSucc (0 : Fin 1) (0 : Fin 1))
      = Scalar.select (IntOp.cmpi .eq (g (ix2 b i)) 4294967295#32) 2048#32 (g (ix2 b i)) := by
    rw [startIdx_apply, hpad]; exact wrap_of_le _ hle
  have hdec : (startIdx (padCol (matchCol g)) (ix4 b i.castSucc (0 : Fin 1) (0 : Fin 1))).toNat = (Spec.dec (g (ix2 b i))).val := by
    rw [hstart]; exact hcap
  rw [lessMargin_apply, takenScore_apply _ s b i.castSucc (Spec.dec (g (ix2 b i))) hdec]
  rfl

end PrefixRow

open PrefixRow

variable (m : (ℓ : Loc nD τ sig) → Buf (Elt Ideal) ℓ)

theorem v14_apply (c : Dev nD)
    (hr : Spec.InRange (m ((c : Thread nD τ).loc main_arg0))) (b : Fin 16) (i : Fin 2048) :
    (V m c main_v14 : FVec Ideal S16x2048x1 .f32) (ix3 b i (0 : Fin 1))
      = Spec.pos0 (m ((c : Thread nD τ).loc main_arg2)) (m ((c : Thread nD τ).loc main_arg0)) b i - Spec.half := by
  rw [V_v14_eq]
  exact rowValue _ _ hr b i

end Cert.KernelIdeal.Hand

end
-- ==== Proof.KernelIdeal.PrefixCol.lean ====
/-
  The per-column matched scores: the gathered array the host lines after the region read, and window 2's array, which is that less the margin ½ on the first 2048 columns.
  Read off the host lines before the region, for match words in range.

  The host lines compute, from the second match array g1 and the scores s:  the index words
  clamp (where (g1 = -1, 2048, g1), 0, 2048), a zero column appended, one row per batch entry; the gather of s along the row
  axis at those indices (an index below zero moved up by 2049, an out-of-bounds read filled with NaN); and from that the array
  where (column = 2048, 10⁶, gathered − ½).  For a match word w that is -1 or at most 2048 the index word is min w 2048 read
  unsigned, it is not negative and in bounds, so the gather reads s (b, min w 2048, j); at a column j < 2048 the compare with
  2048 is false, so window 2's array is the gathered one less ½.
-/
import proofs.«424079_j3393024163970_3_alg».proof.Proof.KernelIdeal.Data
import proofs.«424079_j3393024163970_3_alg».proof.Proof.Spec
import proofs.«424079_j3393024163970_3_alg».proof.Proof.LibTakeAlong
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace PrefixCol

section Terms
variable {F : FTy → Type} [FloatOps F]

/-- The match words with the word -1 replaced by 2048 (the first host lines' `where`). -/
def unmatchedToDustbin (g : IVec S16x2048 32) : IVec S16x2048 32 :=
  select (cmpi .eq g (broadcastInDim S16x2048 ![] bcast_S_S16x2048 (constantI S_ 32 4294967295#32)))
    (broadcastInDim S16x2048 ![] bcast_S_S16x2048 (constantI S_ 32 2048#32)) g

/-- Index words clamped to 0‥2048. -/
def clampIndex (g : IVec S16x2048 32) : IVec S16x2048 32 :=
  minsi (broadcastInDim S16x2048 ![] bcast_S_S16x2048 (constantI S_ 32 2048#32))
    (maxsi (broadcastInDim S16x2048 ![] bcast_S_S16x2048 (constantI S_ 32 0#32)) g)

/-- Index words with a zero column appended, laid out as one row per batch entry. -/
def indexRow (g : IVec S16x2048 32) : IVec S16x1x2049 32 :=
  broadcastInDim S16x1x2049 ![0, 2] bcast_S16x2049_S16x1x2049_0_2
    (concatenate S16x2049 1 [⟨S16x2048, g⟩, ⟨S16x1, broadcastInDim S16x1 ![] bcast_S_S16x1 (constantI S_ 32 0#32)⟩]
      concatenates_S16x2048_S16x1_S16x2049_d1)

/-- The start indices of the gather: a negative index moved up by the axis extent 2049, then one trailing unit axis added. -/
def startIndex (u : IVec S16x1x2049 32) : IVec S16x1x2049x1 32 :=
  shapeCast S16x1x2049x1
    (select (cmpi .slt u (broadcastInDim S16x1x2049 ![] bcast_S_S16x1x2049 (constantI S_ 32 0#32)))
      (addi u (broadcastInDim S16x1x2049 ![] bcast_S_S16x1x2049 (constantI S_ 32 2049#32))) u)
    shapeCasts_S16x1x2049_S16x1x2049x1

/-- The in-bounds mask of the start indices: 0 ≤ index ≤ 2048, conjoined over the trailing unit axis. -/
def inBounds (v : IVec S16x1x2049x1 32) : IVec S16x1x2049 1 :=
  Host.reduce IntOp.andi
    (andi (cmpi .sge v (broadcastInDim S16x1x2049x1 ![] bcast_S_S16x1x2049x1 (constantI S_ 32 0#32)))
      (cmpi .sle v (broadcastInDim S16x1x2049x1 ![0, 1, 2, 3] bcast_S1x1x1x1_S16x1x2049x1_0_1_2_3
        (broadcastInDim S1x1x1x1 ![3] bcast_S1_S1x1x1x1_3 (constantI S1 32 2048#32)))))
    (constantI S_ 1 1#1) reducesTo_S16x1x2049x1_S16x1x2049_d3 h_S_

/-- The scores gathered along the row axis at the start indices, an out-of-bounds read filled with the NaN word. -/
def takeRows (s : FVec F S16x2049x2049 .f32) (u : IVec S16x1x2049 32) : FVec F S16x1x2049 .f32 :=
  select (inBounds (startIndex u))
    (Host.gather gather_S16x2049x2049_S16x1x2049x1_S16x1x2049_n_1_02_02_1_3_111 s (startIndex u))
    (broadcastInDim S16x1x2049 ![] bcast_S_S16x1x2049 (constant S_ .f32 0x7FC00000#32))

/-- Window 2's array from the gathered one: the margin ½ taken off, the dustbin column 2048 set to the sentinel 10⁶. -/
def lessMargin (x : FVec F S16x1x2049 .f32) : FVec F S16x1x2049 .f32 :=
  select
    (broadcastInDim S16x1x2049 ![0, 1, 2] bcast_S1x1x2049_S16x1x2049_0_1_2
      (cmpi .eq (broadcastInDim S1x1x2049 ![2] bcast_S2049_S1x1x2049_2 (iotaInDim S2049 32 0))
        (broadcastInDim S1x1x2049 ![] bcast_S_S1x1x2049 (constantI S_ 32 2048#32))))
    (broadcastInDim S16x1x2049 ![] bcast_S_S16x1x2049 (constant S_ .f32 0x49742400#32))
    (subf x (broadcastInDim S16x1x2049 ![] bcast_S_S16x1x2049 (constant S_ .f32 0x3F000000#32)))

/-! ## The host lines before the region, one stretch at a time -/

/-- A list of stretches of host lines runs stretch by stretch. -/
theorem after_flatten_cons (l : List (HloOp τ sig (Elt F))) (ls : List (List (HloOp τ sig (Elt F)))) (W : Valuation τ sig (Elt F)) :
    StableHlo.after (List.flatten (l :: ls)) W = StableHlo.after (List.flatten ls) (StableHlo.after l W) := by
  rw [List.flatten_cons, StableHlo.after_append]

/-- The first `where` of the column branch: `main_v5` from the second match array. -/
theorem stage_v5 (W : Valuation τ sig (Elt F)) :
    StableHlo.after hostOps0_3 (StableHlo.after hostOps0_2 W) (Proc.devRef .tc main_v5)
      = unmatchedToDustbin (W (Proc.devRef .tc main_arg1)) := by
  simp only [hostOps0_2, hostOps0_3]
  after_results
  rfl

/-- The column branch's clamp: `main_v7` from `main_v5`. -/
theorem stage_v7 (W : Valuation τ sig (Elt F)) :
    StableHlo.after hostOps0_7 (StableHlo.after hostOps0_6 W) (Proc.devRef .tc main_v7)
      = clampIndex (W (Proc.devRef .tc main_v5)) := by
  simp only [hostOps0_6, hostOps0_7]
  after_results
  rfl

/-- The zero column appended and the row layout: `main_v17` from `main_v7`. -/
theorem stage_v17 (W : Valuation τ sig (Elt F)) :
    StableHlo.after hostOps0_10 W (Proc.devRef .tc main_v17) = indexRow (W (Proc.devRef .tc main_v7)) := by
  simp only [hostOps0_10]
  after_results
  rfl

set_option maxHeartbeats 2000000 in
/-- The gather along the row axis: `main_v18` from the scores and `main_v17`. -/
theorem stage_v18 (W : Valuation τ sig (Elt F)) :
    StableHlo.after hostOps0_11 W (Proc.devRef .tc main_v18)
      = takeRows (W (Proc.devRef .tc main_arg2)) (W (Proc.devRef .tc main_v17)) := by
  simp only [hostOps0_11]
  after_results_simp
  simp only [StableHlo.TRef.ofBuf, StableHlo.TRef.toBuf, cast_eq, id]
  rfl

/-- The margin and the sentinel: `main_v25` from `main_v18`. -/
theorem stage_v25 (W : Valuation τ sig (Elt F)) :
    StableHlo.after hostOps0_13 (StableHlo.after hostOps0_12 W) (Proc.devRef .tc main_v25)
      = lessMargin (W (Proc.devRef .tc main_v18)) := by
  simp only [hostOps0_12, hostOps0_13]
  after_results
  rfl

/-! The stretches that leave a buffer as it was. -/

theorem keep_arg1 (W : Valuation τ sig (Elt F)) :
    StableHlo.after hostOps0_1 (StableHlo.after hostOps0 W) (Proc.devRef .tc main_arg1) = W (Proc.devRef .tc main_arg1) := by
  simp only [hostOps0, hostOps0_1]
  after_results

theorem keep_v5 (W : Valuation τ sig (Elt F)) :
    StableHlo.after hostOps0_5 (StableHlo.after hostOps0_4 W) (Proc.devRef .tc main_v5) = W (Proc.devRef .tc main_v5) := by
  simp only [hostOps0_4, hostOps0_5]
  after_results

theorem keep_v7 (W : Valuation τ sig (Elt F)) :
    StableHlo.after hostOps0_9 (StableHlo.after hostOps0_8 W) (Proc.devRef .tc main_v7) = W (Proc.devRef .tc main_v7) := by
  simp only [hostOps0_8, hostOps0_9]
  after_results

theorem keep_v18 (W : Valuation τ sig (Elt F)) :
    StableHlo.after hostOps0_13 (StableHlo.after hostOps0_12 W) (Proc.devRef .tc main_v18) = W (Proc.devRef .tc main_v18) := by
  simp only [hostOps0_12, hostOps0_13]
  after_results

theorem keep_arg2 (W : Valuation τ sig (Elt F)) :
    StableHlo.after hostOps0_13 (StableHlo.after hostOps0_12 (StableHlo.after hostOps0_11 W)) (Proc.devRef .tc main_arg2)
      = W (Proc.devRef .tc main_arg2) := by
  simp only [hostOps0_11, hostOps0_12, hostOps0_13]
  after_results

variable (m : (ℓ : Loc nD τ sig) → Buf (Elt F) ℓ)

/-- The buffers when the region is entered, stretch by stretch. -/
theorem V0_eq (c : Dev nD) :
    V0 m c = StableHlo.after hostOps0_13 (StableHlo.after hostOps0_12 (StableHlo.after hostOps0_11 (StableHlo.after hostOps0_10
      (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2
      (StableHlo.after hostOps0_1 (StableHlo.after hostOps0 (fun b => m (c, b))))))))))))))) := by
  unfold Gen.V0
  rw [after_flatten_cons, after_flatten_cons, after_flatten_cons, after_flatten_cons, after_flatten_cons, after_flatten_cons,
    after_flatten_cons, after_flatten_cons, after_flatten_cons, after_flatten_cons, after_flatten_cons, after_flatten_cons,
    after_flatten_cons, after_flatten_cons]
  rfl

/-- The gathered array as the region finds it, of the two argument arrays. -/
theorem V_v18 (c : Dev nD) :
    (V m c main_v18 : FVec F S16x1x2049 .f32)
      = takeRows (m ((c : Thread nD τ).loc main_arg2))
          (indexRow (clampIndex (unmatchedToDustbin (m ((c : Thread nD τ).loc main_arg1))))) := by
  show V0 m c (Proc.devRef .tc main_v18) = _
  rw [V0_eq, keep_v18, stage_v18, stage_v17, keep_v7, stage_v7, keep_v5, stage_v5, keep_arg1]
  have h2 := V_main_arg2 m c
  rw [show V m c main_arg2 = V0 m c (Proc.devRef .tc main_arg2) from rfl, V0_eq, keep_arg2] at h2
  rw [h2]

/-- Window 2's array as the region finds it, of the gathered one. -/
theorem V_v25 (c : Dev nD) :
    (V m c main_v25 : FVec F S16x1x2049 .f32) = lessMargin (V m c main_v18 : FVec F S16x1x2049 .f32) := by
  show V0 m c (Proc.devRef .tc main_v25) = lessMargin (V0 m c (Proc.devRef .tc main_v18))
  rw [V0_eq, stage_v25, keep_v18]

end Terms

/-! ## The word arithmetic, once, on one 32-bit word -/

section Words

/-- One match word through the first host lines: -1 replaced by 2048, then clamped to 0‥2048. -/
def wordIndex (w : BitVec 32) : BitVec 32 :=
  IntOp.minsi 2048#32 (IntOp.maxsi 0#32 (Scalar.select (IntOp.cmpi .eq w 4294967295#32) 2048#32 w))

/-- One index word through the gather's normalisation: a negative one moved up by 2049. -/
def wordWrap (x : BitVec 32) : BitVec 32 :=
  Scalar.select (IntOp.cmpi .slt x 0#32) (IntOp.addi x 2049#32) x

/-- The in-bounds bit of one start index. -/
def wordInBounds (x : BitVec 32) : BitVec 1 :=
  IntOp.andi (IntOp.cmpi .sge x 0#32) (IntOp.cmpi .sle x 2048#32)

/-- A word of value at most 2048 reads the same signed. -/
theorem toInt_of_le (x : BitVec 32) (hx : x.toNat ≤ 2048) : x.toInt = (x.toNat : Int) :=
  StableHlo.Predicate.toInt_eq_toNat_of_lt (by omega)

/-- The clamp to 0‥2048 leaves a word of value at most 2048 as it is. -/
theorem clamp_of_le (x : BitVec 32) (hx : x.toNat ≤ 2048) : IntOp.minsi 2048#32 (IntOp.maxsi 0#32 x) = x := by
  have hi := toInt_of_le x hx
  have h0 : (0#32 : BitVec 32).toInt = 0 := by decide
  have h2 : (2048#32 : BitVec 32).toInt = 2048 := by decide
  have hmax : IntOp.maxsi 0#32 x = x := by
    unfold IntOp.maxsi
    rw [if_neg]
    simp only [BitVec.slt, hi, h0, decide_eq_true_eq]; omega
  rw [hmax]
  unfold IntOp.minsi
  rw [if_neg]
  simp only [BitVec.slt, hi, h2, decide_eq_true_eq]; omega

/-- A match word in range becomes the index the specification decodes it to. -/
theorem wordIndex_toNat (w : BitVec 32) (hr : w = 4294967295#32 ∨ w.toNat ≤ 2048) :
    (wordIndex w).toNat = (Spec.dec w).val := by
  unfold wordIndex
  by_cases hw : w = 4294967295#32
  · subst hw; decide
  · have hle : w.toNat ≤ 2048 := hr.resolve_left hw
    have hc : IntOp.cmpi .eq w 4294967295#32 = 0#1 :=
      eq_zero_of_ne_one (fun h => hw (StableHlo.Predicate.cmpi_eq_iff.mp h))
    rw [hc, select_zero, clamp_of_le w hle]
    show w.toNat = min w.toNat 2048
    omega

theorem wordIndex_le (w : BitVec 32) (hr : w = 4294967295#32 ∨ w.toNat ≤ 2048) : (wordIndex w).toNat ≤ 2048 := by
  rw [wordIndex_toNat w hr]; exact Nat.le_of_lt_succ (Spec.dec w).isLt

/-- A word of value at most 2048 is not negative: the gather's normalisation leaves it. -/
theorem wordWrap_of_le (x : BitVec 32) (hx : x.toNat ≤ 2048) : wordWrap x = x := by
  unfold wordWrap
  have hc : IntOp.cmpi .slt x 0#32 = 0#1 :=
    eq_zero_of_ne_one (fun h => by
      have := (StableHlo.Predicate.slt_iff_toNat (a := x) (b := 0#32) (by omega) (by decide)).mp h
      simp at this)
  rw [hc, select_zero]

/-- … and it is in bounds. -/
theorem wordInBounds_of_le (x : BitVec 32) (hx : x.toNat ≤ 2048) : wordInBounds x = 1#1 := by
  unfold wordInBounds
  have h1 : IntOp.cmpi .sge x 0#32 = 1#1 :=
    (StableHlo.Predicate.sge_iff_toNat (a := x) (b := 0#32) (by omega) (by decide)).mpr (by simp)
  have h2 : IntOp.cmpi .sle x 2048#32 = 1#1 :=
    (StableHlo.Predicate.sle_iff_toNat (a := x) (b := 2048#32) (by omega) (by decide)).mpr (by simpa using hx)
  rw [h1, h2]; decide

/-- … and the gather's clamped read of it is its value. -/
theorem clampRead_of_le (x : BitVec 32) (hx : x.toNat ≤ 2048) : min x.toInt.toNat (2049 - 1) = x.toNat := by
  rw [toInt_of_le x hx, Int.toNat_natCast]; omega

end Words

/-! ## The terms read at an index, one operation at a time -/

section Reads

/-- A conjunction over an axis, from the bit 1, of bits that are all 1 is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  generalize hl : (((List.finRange s.numel).map s.rowMajor.symm).filter fun i => h.drop i = j) = l
  have hmem : ∀ i ∈ l, x i = 1#1 := fun i hi => by
    rw [← hl, List.mem_filter] at hi
    exact hx i (of_decide_eq_true hi.2)
  clear hl
  induction l with
  | nil => rfl
  | cons a l ih =>
    rw [List.foldl_cons, hmem a List.mem_cons_self, show IntOp.andi 1#1 1#1 = 1#1 from by decide]
    exact ih fun i hi => hmem i (List.mem_cons_of_mem _ hi)

/-- The index row at a column below 2048 is the index array there: the appended zero column is not read. -/
theorem indexRow_apply (g : IVec S16x2048 32) (b : Fin 16) (j : Fin 2048) :
    indexRow g (ix3 b (0 : Fin 1) j.castSucc) = g (ix2 b j) := by
  unfold indexRow
  refine (broadcastInDim_apply _ bcast_S16x2049_S16x1x2049_0_2 _ (ix3 b (0 : Fin 1) j.castSucc) (ix2 b j.castSucc) (fun a => match a with
    | ⟨0, _⟩ => by show b.val = if (16 : Nat) = 1 then 0 else b.val; rw [if_neg (by decide)]
    | ⟨1, _⟩ => by show j.val = if (2049 : Nat) = 1 then 0 else j.val; rw [if_neg (by decide)])).trans ?_
  exact concatenate_pair_apply_left _ g _ concatenates_S16x2048_S16x1_S16x2049_d1 (ix2 b j.castSucc) rfl (ix2 b j) (fun a => match a with
    | ⟨0, _⟩ => rfl
    | ⟨1, _⟩ => rfl)

/-- The two pointwise stretches at an index: the word there through `wordIndex`. -/
theorem clampIndex_apply (g : IVec S16x2048 32) (b : Fin 16) (j : Fin 2048) :
    clampIndex (unmatchedToDustbin g) (ix2 b j) = wordIndex (g (ix2 b j)) := rfl

/-- The start index at (b, 0, c, 0) is the index word at (b, 0, c), normalised. -/
theorem startIndex_apply (u : IVec S16x1x2049 32) (b : Fin 16) (c : Fin 2049) :
    startIndex u (ix4 b (0 : Fin 1) c (0 : Fin 1)) = wordWrap (u (ix3 b (0 : Fin 1) c)) := by
  unfold startIndex
  refine (shapeCast_apply _ shapeCasts_S16x1x2049_S16x1x2049x1 (ix4 b (0 : Fin 1) c (0 : Fin 1)) (ix3 b (0 : Fin 1) c) ?_).trans rfl
  rw [Shape.rowMajor_val_three, Shape.rowMajor_val_four]
  show (b.val * 1 + 0) * 2049 + c.val = ((b.val * 1 + 0) * 2049 + c.val) * 1 + 0
  omega

/-- The in-bounds mask at (b, 0, c) is 1 when the one start index under it is in bounds. -/
theorem inBounds_apply (v : IVec S16x1x2049x1 32) (b : Fin 16) (c : Fin 2049)
    (hv : wordInBounds (v (ix4 b (0 : Fin 1) c (0 : Fin 1))) = 1#1) :
    inBounds v (ix3 b (0 : Fin 1) c) = 1#1 := by
  unfold inBounds
  refine reduce_andi_one _ _ _ _ _ rfl (fun i hi => ?_)
  have h0 : (i 0).val = b.val :=
    (reducesTo_S16x1x2049x1_S16x1x2049_d3.drop_apply_val_of_eq i 0 0).symm.trans (congrArg (fun y : S16x1x2049.Idx => (y 0).val) hi)
  have h2 : (i 2).val = c.val :=
    (reducesTo_S16x1x2049x1_S16x1x2049_d3.drop_apply_val_of_eq i 2 2).symm.trans (congrArg (fun y : S16x1x2049.Idx => (y 2).val) hi)
  have e : i = ix4 b (0 : Fin 1) c (0 : Fin 1) := by
    funext a
    match a with
    | ⟨0, _⟩ => exact Fin.ext h0
    | ⟨1, h⟩ => exact Fin.ext (by have h1 : (i ⟨1, h⟩).val < 1 := (i ⟨1, h⟩).isLt; show (i ⟨1, h⟩).val = 0; omega)
    | ⟨2, _⟩ => exact Fin.ext h2
    | ⟨3, h⟩ => exact Fin.ext (by have h1 : (i ⟨3, h⟩).val < 1 := (i ⟨3, h⟩).isLt; show (i ⟨3, h⟩).val = 0; omega)
  rw [e]
  exact hv

variable {F : FTy → Type} [FloatOps F]

/-- The gathered scores at (b, 0, c), for an index word there of value at most 2048: the score at that row. -/
theorem takeRows_apply (s : FVec F S16x2049x2049 .f32) (u : IVec S16x1x2049 32) (b : Fin 16) (c : Fin 2049)
    (hu : (u (ix3 b (0 : Fin 1) c)).toNat ≤ 2048) :
    takeRows s u (ix3 b (0 : Fin 1) c) = s (ix3 b ⟨(u (ix3 b (0 : Fin 1) c)).toNat, by omega⟩ c) := by
  have hs : startIndex u (ix4 b (0 : Fin 1) c (0 : Fin 1)) = u (ix3 b (0 : Fin 1) c) :=
    (startIndex_apply u b c).trans (wordWrap_of_le _ hu)
  unfold takeRows
  rw [select_apply, inBounds_apply (startIndex u) b c (by rw [hs]; exact wordInBounds_of_le _ hu), select_one]
  refine (Cert.LibTakeAlong.gather_along_axis1 (by decide) _ rfl rfl rfl rfl rfl rfl rfl s (startIndex u) b c).trans ?_
  refine congrArg s (congrArg (fun r : Fin 2049 => ix3 b r c) (Fin.ext ?_))
  show min (startIndex u (ix4 b (0 : Fin 1) c (0 : Fin 1))).toInt.toNat (2049 - 1) = (u (ix3 b (0 : Fin 1) c)).toNat
  rw [hs]
  exact clampRead_of_le _ hu

/-- The gathered array of the two argument arrays at a column below 2048, for match words in range: the specification's
    matched score. -/
theorem matched_apply (g : IVec S16x2048 32) (s : FVec Ideal S16x2049x2049 .f32) (hr : Spec.InRange g) (b : Fin 16) (j : Fin 2048) :
    takeRows s (indexRow (clampIndex (unmatchedToDustbin g))) (ix3 b (0 : Fin 1) j.castSucc) = Spec.pos1 s g b j := by
  have hidx : indexRow (clampIndex (unmatchedToDustbin g)) (ix3 b (0 : Fin 1) j.castSucc) = wordIndex (g (ix2 b j)) :=
    (indexRow_apply _ b j).trans (clampIndex_apply g b j)
  have hle : (indexRow (clampIndex (unmatchedToDustbin g)) (ix3 b (0 : Fin 1) j.castSucc)).toNat ≤ 2048 := by
    rw [hidx]; exact wordIndex_le _ (hr (ix2 b j))
  rw [takeRows_apply s _ b j.castSucc hle]
  unfold Spec.pos1
  refine congrArg s (congrArg (fun r : Fin 2049 => ix3 b r j.castSucc) (Fin.ext ?_))
  show (indexRow (clampIndex (unmatchedToDustbin g)) (ix3 b (0 : Fin 1) j.castSucc)).toNat = (Spec.dec (g (ix2 b j))).val
  rw [hidx]
  exact wordIndex_toNat _ (hr (ix2 b j))

/-- Window 2's array at a column below 2048: the compare with 2048 is 0 there, so the margin is taken off. -/
theorem lessMargin_apply (x : FVec Ideal S16x1x2049 .f32) (b : Fin 16) (j : Fin 2048) :
    lessMargin x (ix3 b (0 : Fin 1) j.castSucc) = x (ix3 b (0 : Fin 1) j.castSucc) - Spec.half := by
  have hbit : IntOp.cmpi .eq (BitVec.ofNat 32 j.val) 2048#32 = 0#1 :=
    eq_zero_of_ne_one (fun h => by
      have e := congrArg BitVec.toNat (StableHlo.Predicate.cmpi_eq_iff.mp h)
      rw [BitVec.toNat_ofNat, Nat.mod_eq_of_lt (by have := j.isLt; omega)] at e
      have := j.isLt
      simp at e
      omega)
  show Scalar.select (IntOp.cmpi .eq (BitVec.ofNat 32 j.val) 2048#32) _ _ = _
  rw [hbit, select_zero]
  rfl

end Reads

end PrefixCol

open PrefixCol

variable (m : (ℓ : Loc nD τ sig) → Buf (Elt Ideal) ℓ)

theorem v18_apply (c : Dev nD)
    (hr : Spec.InRange (m ((c : Thread nD τ).loc main_arg1))) (b : Fin 16) (j : Fin 2048) :
    (V m c main_v18 : FVec Ideal S16x1x2049 .f32) (ix3 b (0 : Fin 1) j.castSucc)
      = Spec.pos1 (m ((c : Thread nD τ).loc main_arg2)) (m ((c : Thread nD τ).loc main_arg1)) b j := by
  rw [PrefixCol.V_v18]
  exact matched_apply _ _ hr b j

theorem v25_apply (c : Dev nD) (b : Fin 16) (j : Fin 2048) :
    (V m c main_v25 : FVec Ideal S16x1x2049 .f32) (ix3 b (0 : Fin 1) j.castSucc)
      = (fun x : EReal => x - Spec.half) ((V m c main_v18 : FVec Ideal S16x1x2049 .f32) (ix3 b (0 : Fin 1) j.castSucc)) := by
  rw [PrefixCol.V_v25]
  exact lessMargin_apply _ b j

end Cert.KernelIdeal.Hand

end
-- ==== Proof.SpecLaws.lean ====
/-
  The loss in the arrangement the kernel computes it in, equal to `G` when every score is a real number.

  The kernel subtracts the matched score with the margin ½ already folded in, `s − (p − ½)`, where the loss has
  `s − p + ½`: equal on the reals. It sums a column's hinge terms over the first 2048 rows in the pipeline and adds the
  dustbin row's term afterwards; and its host-side sums start from the zero word.
-/
import proofs.«424079_j3393024163970_3_alg».proof.Proof.Spec
import Mathlib.Data.EReal.Operations
import Mathlib.Algebra.BigOperators.Fin
import Mathlib.Tactic.Ring
import Mathlib.Tactic.NormNum

noncomputable section

namespace Cert.Spec

open Idealize.ShloMosaic Idealize.ShloMosaic.ValueIdx

/-- The kernel's row term: the hinge sum with the margin folded into the matched score. -/
def rowSumK (s : SS.Idx → EReal) (g0 : SG.Idx → BitVec 32) (b : Fin 16) (i : Fin 2048) : EReal :=
  ∑ j : Fin 2049, max (s (ix3 b i.castSucc j) - (pos0 s g0 b i - half)) zero

/-- The kernel's column term over the first 2048 rows (what the pipeline leaves), -/
def colPartK (s : SS.Idx → EReal) (g1 : SG.Idx → BitVec 32) (b : Fin 16) (j : Fin 2048) : EReal :=
  ∑ i : Fin 2048, max (s (ix3 b i.castSucc j.castSucc) - (pos1 s g1 b j - half)) zero

/-- and the dustbin row's term the host lines add. -/
def colLastK (s : SS.Idx → EReal) (g1 : SG.Idx → BitVec 32) (b : Fin 16) (j : Fin 2048) : EReal :=
  max (s (ix3 b (Fin.last 2048) j.castSucc) - pos1 s g1 b j + half) zero

/-- The result in the kernel's arrangement. -/
def GK (s : SS.Idx → EReal) (g0 g1 : SG.Idx → BitVec 32) : SR.Idx → EReal := fun y =>
  Ideal.div (Ideal.div (∑ i : Fin 2048, two * Ideal.log (rowSumK s g0 (y 0) i - half + one)) n2048
    + Ideal.div (zero + ∑ j : Fin 2048, two * Ideal.log (colPartK s g1 (y 0) j + colLastK s g1 (y 0) j - half + one)) n2048) two

/-- The zero word denotes the extended real `0`. -/
theorem zero_eq : zero = 0 := by
  simp [Ideal.ofBits, Ideal.ieee]

/-- The margin word denotes the real `½`. -/
theorem half_eq : half = ((1 / 2 : ℝ) : EReal) := by
  simp [Ideal.ofBits, Ideal.ieee, -EReal.coe_mul]; norm_num

/-- On the reals, subtracting the matched score with the margin folded in is subtracting it and adding the margin:
    `a − (p − ½) = a − p + ½`. -/
theorem sub_sub_half_eq (a p : ℝ) : (a : EReal) - ((p : EReal) - half) = (a : EReal) - (p : EReal) + half := by
  rw [half_eq, ← EReal.coe_sub, ← EReal.coe_sub, ← EReal.coe_sub, ← EReal.coe_add]
  congr 1; ring

/-- The same law at two real-valued entries of the score array. -/
theorem hinge_arg_eq (s : SS.Idx → EReal) (hs : Finite s) (u v : SS.Idx) :
    s u - (s v - half) = s u - s v + half := by
  obtain ⟨a, ha⟩ := hs u
  obtain ⟨p, hp⟩ := hs v
  rw [ha, hp, sub_sub_half_eq]

/-- The kernel's row term is the row's hinge sum, term by term. -/
theorem rowSumK_eq (s : SS.Idx → EReal) (g0 : SG.Idx → BitVec 32) (hs : Finite s) (b : Fin 16) (i : Fin 2048) :
    rowSumK s g0 b i = rowSum s g0 b i := by
  unfold rowSumK rowSum pos0
  exact Finset.sum_congr rfl fun j _ => by rw [hinge_arg_eq s hs]

/-- The kernel's column term, the first 2048 rows and then the dustbin row, is the column's hinge sum: the sum over
    2049 rows splits off its last row. -/
theorem colK_eq (s : SS.Idx → EReal) (g1 : SG.Idx → BitVec 32) (hs : Finite s) (b : Fin 16) (j : Fin 2048) :
    colPartK s g1 b j + colLastK s g1 b j = colSum s g1 b j := by
  unfold colPartK colLastK colSum pos1
  conv_rhs => rw [Fin.sum_univ_castSucc]
  congr 1
  exact Finset.sum_congr rfl fun i _ => by rw [hinge_arg_eq s hs]

theorem GK_eq_G (s : SS.Idx → EReal) (g0 g1 : SG.Idx → BitVec 32) (hs : Finite s) : GK s g0 g1 = G s g0 g1 := by
  funext y
  have hrow : ∀ i : Fin 2048, rowSumK s g0 (y 0) i = rowSum s g0 (y 0) i := fun i => rowSumK_eq s g0 hs (y 0) i
  have hcol : ∀ j : Fin 2048, colPartK s g1 (y 0) j + colLastK s g1 (y 0) j = colSum s g1 (y 0) j :=
    fun j => colK_eq s g1 hs (y 0) j
  unfold GK G lossOf
  rw [zero_eq, zero_add]
  simp only [hrow, hcol]

end Cert.Spec

end
-- ==== Proof.KernelIdeal.KValue.lean ====
/-
  The kernel program's result on the extended reals is the loss `G` of its three arguments.

  The host lines after the region combine the two result arrays of the pipeline with the dustbin row's term; entry
  `b` of the first array is the batch's mean row loss computed from the score slab and the per-row matched scores,
  row `b` of the second the per-column hinge sums over the first 2048 rows. With the blocks read back as the
  argument arrays this is the loss in the kernel's arrangement, which equals `G` on real scores.
-/
import proofs.«424079_j3393024163970_3_alg».proof.Proof.KernelIdeal.Final
import proofs.«424079_j3393024163970_3_alg».proof.Proof.KernelIdeal.Payload
import proofs.«424079_j3393024163970_3_alg».proof.Proof.KernelIdeal.Tail
import proofs.«424079_j3393024163970_3_alg».proof.Proof.KernelIdeal.PrefixRow
import proofs.«424079_j3393024163970_3_alg».proof.Proof.KernelIdeal.PrefixCol
import proofs.«424079_j3393024163970_3_alg».proof.Proof.SpecLaws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Entry `b` of the mean-row-loss array. -/
theorem A3_apply (c : Dev nD) (hr0 : Spec.InRange (m ((c : Thread nD τ).loc main_arg0))) (b : Fin 16) :
    A3 m c (ix3 b (0 : Fin 1) (0 : Fin 1))
      = Ideal.div (∑ i : Fin 2048, Spec.two * Ideal.log
          (Spec.rowSumK (m ((c : Thread nD τ).loc main_arg2)) (m ((c : Thread nD τ).loc main_arg0)) b i - Spec.half + Spec.one))
          Spec.n2048 := by
  show out3 (blk0 m c (pt b)) (iblk m c 1 (pt b)) (ix3 (0 : Fin 1) (0 : Fin 1) (0 : Fin 1)) = _
  rw [out3_apply]
  refine congrArg (fun x => Ideal.div x Spec.n2048) (Finset.sum_congr rfl fun i _ => ?_)
  refine congrArg (fun x => Spec.two * Ideal.log (x - Spec.half + Spec.one)) ?_
  unfold Spec.rowSumK
  refine Finset.sum_congr rfl fun j _ => ?_
  rw [blk0_apply m c b i j, iblk1_apply m c b i, v14_apply m c hr0 b i, V_main_arg2 m c]

/-- Column `j` of row `b` of the column-partial-sum array. -/
theorem A4_apply (c : Dev nD) (hr1 : Spec.InRange (m ((c : Thread nD τ).loc main_arg1))) (b : Fin 16) (j : Fin 2048) :
    A4 m c (ix3 b (0 : Fin 1) j.castSucc)
      = Spec.colPartK (m ((c : Thread nD τ).loc main_arg2)) (m ((c : Thread nD τ).loc main_arg1)) b j := by
  show out4 (blk0 m c (pt b)) (iblk m c 2 (pt b)) (ix3 (0 : Fin 1) (0 : Fin 1) j.castSucc) = _
  rw [out4_apply]
  unfold Spec.colPartK
  refine Finset.sum_congr rfl fun i _ => ?_
  rw [blk0_apply m c b i j.castSucc, iblk2_apply m c b j.castSucc, v25_apply m c b j, v18_apply m c hr1 b j, V_main_arg2 m c]

/-- The kernel program's result. -/
theorem kernel_value (c : Dev nD)
    (hr0 : Spec.InRange (m ((c : Thread nD τ).loc main_arg0))) (hr1 : Spec.InRange (m ((c : Thread nD τ).loc main_arg1)))
    (hs : Spec.Finite (m ((c : Thread nD τ).loc main_arg2))) :
    Pipeline.afterTail₀ cfgs (dats m) 0 (V0 m) [hostOps1] c main_v52
      = Spec.G (m ((c : Thread nD τ).loc main_arg2)) (m ((c : Thread nD τ).loc main_arg0)) (m ((c : Thread nD τ).loc main_arg1)) := by
  refine (tail_eq m c).trans ?_
  rw [final3 m c, final4 m c]
  refine Eq.trans ?_ (Spec.GK_eq_G _ _ _ hs)
  funext y
  refine (tailFn_apply _ _ _ _ y).trans ?_
  unfold Spec.GK
  rw [A3_apply m c hr0 (y 0)]
  refine congrArg (fun x => Ideal.div (Ideal.div (∑ i : Fin 2048, Spec.two * Ideal.log
      (Spec.rowSumK (m ((c : Thread nD τ).loc main_arg2)) (m ((c : Thread nD τ).loc main_arg0)) (y 0) i - Spec.half + Spec.one)) Spec.n2048
        + Ideal.div (Spec.zero + x) Spec.n2048) Spec.two) (Finset.sum_congr rfl fun j _ => ?_)
  rw [A4_apply m c hr1 (y 0) j]
  unfold Spec.colLastK
  rw [V_main_arg2 m c, v18_apply m c hr1 (y 0) j]

end Cert.KernelIdeal.Hand

end
-- ==== Proof.RefRow.lean ====
/-
  The reference program's mean row loss of a batch entry on the extended reals, for match words in range.
-/
import proofs.«424079_j3393024163970_3_alg».proof.Proof.RefReadP
import proofs.«424079_j3393024163970_3_alg».proof.Proof.SpecLaws
import proofs.«424079_j3393024163970_3_alg».proof.Proof.LibTakeAlong
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.ReduceAll
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

open Idealize.ShloMosaic.StableHlo.Predicate

/-! ## The index word of a match word -/

/-- `where(w == -1, 2048, w)`: the dustbin index for the "unmatched" word, else the word. -/
def whereWord (w : BitVec 32) : BitVec 32 := Scalar.select (IntOp.cmpi .eq w 4294967295#32) 2048#32 w

/-- The wrap of a negative index by the axis extent 2049 (never taken for an index that is not negative). -/
def wrapWord (v : BitVec 32) : BitVec 32 := Scalar.select (IntOp.cmpi .slt v 0#32) (IntOp.addi v 2049#32) v

/-- A select on a bit that is not 1 is its second operand. -/
theorem select_of_not {α : Type} {c : BitVec 1} (h : ¬ c = 1#1) (a b : α) : Scalar.select c a b = b := if_neg h

/-- For a match word in range the index word is the match index as a natural number: 2048 for "unmatched", else
    the word's value, at most 2048. -/
theorem wrapWord_whereWord_toNat (w : BitVec 32) (hr : w = 4294967295#32 ∨ w.toNat ≤ 2048) :
    (wrapWord (whereWord w)).toNat = (Spec.dec w).val := by
  rcases hr with rfl | h
  · decide
  · have hne : ¬ w = 4294967295#32 := fun e => by rw [e] at h; exact absurd h (by decide)
    have h1 : ¬ IntOp.cmpi .eq w 4294967295#32 = 1#1 := fun e => hne (cmpi_eq_iff.mp e)
    have h2 : ¬ IntOp.cmpi .slt w 0#32 = 1#1 := fun e => by
      have := (slt_iff_toNat (a := w) (b := 0#32) (by omega) (by decide)).mp e
      exact absurd this (by show ¬ w.toNat < 0; omega)
    have ew : whereWord w = w := select_of_not h1 _ _
    have e : wrapWord (whereWord w) = w := by rw [ew]; exact select_of_not h2 _ _
    rw [e]
    show w.toNat = min w.toNat 2048
    omega

theorem dec_le (w : BitVec 32) : (Spec.dec w).val ≤ 2048 := by
  show min w.toNat 2048 ≤ 2048
  omega

/-- So it passes the bounds test `0 ≤ · ≤ 2048`, -/
theorem inBounds (w : BitVec 32) (hr : w = 4294967295#32 ∨ w.toNat ≤ 2048) :
    IntOp.andi (IntOp.cmpi .sge (wrapWord (whereWord w)) 0#32) (IntOp.cmpi .sle (wrapWord (whereWord w)) 2048#32) = 1#1 := by
  have hn := wrapWord_whereWord_toNat w hr
  have hl := dec_le w
  rw [IntOp.andi_eq_one]
  refine ⟨(sge_iff_toNat (by omega) (by decide)).mpr (by show (0 : Nat) ≤ _; omega),
    (sle_iff_toNat (by omega) (by decide)).mpr (by show _ ≤ (2048 : Nat); omega)⟩

/-- and, read signed and clamped into an axis of extent 2049, is the match index. -/
theorem clamp_eq_dec (w : BitVec 32) (hr : w = 4294967295#32 ∨ w.toNat ≤ 2048) :
    min (wrapWord (whereWord w)).toInt.toNat (2049 - 1) = (Spec.dec w).val := by
  have hn := wrapWord_whereWord_toNat w hr
  have hl := dec_le w
  rw [toInt_eq_toNat_of_lt (by omega), Int.toNat_natCast, hn]
  omega

/-! ## An AND-reduce of ones -/

/-- A `reduce` by `and` from 1 over an array of ones is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize List.filter _ _ = l
  induction l with
  | nil => rfl
  | cons a l ih => rw [List.foldl_cons, hx a, show IntOp.andi 1#1 1#1 = 1#1 from by decide]; exact ih

/-! ## The reference's stages at an index -/

section Stages
variable (x0 : (⟨S16x2048, .i32⟩ : BufTy).Contents (Elt Ideal)) (x2 : (⟨S16x2049x2049, .f32⟩ : BufTy).Contents (Elt Ideal))

/-! The index maps at coordinates. -/

theorem idx_v8 (b : Fin 16) (i : Fin 2048) (u : Fin 1) : idx_main_v8 (ix3 b i u) = ix2 b i := by
  funext a; match a with | ⟨0, _⟩ => rfl | ⟨1, _⟩ => rfl

theorem idx_call2_v5 (b : Fin 16) (i : Fin 2048) (u v : Fin 1) :
    idx_main_call2_v5 (ix4 b i u v) = ix3 b i (0 : Fin 1) := by
  funext a
  refine Fin.ext ?_
  have hb := b.isLt
  have hi := i.isLt
  have hu : u.val = 0 := by omega
  have hv : v.val = 0 := by omega
  match a with
  | ⟨0, _⟩ => show (((b.val * 2048 + i.val) * 1 + u.val) * 1 + v.val) / 2048 = b.val; omega
  | ⟨1, _⟩ => show (((b.val * 2048 + i.val) * 1 + u.val) * 1 + v.val) / 1 % 2048 = i.val; omega
  | ⟨2, _⟩ => rfl

theorem idx_v10 (b : Fin 16) (i : Fin 2048) (j : Fin 2049) : idx_main_v10 (ix3 b i j) = ix3 b i (0 : Fin 1) := by
  funext a; match a with | ⟨0, _⟩ => rfl | ⟨1, _⟩ => rfl | ⟨2, _⟩ => rfl

theorem idx_v7 (b : Fin 16) (i : Fin 2048) (j : Fin 2049) : idx_main_v7 (ix3 b i j) = ix3 b i.castSucc j := by
  funext a; match a with | ⟨0, _⟩ => rfl | ⟨1, _⟩ => rfl | ⟨2, _⟩ => rfl

theorem idx_v16 (b : Fin 16) (i : Fin 2048) (k : Fin 2049) : idx_main_v16 (ix2 b i) k = ix3 b i k := by
  funext a; match a with | ⟨0, _⟩ => rfl | ⟨1, _⟩ => rfl | ⟨2, _⟩ => rfl

theorem idx_v24 (b : Fin 16) (k : Fin 2048) : idx_main_v24 (ix1 b) k = ix2 b k := by
  funext a; match a with | ⟨0, _⟩ => rfl | ⟨1, _⟩ => rfl

/-- The index word handed to the gather, at row `i` of batch `b`: the match word through `where` and the wrap. -/
theorem indexWord_apply (b : Fin 16) (i : Fin 2048) (u v : Fin 1) :
    val_main_call2_v5 (F := Ideal) x0 (ix4 b i u v) = wrapWord (whereWord (x0 (ix2 b i))) := by
  rw [val_main_call2_v5_apply, idx_call2_v5, val_main_call2_v4_apply, val_main_call2_v1_apply, val_main_call2_v3_apply,
    val_main_v8_apply, idx_v8, val_main_v2_apply, val_main_v1_apply]
  rfl

/-- The bounds mask is 1 everywhere when the match words are in range. -/
theorem mask_apply (hr0 : Spec.InRange x0) (j : S16x2048x1.Idx) : val_main_call2_v12 (F := Ideal) x0 j = 1#1 := by
  unfold val_main_call2_v12
  refine reduce_andi_of_all _ _ _ _ j rfl fun i4 => ?_
  obtain ⟨b, i, u, v, rfl⟩ : ∃ (b : Fin 16) (i : Fin 2048) (u v : Fin 1), i4 = ix4 b i u v :=
    ⟨i4 0, i4 1, i4 2, i4 3, eq_ix4 i4⟩
  rw [val_main_call2_v11_apply, val_main_call2_v7_apply, val_main_call2_v10_apply, indexWord_apply]
  exact inBounds _ (hr0 (ix2 b i))

/-- The gathered value of row `i` is the row's matched score. -/
theorem matched_apply (hr0 : Spec.InRange x0) (b : Fin 16) (i : Fin 2048) :
    val_main_v9 (F := Ideal) x0 x2 (ix3 b i (0 : Fin 1)) = Spec.pos0 x2 x0 b i := by
  rw [val_main_v9_apply, mask_apply x0 hr0, select_one]
  unfold val_main_call2_v13
  refine (Cert.LibTakeAlong.gather_along_axis2 (by decide) _ rfl rfl rfl rfl rfl rfl rfl _ _ b i).trans ?_
  rw [val_main_v7_apply]
  unfold Spec.pos0
  refine congrArg x2 (funext fun a => Fin.ext ?_)
  match a with
  | ⟨0, _⟩ => rfl
  | ⟨1, _⟩ => rfl
  | ⟨2, _⟩ =>
    show min (val_main_call2_v5 (F := Ideal) x0 (ix4 b i (0 : Fin 1) (0 : Fin 1))).toInt.toNat (2049 - 1)
      = (Spec.dec (x0 (ix2 b i))).val
    rw [indexWord_apply]
    exact clamp_eq_dec _ (hr0 (ix2 b i))

/-- The hinge term of row `i`, column `j`. -/
theorem hinge_apply (hr0 : Spec.InRange x0) (b : Fin 16) (i : Fin 2048) (j : Fin 2049) :
    val_main_v15 (F := Ideal) x0 x2 (ix3 b i j)
      = max (x2 (ix3 b i.castSucc j) - Spec.pos0 x2 x0 b i + Spec.half) Spec.zero := by
  rw [val_main_v15_apply, val_main_v13_apply, val_main_v11_apply, val_main_v7_apply, idx_v7, val_main_v10_apply, idx_v10,
    matched_apply x0 x2 hr0]
  rfl

/-- The row's hinge sum: the reference's sum starts from the zero word. -/
theorem rowSum_apply (hr0 : Spec.InRange x0) (b : Fin 16) (i : Fin 2048) :
    val_main_v16 (F := Ideal) x0 x2 (ix2 b i) = Spec.rowSum x2 x0 b i := by
  rw [val_main_v16_apply]
  show Spec.zero + _ = _
  rw [Spec.zero_eq, zero_add]
  unfold Spec.rowSum
  refine Finset.sum_congr rfl fun k _ => ?_
  rw [idx_v16, hinge_apply x0 x2 hr0]

/-- The matched slot's own contribution, `max ½ 0`, is ½. -/
theorem max_half_zero : max Spec.half Spec.zero = Spec.half := by
  rw [Spec.half_eq, Spec.zero_eq]
  exact max_eq_left (EReal.coe_nonneg.mpr (by norm_num))

/-- The row's loss term. -/
theorem loss_apply (hr0 : Spec.InRange x0) (b : Fin 16) (i : Fin 2048) :
    val_main_v23 (F := Ideal) x0 x2 (ix2 b i) = Spec.lossOf (Spec.rowSum x2 x0 b i) := by
  rw [val_main_v23_apply, val_main_v21_apply, val_main_v20_apply, val_main_v18_apply, rowSum_apply x0 x2 hr0]
  show Spec.two * Ideal.log (Spec.rowSum x2 x0 b i - max Spec.half Spec.zero + Spec.one) = _
  rw [max_half_zero]
  rfl

end Stages

theorem ref_row (x0 : (⟨S16x2048, .i32⟩ : BufTy).Contents (Elt Ideal))
    (x2 : (⟨S16x2049x2049, .f32⟩ : BufTy).Contents (Elt Ideal)) (hr0 : Spec.InRange x0) (b : Fin 16) :
    val_main_v26 (F := Ideal) x0 x2 (ix1 b)
      = Ideal.div (∑ i : Fin 2048, Spec.lossOf (Spec.rowSum x2 x0 b i)) Spec.n2048 := by
  rw [val_main_v26_apply, val_main_v24_apply]
  show Ideal.div (Spec.zero + ∑ k : Fin 2048, val_main_v23 (F := Ideal) x0 x2 (idx_main_v24 (ix1 b) k)) Spec.n2048 = _
  rw [Spec.zero_eq, zero_add]
  refine congrArg (fun z => Ideal.div z Spec.n2048) (Finset.sum_congr rfl fun k _ => ?_)
  rw [idx_v24, loss_apply x0 x2 hr0]

end Cert.ReferenceIdeal.RefValue

end
-- ==== Proof.RefCol.lean ====
/-
  The reference program's mean column loss of a batch entry on the extended reals, for match words in range.
-/
import proofs.«424079_j3393024163970_3_alg».proof.Proof.RefReadP
import proofs.«424079_j3393024163970_3_alg».proof.Proof.SpecLaws
import proofs.«424079_j3393024163970_3_alg».proof.Proof.LibTakeAlong
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.ReduceAll
import Idealize.ShloMosaic.PureOps.Ideal.Laws

set_option maxRecDepth 16384

noncomputable section

/-! ## The column part, stage by stage

For batch entry `b` and column `j < 2048` the reference takes the match word `g1 b j`, replaces -1 by 2048, would
shift a negative word up by the axis extent 2049, tests `0 ≤ · ≤ 2048`, gathers along the row axis of the scores
restricted to the first 2048 columns, and keeps the gathered score where the test holds. For a word in range the
index word is the word of `dec (g1 b j)`, the test holds, and the gathered score is the matched score `pos1`. The
hinge terms, their sum over the 2049 rows from the zero word, the loss term and the mean then follow the
specification one operation at a time. -/

namespace Cert.ReferenceIdeal.RefCol

open Cert.ReferenceIdeal Cert.ReferenceIdeal.Gen Cert.ReferenceIdeal.ReadP
open Idealize.ShloMosaic Idealize.ShloMosaic.TcCoe Idealize.ShloMosaic.ValueIdx
open Idealize.ShloMosaic.StableHlo.Predicate

/-! ### One match word -/

/-- The word the reference gathers with: the match word with -1 replaced by 2048 and then, were it negative, shifted
    up by the axis extent 2049. For a word in range (-1, or at most 2048) it is the word of the decoded index: -1
    becomes 2048, which is not negative; any other word in range is below 2³¹, so it is neither -1 nor negative and
    stays itself. -/
theorem colGatherWord_eq (w : BitVec 32) (hr : w = 4294967295#32 ∨ w.toNat ≤ 2048) :
    Scalar.select (IntOp.cmpi .slt (Scalar.select (IntOp.cmpi .eq w 4294967295#32) 2048#32 w) 0#32)
        (IntOp.addi (Scalar.select (IntOp.cmpi .eq w 4294967295#32) 2048#32 w) 2049#32)
        (Scalar.select (IntOp.cmpi .eq w 4294967295#32) 2048#32 w)
      = BitVec.ofNat 32 (Spec.dec w).val := by
  rcases hr with rfl | h
  · decide
  · have hne : ¬ IntOp.cmpi .eq w 4294967295#32 = 1#1 := by
      rw [cmpi_eq_iff]; intro e; rw [e] at h; exact absurd h (by decide)
    rw [eq_zero_of_ne_one hne, select_zero]
    have hlt : ¬ IntOp.cmpi .slt w 0#32 = 1#1 := by
      rw [slt_iff_toNat (by omega) (by decide)]; exact Nat.not_lt_zero _
    rw [eq_zero_of_ne_one hlt, select_zero]
    apply BitVec.eq_of_toNat_eq
    show w.toNat = (BitVec.ofNat 32 (min w.toNat 2048)).toNat
    rw [BitVec.toNat_ofNat, Nat.min_eq_left h]
    exact (Nat.mod_eq_of_lt (by omega)).symm

/-- The word of an index at most 2048 is not below zero as a signed word, -/
theorem colWord_ge (n : Fin 2049) : IntOp.cmpi .sge (BitVec.ofNat 32 n.val) 0#32 = 1#1 := by
  have hn := n.isLt
  rw [sge_iff_toNat (by rw [BitVec.toNat_ofNat]; omega) (by decide)]
  exact Nat.zero_le _

/-- is at most 2048 as a signed word, -/
theorem colWord_le (n : Fin 2049) : IntOp.cmpi .sle (BitVec.ofNat 32 n.val) 2048#32 = 1#1 := by
  have hn := n.isLt
  rw [sle_iff_toNat (by rw [BitVec.toNat_ofNat]; omega) (by decide), BitVec.toNat_ofNat]
  show n.val % 2 ^ 32 ≤ 2048
  omega

/-- and, read signed and capped at the last position of an axis of extent 2049, is the index. -/
theorem colWord_clamp (n : Fin 2049) : min (BitVec.ofNat 32 n.val).toInt.toNat (2049 - 1) = n.val := by
  have hn := n.isLt
  rw [toInt_ofNat_small _ (by omega)]
  simp only [Int.toNat_natCast]
  omega

/-- The margin word is the larger of the margin and zero words: ½ against 0. -/
theorem colMaxHalfZero : max Spec.half Spec.zero = Spec.half := by
  rw [Spec.half_eq, Spec.zero_eq]
  exact max_eq_left (by exact_mod_cast (by norm_num : (0 : ℝ) ≤ 1 / 2))

/-! ### The matched score of a column -/

/-- The start-index array of the column gather, at any position: the word of the decoded match index of the column
    the position names. -/
theorem colIdxWord (x1 : (⟨S16x2048, .i32⟩ : BufTy).Contents (Elt Ideal)) (hr1 : Spec.InRange x1) (i : S16x1x2048x1.Idx) :
    val_main_call3_v5 (F := Ideal) x1 i
      = BitVec.ofNat 32 (Spec.dec (x1 (idx_main_v28 (idx_main_call3_v5 i)))).val := by
  rw [val_main_call3_v5_apply, val_main_call3_v4_apply, val_main_call3_v1_apply, val_main_call3_v3_apply,
    val_main_call3_v0_apply, val_main_call3_c_apply, val_main_call3_v2_apply, val_main_call3_c_0_apply,
    val_main_v28_apply, val_main_v5_apply, val_main_v4_apply, val_main_v3_apply, val_main_c_1_apply,
    val_main_call1_v1_apply, val_main_call1_v0_apply, val_main_c_2_apply]
  exact colGatherWord_eq _ (hr1 _)

/-- Start-index position `(b, 0, j, 0)` names column `j` of batch entry `b`: the reshape keeps the row-major
    position `b · 2048 + j`. -/
theorem colIdx_at (b : Fin 16) (j : Fin 2048) :
    idx_main_v28 (idx_main_call3_v5 (ix4 b (0 : Fin 1) j (0 : Fin 1))) = ix2 b j := by
  funext a
  refine Fin.ext ?_
  have hb := b.isLt
  have hj := j.isLt
  match a with
  | ⟨0, _⟩ => show (((b.val * 1 + 0) * 2048 + j.val) * 1 + 0) / 2048 = b.val; omega
  | ⟨1, _⟩ => show (((b.val * 1 + 0) * 2048 + j.val) * 1 + 0) % 2048 = j.val; omega

/-- The in-bounds test `0 ≤ · ≤ 2048` of the gather holds at every start index. -/
theorem colInb_one (x1 : (⟨S16x2048, .i32⟩ : BufTy).Contents (Elt Ideal)) (hr1 : Spec.InRange x1) (i : S16x1x2048x1.Idx) :
    val_main_call3_v11 (F := Ideal) x1 i = 1#1 := by
  rw [val_main_call3_v11_apply, val_main_call3_v7_apply, val_main_call3_v10_apply, val_main_call3_v6_apply,
    val_main_call3_c_2_apply, val_main_call3_v9_apply, val_main_call3_v8_apply, val_main_call3_c_1_apply,
    colIdxWord x1 hr1, colWord_ge, colWord_le]
  rfl

/-- Reduced by AND over its last axis, of extent one, from the bit 1, the test is 1 everywhere: the fold over the
    one coordinate of that axis is the one element AND the initial bit. -/
theorem colMask_one (x1 : (⟨S16x2048, .i32⟩ : BufTy).Contents (Elt Ideal)) (hr1 : Spec.InRange x1) (y : S16x1x2048.Idx) :
    val_main_call3_v12 (F := Ideal) x1 y = 1#1 := by
  unfold val_main_call3_v12
  rw [Host.reduce_eq_fold_single IntOp.andi _ _ reducesTo_S16x1x2048x1_S16x1x2048_d3 (by decide) h_S_]
  have fold1 : ∀ (f : Fin 1 → BitVec 1) (c : BitVec 1),
      (Finset.univ : Finset (Fin 1)).fold IntOp.andi c f = IntOp.andi (f 0) c := fun f c => by
    rw [Finset.univ_unique, Finset.fold_singleton]; rfl
  refine (fold1 _ _).trans ?_
  show IntOp.andi (val_main_call3_v11 (F := Ideal) x1 _) 1#1 = 1#1
  rw [colInb_one x1 hr1]
  rfl

/-- The column gather at `(b, 0, j)`: the score at row `dec (g1 b j)` of column `j`. The gather reads the scores
    restricted to the first 2048 columns at the start index read signed and capped at row 2048; the restriction puts
    its `(b, i, j)` at the score array's `(b, i, j)` with `j` read as a column of all 2049. -/
theorem colGather (x1 : (⟨S16x2048, .i32⟩ : BufTy).Contents (Elt Ideal)) (x2 : (⟨S16x2049x2049, .f32⟩ : BufTy).Contents (Elt Ideal))
    (hr1 : Spec.InRange x1) (b : Fin 16) (j : Fin 2048) :
    val_main_call3_v13 (F := Ideal) x1 x2 (ix3 b (0 : Fin 1) j)
      = x2 (ix3 b (Spec.dec (x1 (ix2 b j))) j.castSucc) := by
  unfold val_main_call3_v13
  rw [Cert.LibTakeAlong.gather_along_axis1 (by decide) _ rfl rfl rfl rfl rfl rfl rfl _ _ b j, val_main_v27_apply]
  refine congrArg x2 (funext fun a => Fin.ext ?_)
  match a with
  | ⟨0, _⟩ => rfl
  | ⟨1, _⟩ =>
    show min (val_main_call3_v5 (F := Ideal) x1 (ix4 b (0 : Fin 1) j (0 : Fin 1))).toInt.toNat (2049 - 1)
      = (Spec.dec (x1 (ix2 b j))).val
    rw [colIdxWord x1 hr1, colWord_clamp, colIdx_at]
  | ⟨2, _⟩ => rfl

/-- The score the reference subtracts in column `j` is the matched score of the column: the test's bit is 1, so the
    select keeps the gathered score. -/
theorem colPos (x1 : (⟨S16x2048, .i32⟩ : BufTy).Contents (Elt Ideal)) (x2 : (⟨S16x2049x2049, .f32⟩ : BufTy).Contents (Elt Ideal))
    (hr1 : Spec.InRange x1) (b : Fin 16) (j : Fin 2048) :
    val_main_v29 (F := Ideal) x1 x2 (ix3 b (0 : Fin 1) j) = Spec.pos1 x2 x1 b j := by
  rw [val_main_v29_apply, colMask_one x1 hr1, select_one, colGather x1 x2 hr1]
  rfl

/-! ### Hinge terms, their sum, the loss term -/

/-- One hinge term of the column part, row `i` of column `j`: `max (s[b,i,j] − pos1 + ½, 0)`; the matched score is
    broadcast along the rows. -/
theorem colTerm (x1 : (⟨S16x2048, .i32⟩ : BufTy).Contents (Elt Ideal)) (x2 : (⟨S16x2049x2049, .f32⟩ : BufTy).Contents (Elt Ideal))
    (hr1 : Spec.InRange x1) (b : Fin 16) (i : Fin 2049) (j : Fin 2048) :
    val_main_v35 (F := Ideal) x1 x2 (ix3 b i j)
      = max (x2 (ix3 b i j.castSucc) - Spec.pos1 x2 x1 b j + Spec.half) Spec.zero := by
  have h30 : idx_main_v30 (ix3 b i j) = ix3 b (0 : Fin 1) j :=
    funext fun a => Fin.ext (by match a with | ⟨0, _⟩ => rfl | ⟨1, _⟩ => rfl | ⟨2, _⟩ => rfl)
  have h27 : idx_main_v27 (ix3 b i j) = ix3 b i j.castSucc :=
    funext fun a => Fin.ext (by match a with | ⟨0, _⟩ => rfl | ⟨1, _⟩ => rfl | ⟨2, _⟩ => rfl)
  rw [val_main_v35_apply, val_main_v33_apply, val_main_v31_apply, val_main_v27_apply, val_main_v30_apply,
    val_main_v32_apply, val_main_cst_11_apply, val_main_v34_apply, val_main_cst_12_apply, h30, h27,
    colPos x1 x2 hr1]
  rfl

/-- The hinge sum of column `j` over all 2049 rows: the reference sums from the zero word, and `0 + x = x`. -/
theorem colSum_read (x1 : (⟨S16x2048, .i32⟩ : BufTy).Contents (Elt Ideal)) (x2 : (⟨S16x2049x2049, .f32⟩ : BufTy).Contents (Elt Ideal))
    (hr1 : Spec.InRange x1) (b : Fin 16) (j : Fin 2048) :
    val_main_v36 (F := Ideal) x1 x2 (ix2 b j) = Spec.colSum x2 x1 b j := by
  have h36 : ∀ k : Fin 2049, idx_main_v36 (ix2 b j) k = ix3 b k j := fun k =>
    funext fun a => Fin.ext (by match a with | ⟨0, _⟩ => rfl | ⟨1, _⟩ => rfl | ⟨2, _⟩ => rfl)
  rw [val_main_v36_apply, val_main_cst_13_apply]
  simp only [h36, colTerm x1 x2 hr1]
  show Spec.zero + Spec.colSum x2 x1 b j = _
  rw [Spec.zero_eq, zero_add]

/-- The loss term of column `j`: the reference takes `max (½, 0)` out of the hinge sum where the specification takes
    `½`, then `2 · log (· + 1)`. -/
theorem colLoss_read (x1 : (⟨S16x2048, .i32⟩ : BufTy).Contents (Elt Ideal)) (x2 : (⟨S16x2049x2049, .f32⟩ : BufTy).Contents (Elt Ideal))
    (hr1 : Spec.InRange x1) (b : Fin 16) (j : Fin 2048) :
    val_main_v43 (F := Ideal) x1 x2 (ix2 b j) = Spec.lossOf (Spec.colSum x2 x1 b j) := by
  rw [val_main_v43_apply, val_main_v42_apply, val_main_cst_15_apply, val_main_v41_apply, val_main_v40_apply,
    val_main_v38_apply, val_main_v39_apply, val_main_cst_14_apply, val_main_v37_apply, val_main_v6_apply,
    val_main_cst_apply, val_main_cst_3_apply, colSum_read x1 x2 hr1]
  show Spec.two * Ideal.log (Spec.colSum x2 x1 b j - max Spec.half Spec.zero + Spec.one) = _
  rw [colMaxHalfZero]
  rfl

end Cert.ReferenceIdeal.RefCol

namespace Cert.ReferenceIdeal.RefValue

open Cert.ReferenceIdeal Cert.ReferenceIdeal.Gen Cert.ReferenceIdeal.ReadP Cert.ReferenceIdeal.RefCol
open Idealize.ShloMosaic Idealize.ShloMosaic.TcCoe Idealize.ShloMosaic.ValueIdx

/-- The mean column loss of batch entry `b`: the loss terms of the 2048 columns summed from the zero word and
    divided by 2048. -/
theorem ref_col (x1 : (⟨S16x2048, .i32⟩ : BufTy).Contents (Elt Ideal))
    (x2 : (⟨S16x2049x2049, .f32⟩ : BufTy).Contents (Elt Ideal)) (hr1 : Spec.InRange x1) (b : Fin 16) :
    val_main_v46 (F := Ideal) x1 x2 (ix1 b)
      = Ideal.div (∑ j : Fin 2048, Spec.lossOf (Spec.colSum x2 x1 b j)) Spec.n2048 := by
  have h44 : ∀ k : Fin 2048, idx_main_v44 (ix1 b) k = ix2 b k := fun k =>
    funext fun a => Fin.ext (by match a with | ⟨0, _⟩ => rfl | ⟨1, _⟩ => rfl)
  rw [val_main_v46_apply, val_main_v44_apply, val_main_cst_16_apply, val_main_v45_apply, val_main_cst_17_apply]
  simp only [h44, colLoss_read x1 x2 hr1]
  show Ideal.div (Spec.zero + _) Spec.n2048 = _
  rw [Spec.zero_eq, zero_add]

end Cert.ReferenceIdeal.RefValue

end
-- ==== Proof.RefValue.lean ====
/-
  The reference program's result on the extended reals is the loss `G` of its three arguments, for match words in range:
  the mean of the batch entry's mean row loss and mean column loss.
-/
import proofs.«424079_j3393024163970_3_alg».proof.Proof.RefRow
import proofs.«424079_j3393024163970_3_alg».proof.Proof.RefCol

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

theorem ref_val_eq (x0 x1 : (⟨S16x2048, .i32⟩ : BufTy).Contents (Elt Ideal))
    (x2 : (⟨S16x2049x2049, .f32⟩ : BufTy).Contents (Elt Ideal))
    (hr0 : Spec.InRange x0) (hr1 : Spec.InRange x1) :
    val_main_v49 (F := Ideal) x0 x1 x2 = Spec.G x2 x0 x1 := by
  funext y
  obtain ⟨b, rfl⟩ : ∃ b : Fin 16, y = ix1 b := ⟨y 0, eq_ix1 y⟩
  rw [val_main_v49_apply, val_main_v47_apply, ref_row x0 x2 hr0 b, ref_col x1 x2 hr1 b, val_main_v48_apply, val_main_cst_18_apply]
  rfl

end Cert.ReferenceIdeal.RefValue

end
-- ==== Proof.Pre.lean ====
/-
  What the precondition says of the inputs: every score is a real number, and every match word is -1 or at most 2048.

  The printed predicate is a conjunction of five `jnp.all`s: |score| < +∞ at every index, and, for each match array,
  -1 ≤ word and word ≤ 2048 read signed. A conjunction of `i1` words is 1 when each is; an all-reduce by `and` that
  is 1 met a 1 at every index; an extended real whose absolute value is below +∞ is a real; and a 32-bit word between
  -1 and 2048 signed is either the all-ones word or at most 2048 unsigned.
-/
import proofs.«424079_j3393024163970_3_alg».proof.Proof.Gen.Pre_finite_inputs
import proofs.«424079_j3393024163970_3_alg».proof.Proof.Spec
import Idealize.ShloMosaic.Lib.ReduceAll
import Idealize.ShloMosaic.Lib.StableHlo.Predicate

noncomputable section

namespace Cert.PreDecode

open Idealize.ShloMosaic Idealize.ShloMosaic.ValueIdx

/-- The scalar shape has one index. -/
instance subsingleton_scalar_idx : Subsingleton Cert.Pre_finite_inputs.S_.Idx := ⟨fun a b => funext fun d => d.elim0⟩

/-- An extended real whose absolute value compares below the word of +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- A 32-bit word that is at least -1 and at most 2048, read signed, is the all-ones word or at most 2048 unsigned. -/
theorem word_in_range (w : BitVec 32) (h1 : IntOp.cmpi .sge w 4294967295#32 = 1#1) (h2 : IntOp.cmpi .sle w 2048#32 = 1#1) :
    w = 4294967295#32 ∨ w.toNat ≤ 2048 := by
  rw [IntOp.cmpi_sge] at h1
  rw [IntOp.cmpi_sle] at h2
  have e1 : (4294967295#32 : BitVec 32).toInt = -1 := by decide
  have e2 : (2048#32 : BitVec 32).toInt = 2048 := by decide
  rw [e1] at h1; rw [e2] at h2
  have hlt := w.isLt
  rw [BitVec.toInt_eq_toNat_cond] at h1 h2
  by_cases hc : 2 * w.toNat < 2 ^ 32
  · rw [if_pos hc] at h1 h2; right; omega
  · rw [if_neg hc] at h1 h2; left
    apply BitVec.eq_of_toNat_eq
    show w.toNat = 4294967295
    omega

theorem pre_decode (a0 a1 : IVec Cert.Pre_finite_inputs.S16x2048 32) (a2 : FVec Ideal Cert.Pre_finite_inputs.S16x2049x2049 .f32)
    (h : Cert.Pre_finite_inputs.fn (F := Ideal) a0 a1 a2 = fun _ => 1#1) :
    Cert.Spec.InRange a0 ∧ Cert.Spec.InRange a1 ∧ Cert.Spec.Finite a2 := by
  have e := congrFun h ix0
  dsimp only [Cert.Pre_finite_inputs.fn, Cert.Pre_finite_inputs.fn_part1] at e
  -- the five conjuncts, each an all-reduce by `and`
  simp only [andi, IntOp.andi_eq_one] at e
  obtain ⟨⟨⟨⟨hfin, hge0⟩, hle0⟩, hge1⟩, hle1⟩ := e
  refine ⟨fun i => ?_, fun i => ?_, fun i => ?_⟩
  · exact word_in_range (a0 i) (Host.reduce_andi_all _ _ _ _ _ hge0 i) (Host.reduce_andi_all _ _ _ _ _ hle0 i)
  · exact word_in_range (a1 i) (Host.reduce_andi_all _ _ _ _ _ hge1 i) (Host.reduce_andi_all _ _ _ _ _ hle1 i)
  · exact real_of_abs_lt_inf (a2 i) (Host.reduce_andi_all _ _ _ _ _ hfin i)

end Cert.PreDecode

end
-- ==== Proof.lean ====
/-
  The certificate: the three frames, the (empty) idealization ledger, and the equivalence on the extended reals.

  Under the precondition — every score a real number, every match word -1 or at most 2048 — both idealized programs
  end with the same loss `G` of their arguments (Proof/Spec.lean): the kernel program because the host lines after its
  one pipeline combine the pipeline's two result arrays into the loss in the kernel's arrangement
  (Proof/KernelIdeal/KValue.lean), the reference because its host lines are that loss read stage by stage
  (Proof/RefValue.lean). The frames of the two kernel programs are the pipeline's run with the body's triple
  (Proof/Kernel/Body.lean, Proof/KernelIdeal/Body.lean); the reference's frame is its run with the result dropped.
-/
import proofs.«424079_j3393024163970_3_alg».proof.Defs
import proofs.«424079_j3393024163970_3_alg».proof.Proof.Gen.Kernel
import proofs.«424079_j3393024163970_3_alg».proof.Proof.Gen.KernelIdeal
import proofs.«424079_j3393024163970_3_alg».proof.Proof.Gen.ReferenceIdeal
import proofs.«424079_j3393024163970_3_alg».proof.Proof.Gen.Pre_finite_inputs
import proofs.«424079_j3393024163970_3_alg».proof.Proof.Kernel.Body
import proofs.«424079_j3393024163970_3_alg».proof.Proof.KernelIdeal.Body
import proofs.«424079_j3393024163970_3_alg».proof.Proof.KernelIdeal.KValue
import proofs.«424079_j3393024163970_3_alg».proof.Proof.RefRunP
import proofs.«424079_j3393024163970_3_alg».proof.Proof.RefReadP
import proofs.«424079_j3393024163970_3_alg».proof.Proof.RefValue
import proofs.«424079_j3393024163970_3_alg».proof.Proof.Pre
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the loss `G` of the kernel program's arguments. -/
theorem algebraic : Cert.algebraic_KernelIdeal_ReferenceIdeal := by
  intro m ρ m' ρ' hpre hagree
  have hdec := fun c => Cert.PreDecode.pre_decode _ _ _ (hpre c)
  refine ⟨fun c => Cert.Spec.G (m ((c.tc : Thread Cert.KernelIdeal.nD Cert.KernelIdeal.τ).loc Cert.KernelIdeal.main_arg2))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_, ?_⟩) (Cert.KernelIdeal.Hand.run_main (F := Ideal) m ρ)
    · exact ((h c).2 Cert.KernelIdeal.main_v52 (Pipeline.mem_restRefs_of Cert.KernelIdeal.main_v52 (by decide) (by decide))).trans
        (Cert.KernelIdeal.Hand.kernel_value m c (hdec c).1 (hdec c).2.1 (hdec c).2.2)
    · exact ((h c).2 Cert.KernelIdeal.main_arg0 (Pipeline.mem_restRefs_of Cert.KernelIdeal.main_arg0 (by decide) (by decide))).trans
        (Cert.KernelIdeal.Gen.W_main_arg0 m (Cert.KernelIdeal.Hand.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Hand.dats m) c)
    · exact ((h c).1 0).trans (((Cert.KernelIdeal.Hand.dats m 0 c).arrAt_in 0 rfl _).trans
        ((Cert.KernelIdeal.Hand.A_eq m c 0).trans (Cert.KernelIdeal.Gen.V_main_arg2 m c)))
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v49_eq, (hagree c).1, (hagree c).2.1, (hagree c).2.2]
    exact Cert.ReferenceIdeal.RefValue.ref_val_eq _ _ _ (hdec c).1 (hdec c).2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
